-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S1x3 : Shape := ⟨2, ![1, 3]⟩
abbrev S8192x122 : Shape := ⟨2, ![8192, 122]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S8192x122 : S_.BroadcastsInDim S8192x122 (![] : Fin 0 → Fin S8192x122.rank)
  reducesTo_S8192x122_S_d0_1 : S8192x122.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128x256 .f32) (main_arg8 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x256 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8192x3 .f32) (main_arg1 : FVec F S1x3 .f32) (main_arg2 : FVec F S8192x122 .f32) (main_arg3 : FVec F S128x128 .f32) (main_arg4 : FVec F S128 .f32) (main_arg5 : FVec F S128x128 .f32) (main_arg6 : FVec F S128 .f32) (main_arg7 : FVec F S128x256 .f32) (main_arg8 : FVec F S128 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S1x3 .f32 := Host.absf main_arg1
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_v9 : FVec F S8192x122 .f32 := Host.absf main_arg2
  let main_cst_2 : FVec F S_ .f32 := constant S_ .f32 0x7F800000#32
  let main_v10 : FVec F S8192x122 .f32 := broadcastInDim S8192x122 ![] bcast_S_S8192x122 main_cst_2
  let main_v11 : IVec S8192x122 1 := cmpf .olt main_v9 main_v10
  let main_c_3 : IVec S_ 1 := constantI S_ 1 1#1
  let main_v12 : IVec S_ 1 := (fun x v => Host.reduce IntOp.andi x v reducesTo_S8192x122_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S8192x3 : Shape := ⟨2, ![8192, 3]⟩
abbrev S1x3 : Shape := ⟨2, ![1, 3]⟩
abbrev S8192x122 : Shape := ⟨2, ![8192, 122]⟩
abbrev S128x128 : Shape := ⟨2, ![128, 128]⟩
abbrev S128 : Shape := ⟨1, ![128]⟩
abbrev S128x256 : Shape := ⟨2, ![128, 256]⟩
abbrev S8192x128 : Shape := ⟨2, ![8192, 128]⟩
abbrev S1x128 : Shape := ⟨2, ![1, 128]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 19
  | .vmem => 27
  | .smem => 0
  | _ => 0

abbrev bufTy : (tb : Table) → Fin (tcTables nBuf tb) → BufTy
  | .hbm, ⟨0, _⟩ => ⟨S8192x3, .f32⟩
  | .hbm, ⟨1, _⟩ => ⟨S1x3, .f32⟩
  | .hbm, ⟨2, _⟩ => ⟨S8192x122, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S8192x3, .f32⟩
  | .hbm, ⟨10, _⟩ => ⟨S8192x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S8192x128, .bf16⟩
  | .hbm, ⟨15, _⟩ => ⟨S8192x128, .bf16⟩
  | .hbm, ⟨16, _⟩ => ⟨S8192x128, .bf16⟩
  | .hbm, ⟨17, _⟩ => ⟨S8192x128, .f32⟩
  | .hbm, ⟨18, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x256, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S8192x128, .bf16⟩
  | .local _ .vmem, ⟨19, _⟩ => ⟨S8192x128, .bf16⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x1, .f32⟩
  | .local _ .vmem, ⟨25, _⟩ => ⟨S1024x1, .f32⟩
  | .local _ .vmem, ⟨26, _⟩ => ⟨S1024x128, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_21 : BitVec 32 := 0#32
  let v47 : BitVec 1 := Scalar.cmpi .ne v46 c0_i32_21
  v47

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S1x3_S8192x3_0_1 : S1x3.BroadcastsInDim S8192x3 (![0, 1] : Fin 2 → Fin S8192x3.rank)
  concatenates_S8192x3_S8192x3_S8192x122_S8192x128_d1 : Shape.Concatenates [S8192x3, S8192x3, S8192x122] S8192x128 1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  packedbf16_S1024x128_S1024x128_0_0 : (Rect.unit (s := S1024x128) ![0, 0] S1024x128.size inb_S1024x128_S1024x128_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .bf16 = 32 ∨ (Rect.block (s := S8192x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S8192x128.size a
  hwx0_8 : ∀ i : grid0.Coords, EltTy.bits .bf16 = 32 ∨ (Rect.block (s := S8192x128) S1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S8192x128.size a
  hwx0_9 : ∀ i : grid0.Coords, EltTy.bits .bf16 = 32 ∨ (Rect.block (s := S8192x128) S1024x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S8192x128.size a
  hwx0_10 : ∀ i : grid0.Coords, EltTy.bits .f32 = 32 ∨ (Rect.block (s := S8192x128) S1024x128.size (cc0_transform_10 i) (hinb0_10 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S1024x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_3) S1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v5_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_3) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x3 : Shape := ⟨2, ![8192, 3]⟩
abbrev S1x3 : Shape := ⟨2, ![1, 3]⟩
abbrev S8192x122 : Shape := ⟨2, ![8192, 122]⟩
abbrev S128x128 : Shape := ⟨2, ![128, 128]⟩
abbrev S128 : Shape := ⟨1, ![128]⟩
abbrev S128x256 : Shape := ⟨2, ![128, 256]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S1x3, .f32⟩
  | .hbm, ⟨2, _⟩ => ⟨S8192x122, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S8192x3, .f32⟩
  | .hbm, ⟨10, _⟩ => ⟨S8192x128, .f32⟩
  | .hbm, ⟨11, _⟩ => ⟨S128x128, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S128x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S128x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S8192x128, .f32⟩
  | .hbm, ⟨41, _⟩ => ⟨S8192x128, .f32⟩
  | .hbm, ⟨42, _⟩ => ⟨S128x128, .f32⟩
  | .hbm, ⟨43, _⟩ => ⟨S8192x128, .f32⟩
  | .hbm, ⟨44, _⟩ => ⟨S8192x128, .f32⟩
  | .hbm, ⟨45, _⟩ => ⟨S1x128, .f32⟩
  | .hbm, ⟨46, _⟩ => ⟨S8192x128, .f32⟩
  | .hbm, ⟨47, _⟩ => ⟨S8192x128, .f32⟩
  | .hbm, ⟨48, _⟩ => ⟨S8192x128, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S1x3_S8192x3_0_1 : S1x3.BroadcastsInDim S8192x3 (![0, 1] : Fin 2 → Fin S8192x3.rank)
  concatenates_S8192x3_S8192x3_S8192x122_S8192x128_d1 : Shape.Concatenates [S8192x3, S8192x3, S8192x122] S8192x128 1
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  slices_S128x256_S128x128_0_0 : S128x256.Slices ![0, 0] S128x128
  slices_S128x256_S128x128_0_128 : S128x256.Slices ![0, 128] S128x128
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BStep.lean ====
/-
  The two kernels' arithmetic per grid point, as pure functions of the blocks a point reads.

  The projection kernel turns a block of 1024 rows of the concatenated features `x` and the weights
  into four blocks: the keys `x·Wkᵀ + bk`, the queries `x·Wqᵀ + bq`, the values `queries·Wv_qᵀ`
  and the residual `keys + (keys·Wv_kᵀ + bv)`.

  The attention kernel walks the queries in eight tiles of 1024 for each block of 1024 keys, and
  keeps three running quantities per key row between tiles: the maximum score so far `M`, the sum of
  `exp (score − M)` so far `L`, and the sum of `exp (score − M) · value` so far `ACC`. A tile
  replaces `M` by its maximum with the tile's largest score, rescales `L` and `ACC` by
  `exp (M_old − M_new)` and adds the tile's terms. After the last tile the result is
  `ACC · (1 / L) + residual`.
-/
import proofs.«409729_j40200893890895_3_alg».proof.Proof.Gen.Kernel.Skeleton

noncomputable section

namespace Cert.Kernel.Fr

open Idealize.ShloMosaic Cert.Kernel Cert.Kernel.Gen

variable {F : FTy → Type} [FloatOps F]

/-! ## The projection kernel -/

/-- The keys of a block of rows: `x·Wkᵀ + bk`. -/
def keysB (x : Vec F S1024x128 .f32) (wk : Vec F S128x128 .f32) (bk : Vec F S1x128 .f32) : Vec F S1024x128 .bf16 :=
  k0_pay5 x wk bk

/-- The queries of a block of rows: `x·Wqᵀ + bq`. -/
def qrysB (x : Vec F S1024x128 .f32) (wq : Vec F S128x128 .f32) (bq : Vec F S1x128 .f32) : Vec F S1024x128 .bf16 :=
  k0_pay6 x wq bq

/-- The values of a block of rows: `queries·Wv_qᵀ`, `Wv_q` the left half of `Wv`. -/
def valsB (x : Vec F S1024x128 .f32) (wq : Vec F S128x128 .f32) (bq : Vec F S1x128 .f32) (wv : Vec F S128x256 .f32) :
    Vec F S1024x128 .bf16 :=
  k0_pay1 (k0_pay7 x wq bq wv)

/-- The residual of a block of rows: `keys + (keys·Wv_kᵀ + bv)`, `Wv_k` the right half of `Wv`. -/
def resB (x : Vec F S1024x128 .f32) (wk : Vec F S128x128 .f32) (bk : Vec F S1x128 .f32) (wv : Vec F S128x256 .f32)
    (bv : Vec F S1x128 .f32) : Vec F S1024x128 .f32 :=
  k0_pay2 (k0_pay4 x wk bk) (k0_pay8 x wk bk wv bv)

/-! ## The attention kernel -/

/-- The running maximum before the first tile: `-∞` in every row. -/
def m0 : Vec F S1024x1 .f32 := k1_pay4 (F := F)
/-- The running sum of exponentials before the first tile: zero. -/
def l0 : Vec F S1024x1 .f32 := k1_pay5 (F := F)
/-- The running weighted sum of values before the first tile: zero. -/
def a0 : Vec F S1024x128 .f32 := k1_pay6 (F := F)

/-- The running maximum after a tile: the larger of the old one and the tile's largest score. -/
def mNew (kb qs : Vec F S1024x128 .bf16) (M : Vec F S1024x1 .f32) : Vec F S1024x1 .f32 :=
  k1_pay2 (k1_pay9 kb qs M)

/-- The running sum of exponentials after a tile: the old one rescaled to the new maximum, plus the tile's. -/
def lNew (kb qs : Vec F S1024x128 .bf16) (M L : Vec F S1024x1 .f32) : Vec F S1024x1 .f32 :=
  k1_pay13 kb qs M M L

/-- The running weighted sum of values after a tile: the old one rescaled to the new maximum, plus the tile's. -/
def aNew (kb qs vs : Vec F S1024x128 .bf16) (M : Vec F S1024x1 .f32) (ACC : Vec F S1024x128 .f32) : Vec F S1024x128 .f32 :=
  k1_pay1 (k1_pay7 vs) (k1_pay12 kb qs M) ACC (k1_pay14 kb qs M M)

/-- The result block after the last tile: `ACC · (1 / L) + residual`. -/
def outFin (L : Vec F S1024x1 .f32) (ACC : Vec F S1024x128 .f32) (rb : Vec F S1024x128 .f32) : Vec F S1024x128 .f32 :=
  k1_pay3 L ACC rb

end Cert.Kernel.Fr

end
-- ==== Proof.BReg0.lean ====
/-
  The projection kernel's region, at the contents `V` the TensorCore's buffers hold when it is entered.

  The region has eight grid points, one per block of 1024 rows. At each point the body reads the block of
  `x` and the six weight and bias arrays (whole, fetched once), and writes four blocks: the keys, the
  queries, the values and the residual of those rows (`Step.lean`). Nothing is kept between points.
  Stated here: the region's proof data (each staging buffer after the body at each point) and the body's
  obligation at every point.
-/
import proofs.«409729_j40200893890895_3_alg».proof.Proof.BStep
import proofs.«409729_j40200893890895_3_alg».proof.Proof.Gen.Kernel.Launch
import proofs.«409729_j40200893890895_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data on core `c`: the arrays as found; after the body each input's buffer at its block and the
    four outputs' at the keys, queries, values and residual of the point's rows; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => keysB (iblk0 V c 0 t) (iblk0 V c 3 t) (iblk0 V c 4 t)
    | ⟨8, _⟩ => qrysB (iblk0 V c 0 t) (iblk0 V c 1 t) (iblk0 V c 2 t)
    | ⟨9, _⟩ => valsB (iblk0 V c 0 t) (iblk0 V c 1 t) (iblk0 V c 2 t) (iblk0 V c 5 t)
    | ⟨10, _⟩ => resB (iblk0 V c 0 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = keysB (iblk0 V c 0 t) (iblk0 V c 3 t) (iblk0 V c 4 t) := by dsimp only [dat0]
theorem after0_8 (c : Dev nD) (t : Fin cfg0.N) : (dat0 V c).after 8 t = qrysB (iblk0 V c 0 t) (iblk0 V c 1 t) (iblk0 V c 2 t) := by dsimp only [dat0]
theorem after0_9 (c : Dev nD) (t : Fin cfg0.N) : (dat0 V c).after 9 t = valsB (iblk0 V c 0 t) (iblk0 V c 1 t) (iblk0 V c 2 t) (iblk0 V c 5 t) := by dsimp only [dat0]
theorem after0_10 (c : Dev nD) (t : Fin cfg0.N) : (dat0 V c).after 10 t = resB (iblk0 V c 0 t) (iblk0 V c 3 t) (iblk0 V c 4 t) (iblk0 V c 5 t) (iblk0 V c 6 t) := by dsimp only [dat0]

/-! ## Loads and stores through a whole buffer

Every access of the body is through the rectangle of its buffer's own sizes at zero offsets: a load through it reads
the buffer's contents, and one store through it leaves the stored value, whatever the buffer held. -/

/-- The two zero offsets are the zero offset vector. -/
theorem off2_zero : (![0, 0] : Fin 2 → ℕ) = fun _ => 0 := by
  funext a; fin_cases a <;> rfl

/-- A load through the whole buffer reads what the buffer holds. -/
theorem readAt_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- One store through the whole buffer leaves the stored value: its rectangle holds every index, so the buffer reads
    as the one piece's canon, which is the piece's value. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero hz inb y⟩)).trans
    (View.canon_unit_zero hz inb w)

/-! ## The body's triple -/

set_option maxHeartbeats 4000000 in
/-- The body on whole buffers, the seven inputs' at contents `x0 … x6` and the four outputs' at anything, runs to the
    continuation holding the inputs' as they were and the outputs' at the keys, queries, values and residual of `x0`
    under the weights: it loads the seven inputs whole, and stores each output whole once (after a load of it whose
    value it does not use). -/
theorem sound_kernel0 (c : Dev nD) (E : Set ℕ) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1024x128 .f32) (harg11 : arg11.IsWhole)
    (x0 : Vec F S1024x128 .f32) (x1 : Vec F S128x128 .f32) (x2 : Vec F S1x128 .f32) (x3 : Vec F S128x128 .f32) (x4 : Vec F S1x128 .f32) (x5 : Vec F S128x256 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (keysB x0 x3 x4) ∗ owns (c : Thread nD τ) arg9 fullShare (qrysB x0 x1 x2) ∗ owns (c : Thread nD τ) arg10 fullShare (valsB x0 x1 x2 x5) ∗ owns (c : Thread nD τ) arg11 fullShare (resB x0 x3 x4 x5 x6)) -∗ K ⟨⟩))
      ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10 arg11 harg11) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    ipureintro
    refine (read_store_whole (S := S1024x128) _ _ off2_zero _ _).trans ?_
    simp only [readAt_whole (S := S1024x128) _ _ off2_zero, readAt_whole (S := S128x128) _ _ off2_zero,
      readAt_whole (S := S1x128) _ _ off2_zero, readAt_whole (S := S128x256) _ _ off2_zero]
    rfl
  isplitl [H8]
  · iexists _; isplitr
    swap
    · iexact H8
    ipureintro
    refine (read_store_whole (S := S1024x128) _ _ off2_zero _ _).trans ?_
    simp only [readAt_whole (S := S1024x128) _ _ off2_zero, readAt_whole (S := S128x128) _ _ off2_zero,
      readAt_whole (S := S1x128) _ _ off2_zero, readAt_whole (S := S128x256) _ _ off2_zero]
    rfl
  isplitl [H9]
  · iexists _; isplitr
    swap
    · iexact H9
    ipureintro
    refine (read_store_whole (S := S1024x128) _ _ off2_zero _ _).trans ?_
    simp only [readAt_whole (S := S1024x128) _ _ off2_zero, readAt_whole (S := S128x128) _ _ off2_zero,
      readAt_whole (S := S1x128) _ _ off2_zero, readAt_whole (S := S128x256) _ _ off2_zero]
    rfl
  iexists _; isplitr
  swap
  · iexact H10
  ipureintro
  refine (read_store_whole (S := S1024x128) _ _ off2_zero _ _).trans ?_
  simp only [readAt_whole (S := S1024x128) _ _ off2_zero, readAt_whole (S := S128x128) _ _ off2_zero,
    readAt_whole (S := S1x128) _ _ off2_zero, readAt_whole (S := S128x256) _ _ off2_zero]
  rfl

/-! ## The inputs' buffers when the body is called

Each of the seven inputs is a window the pipeline never cuts and never leaves idle, and the body leaves its buffer
as it found it. So at every point the buffer holds the point's block, whether or not the pipeline fetched it there:
`x`'s block is fetched at every point; the six weight and bias arrays are fetched at the first point only, and at
a later point their block index has not moved, so the buffer still holds the block. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; rfl
  rw [(dat0 V c).before_in_eq_fetched 0 rfl (fun _ => rfl) (fun _ _ _ => rfl) hkeep t d]
  rfl
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; rfl
  rw [(dat0 V c).before_in_eq_fetched 1 rfl (fun _ => rfl) (fun _ _ _ => rfl) hkeep t d]
  rfl
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; rfl
  rw [(dat0 V c).before_in_eq_fetched 2 rfl (fun _ => rfl) (fun _ _ _ => rfl) hkeep t d]
  rfl
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := by
    intro s; rw [after0_3]; rfl
  rw [(dat0 V c).before_in_eq_fetched 3 rfl (fun _ => rfl) (fun _ _ _ => rfl) hkeep t d]
  rfl
theorem before0_4 (c : Dev nD) (t : Fin cfg0.N) (d) : (dat0 V c).before 4 t d = iblk0 V c 4 t := by
  have hkeep : ∀ s, (cfg0.win 4).cut (cfg0.grid.coords s) ((dat0 V c).after 4 s) = (dat0 V c).blockOf 4 s := by
    intro s; rw [after0_4]; rfl
  rw [(dat0 V c).before_in_eq_fetched 4 rfl (fun _ => rfl) (fun _ _ _ => rfl) hkeep t d]
  rfl
theorem before0_5 (c : Dev nD) (t : Fin cfg0.N) (d) : (dat0 V c).before 5 t d = iblk0 V c 5 t := by
  have hkeep : ∀ s, (cfg0.win 5).cut (cfg0.grid.coords s) ((dat0 V c).after 5 s) = (dat0 V c).blockOf 5 s := by
    intro s; rw [after0_5]; rfl
  rw [(dat0 V c).before_in_eq_fetched 5 rfl (fun _ => rfl) (fun _ _ _ => rfl) hkeep t d]
  rfl
theorem before0_6 (c : Dev nD) (t : Fin cfg0.N) (d) : (dat0 V c).before 6 t d = iblk0 V c 6 t := by
  have hkeep : ∀ s, (cfg0.win 6).cut (cfg0.grid.coords s) ((dat0 V c).after 6 s) = (dat0 V c).blockOf 6 s := by
    intro s; rw [after0_6]; rfl
  rw [(dat0 V c).before_in_eq_fetched 6 rfl (fun _ => rfl) (fun _ _ _ => rfl) hkeep t d]
  rfl

/-! ## The body's obligation at a point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, the outputs' hold anything, so the body's triple
    applies at the blocks; the invariant and what the core owes are not read and do not change. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation at every point of the region. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BReg1.lean ====
/-
  The attention kernel's region, at the contents `V` the TensorCore's buffers hold when it is entered.

  The grid has 8 × 8 points: point `t` works on the block `t / 8` of 1024 key rows and the tile `t % 8` of 1024
  queries. The body reads the keys' block, the tile of the (resident) queries and values, and three scratch
  buffers holding the running maximum, the running sum of exponentials and the running weighted sum of values
  of the block's rows; at a block's first tile it first resets them; at its last tile it also reads the residual's
  block and writes the result block. Stated here: what the three scratch buffers hold after each point (by
  recursion on the point), the region's proof data, its invariant between points (the scratch buffers at those
  contents) and the body's obligation at every point.
-/
import proofs.«409729_j40200893890895_3_alg».proof.Proof.BStep
import proofs.«409729_j40200893890895_3_alg».proof.Proof.Gen.Kernel.Launch
import proofs.«409729_j40200893890895_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident queries and values a point reads: 1024 rows from row `1024 · (t % 8)`. -/
abbrev rq (i : grid1.Coords) : Rect S8192x128 := Rect.unit (s := S8192x128) (k1_off1 i) S1024x128.size (k1_off1_inb i)

/-- The tile of queries point `t` reads. -/
def qtile (c : Dev nD) (t : Fin cfg1.N) : Vec F S1024x128 .bf16 := View.ld (iblk1 V c 1 t) (rq (grid1.coords t))
/-- The tile of values point `t` reads. -/
def vtile (c : Dev nD) (t : Fin cfg1.N) : Vec F S1024x128 .bf16 := View.ld (iblk1 V c 2 t) (rq (grid1.coords t))

/-- The running maximum, sum of exponentials and weighted sum of values of a block's rows. -/
abbrev Acc (F : FTy → Type) : Type := Vec F S1024x1 .f32 × Vec F S1024x1 .f32 × Vec F S1024x128 .f32

/-- One tile's update of the three running quantities. -/
def stepS (c : Dev nD) (t : Fin cfg1.N) (s : Acc F) : Acc F :=
  (mNew (iblk1 V c 0 t) (qtile V c t) s.1, lNew (iblk1 V c 0 t) (qtile V c t) s.1 s.2.1,
    aNew (iblk1 V c 0 t) (qtile V c t) (vtile V c t) s.1 s.2.2)

/-- What the three scratch buffers hold after point `n`: the tile's update of what the point before left, or of the
    reset values at a block's first tile. -/
def scAt (c : Dev nD) : (n : ℕ) → n < cfg1.N → Acc F
  | 0, h => stepS V c ⟨0, h⟩ (m0, l0, a0)
  | n + 1, h => stepS V c ⟨n + 1, h⟩ (if (n + 1) % 8 = 0 then (m0, l0, a0) else scAt c n (Nat.lt_of_succ_lt h))

theorem scAt_zero (c : Dev nD) (h : 0 < cfg1.N) : scAt V c 0 h = stepS V c ⟨0, h⟩ (m0, l0, a0) := rfl
theorem scAt_succ (c : Dev nD) (n : ℕ) (h : n + 1 < cfg1.N) :
    scAt V c (n + 1) h = stepS V c ⟨n + 1, h⟩ (if (n + 1) % 8 = 0 then (m0, l0, a0) else scAt V c n (Nat.lt_of_succ_lt h)) := rfl

/-- The three scratch buffers. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-- The core's scoped buffers that are neither this region's staging buffers nor its scratch (the other region's
    staging buffers), each whole at some contents. -/
def otherScoped (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg9_1), ((c : Thread nD τ).loc cc0_stg9_1) ↦{fullShare} f)
      ∗ (∃ f : Buf (Elt F) ((c : Thread nD τ).loc cc0_stg10_0), ((c : Thread nD τ).loc cc0_stg10_0) ↦{fullShare} f)
      ∗ (∃ f : Buf (Elt F) ((c : Thread nD τ).loc cc0_stg10_1), ((c : Thread nD τ).loc cc0_stg10_1) ↦{fullShare} f))

/-- The region's invariant before position `n`: before the first point every scoped buffer the region does not stage
    at anything; afterwards the three scratch buffers at what the point before left, the rest at anything. -/
def PhiS (c : Dev nD) : (n : ℕ) → n ≤ cfg1.N → sProp 𝕄
  | 0, _ => Pipeline.ΦA spec1 c
  | n + 1, hn => iprop(otherScoped (F := F) c
      ∗ owns (c : Thread nD τ) scM fullShare (scAt V c n hn).1
      ∗ owns (c : Thread nD τ) scL fullShare (scAt V c n hn).2.1
      ∗ owns (c : Thread nD τ) scA fullShare (scAt V c n hn).2.2
      ∗ ∃ r, prngReg c r)

/-- The region's proof data on core `c`: the arrays as found; after the body each input's buffer at its block and the
    output's at the result block of the running quantities the point leaves (consulted at a block's last tile only);
    the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outFin (scAt V c t.val t.isLt).2.1 (scAt V c t.val t.isLt).2.2 (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = outFin (scAt V c t.val t.isLt).2.1 (scAt V c t.val t.isLt).2.2 (iblk1 V c 3 t) := by dsimp only [dat1]

/-! ## The two conditionals and the output window's idle points, in closed form over the grid -/

/-- The first conditional's condition (the reset of the running quantities), from the grid coordinates. -/
abbrev condR (i : grid1.Coords) : Prop := (Scalar.cmpi .ne (Scalar.extui (Scalar.cmpi .eq (BitVec.ofNat 32 (i 1).val) 0#32)) 0#32) = 1#1
/-- It holds exactly at a block's first tile. -/
theorem hcondR : ∀ t : Fin cfg1.N, condR (grid1.coords t) ↔ t.val % 8 = 0 :=
  (by decide +kernel : ∀ t : Fin grid1.N, condR (grid1.coords t) ↔ t.val % 8 = 0)
/-- The second conditional's condition (the write of the result block) holds exactly at a block's last tile. -/
theorem hcondW : ∀ t : Fin cfg1.N, k1_cond2 (grid1.coords t) = 1#1 ↔ t.val % 8 = 7 :=
  (by decide +kernel : ∀ t : Fin grid1.N, k1_cond2 (grid1.coords t) = 1#1 ↔ t.val % 8 = 7)
/-- The input windows are never idle. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- The output window is idle away from a block's last tile, and live there. -/
theorem idle_4 : ∀ t : Fin cfg1.N, ¬ t.val % 8 = 7 → cfg1.idle 4 (grid1.coords t) = true := by decide +kernel
theorem live_4 : ∀ t : Fin cfg1.N, t.val % 8 = 7 → cfg1.idle 4 (grid1.coords t) = false := by decide +kernel
theorem noFlush_4 : ∀ t : Fin cfg1.N, ¬ t.val % 8 = 7 → (cfg1.win 4).flush t = false := by decide +kernel

/-! ## The scoped buffers the region does not stage: the other region's staging buffers, the three scratch buffers, the generator register -/

/-- What the launch hands the region, with the scratch buffers as memrefs owned at some contents. -/
abbrev PhiSplit (c : Dev nD) : sProp 𝕄 :=
  iprop(otherScoped (F := F) c
    ∗ (∃ d, owns (c : Thread nD τ) scM fullShare d)
    ∗ (∃ d, owns (c : Thread nD τ) scL fullShare d)
    ∗ (∃ d, owns (c : Thread nD τ) scA fullShare d)
    ∗ ∃ r, prngReg c r)

theorem phiA_split (c : Dev nD) : (Pipeline.ΦA spec1 c : sProp 𝕄) ⊢ PhiSplit (F := F) c := by
  unfold Pipeline.ΦA PhiSplit otherScoped; rw [scopedRest1_eq]; simp only [owns_whole]
  iintro ⟨⟨H1, H2, H3, H4, H5, H6, H7, H8, H9, H10, H11, H12, H13, H14, H15, H16, S0, S1, S2⟩, Hg⟩
  iframe

theorem phiA_join (c : Dev nD) : PhiSplit (F := F) c ⊢ (Pipeline.ΦA spec1 c : sProp 𝕄) := by
  unfold Pipeline.ΦA PhiSplit otherScoped; rw [scopedRest1_eq]; simp only [owns_whole]
  iintro ⟨⟨H1, H2, H3, H4, H5, H6, H7, H8, H9, H10, H11, H12, H13, H14, H15, H16⟩, S0, S1, S2, Hg⟩
  iframe

/-! ## The invariant unfolded -/

theorem PhiS_zero (c : Dev nD) (n : ℕ) (h : n ≤ cfg1.N) (hz : n = 0) : PhiS V c n h = Pipeline.ΦA spec1 c := by
  subst hz; rfl

/-- After point `n`: the running quantities at that point's values. -/
theorem PhiS_succ (c : Dev nD) (n : ℕ) (hn : n < cfg1.N) :
    PhiS V c (n + 1) hn = iprop(otherScoped (F := F) c
      ∗ owns (c : Thread nD τ) scM fullShare (scAt V c n hn).1
      ∗ owns (c : Thread nD τ) scL fullShare (scAt V c n hn).2.1
      ∗ owns (c : Thread nD τ) scA fullShare (scAt V c n hn).2.2
      ∗ ∃ r, prngReg c r) := rfl

/-- Before a point that is not the first: the running quantities at what the point before left. -/
theorem PhiS_pos (c : Dev nD) (n : ℕ) (h : n ≤ cfg1.N) (hz : n ≠ 0) :
    PhiS V c n h = iprop(otherScoped (F := F) c
      ∗ owns (c : Thread nD τ) scM fullShare (scAt V c (n - 1) (by omega)).1
      ∗ owns (c : Thread nD τ) scL fullShare (scAt V c (n - 1) (by omega)).2.1
      ∗ owns (c : Thread nD τ) scA fullShare (scAt V c (n - 1) (by omega)).2.2
      ∗ ∃ r, prngReg c r) := by
  cases n with
  | zero => exact absurd rfl hz
  | succ n => rfl

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped buffers back at contents no longer named. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  have h : iprop(otherScoped (F := F) c
      ∗ owns (c : Thread nD τ) scM fullShare (scAt V c ((Fin.last cfg1.N).val - 1) (by rw [Fin.val_last]; have : cfg1.N = 64 := N_1; omega)).1
      ∗ owns (c : Thread nD τ) scL fullShare (scAt V c ((Fin.last cfg1.N).val - 1) (by rw [Fin.val_last]; have : cfg1.N = 64 := N_1; omega)).2.1
      ∗ owns (c : Thread nD τ) scA fullShare (scAt V c ((Fin.last cfg1.N).val - 1) (by rw [Fin.val_last]; have : cfg1.N = 64 := N_1; omega)).2.2
      ∗ ∃ r, prngReg c r) ⊢ PhiSplit (F := F) c := by
    unfold PhiSplit
    iintro ⟨Ho, HM, HL, HA, Hg⟩
    isplitl [Ho]; · iexact Ho
    isplitl [HM]; · iexists _; iexact HM
    isplitl [HL]; · iexists _; iexact HL
    isplitl [HA]; · iexists _; iexact HA
    iexact Hg
  exact h.trans (phiA_join (F := F) c)

/-! ## The body's run in each of its three cases, on any whole memrefs -/

/-- The whole-buffer rectangle's offsets are zero. -/
theorem off0 : (![0, 0] : Fin 2 → ℕ) = fun _ => 0 := funext fun a => by fin_cases a <;> rfl

set_option maxHeartbeats 1000000 in
/-- A block's first tile: the three running quantities, whatever they were, are reset to `-∞`, zero and zero and then
    updated from the keys' block and the first tile of queries and values; nothing is written out. -/
theorem runA (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : condR i) (hc1 : ¬k1_cond2 i = 1#1)
    (kb : Vec F S1024x128 .bf16) (qa va : Vec F S8192x128 .bf16) (rb ob : Vec F S1024x128 .f32)
    (M L : Vec F S1024x1 .f32) (A : Vec F S1024x128 .f32) (E : Set ℕ) (K : PUnit → sProp 𝕄) :
    iprop(owns (c : Thread nD τ) arg2 fullShare kb ∗ owns (c : Thread nD τ) arg3 fullShare qa ∗ owns (c : Thread nD τ) arg4 fullShare va
        ∗ owns (c : Thread nD τ) arg5 fullShare rb ∗ owns (c : Thread nD τ) arg6 fullShare ob
        ∗ owns (c : Thread nD τ) arg7 fullShare M ∗ owns (c : Thread nD τ) arg8 fullShare L ∗ owns (c : Thread nD τ) arg9 fullShare A
        ∗ (iprop(owns (c : Thread nD τ) arg2 fullShare kb ∗ owns (c : Thread nD τ) arg3 fullShare qa ∗ owns (c : Thread nD τ) arg4 fullShare va
            ∗ owns (c : Thread nD τ) arg5 fullShare rb ∗ owns (c : Thread nD τ) arg6 fullShare ob
            ∗ owns (c : Thread nD τ) arg7 fullShare (mNew kb (View.ld qa (rq i)) m0)
            ∗ owns (c : Thread nD τ) arg8 fullShare (lNew kb (View.ld qa (rq i)) m0 l0)
            ∗ owns (c : Thread nD τ) arg9 fullShare (aNew kb (View.ld qa (rq i)) (View.ld va (rq i)) m0 a0)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.Mem.head _, View.mem_set_unit_zero off0 inb_S1024x1_S1024x1_0_0 y⟩), View.canon_cons_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl
  isplitl [H8]
  · iexists _; isplitr
    swap; · iexact H8
    ipureintro
    sl_unfold_words
    rw [View.read_writes_eq_canon _ _ _ (fun y => ⟨_, List.Mem.head _, View.mem_set_unit_zero off0 inb_S1024x1_S1024x1_0_0 y⟩), View.canon_cons_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl
  · iexists _; isplitr
    swap; · iexact H9
    ipureintro
    sl_unfold_words
    rw [View.read_writes_eq_canon _ _ _ (fun y => ⟨_, List.Mem.head _, View.mem_set_unit_zero off0 inb_S1024x128_S1024x128_0_0 y⟩), View.canon_cons_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl

set_option maxHeartbeats 1000000 in
/-- A tile strictly inside a block: nothing is reset and nothing written out; the three running quantities are updated
    from the keys' block and the tile of queries and values. -/
theorem runB (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬condR i) (hc1 : ¬k1_cond2 i = 1#1)
    (kb : Vec F S1024x128 .bf16) (qa va : Vec F S8192x128 .bf16) (rb ob : Vec F S1024x128 .f32)
    (M L : Vec F S1024x1 .f32) (A : Vec F S1024x128 .f32) (E : Set ℕ) (K : PUnit → sProp 𝕄) :
    iprop(owns (c : Thread nD τ) arg2 fullShare kb ∗ owns (c : Thread nD τ) arg3 fullShare qa ∗ owns (c : Thread nD τ) arg4 fullShare va
        ∗ owns (c : Thread nD τ) arg5 fullShare rb ∗ owns (c : Thread nD τ) arg6 fullShare ob
        ∗ owns (c : Thread nD τ) arg7 fullShare M ∗ owns (c : Thread nD τ) arg8 fullShare L ∗ owns (c : Thread nD τ) arg9 fullShare A
        ∗ (iprop(owns (c : Thread nD τ) arg2 fullShare kb ∗ owns (c : Thread nD τ) arg3 fullShare qa ∗ owns (c : Thread nD τ) arg4 fullShare va
            ∗ owns (c : Thread nD τ) arg5 fullShare rb ∗ owns (c : Thread nD τ) arg6 fullShare ob
            ∗ owns (c : Thread nD τ) arg7 fullShare (mNew kb (View.ld qa (rq i)) M)
            ∗ owns (c : Thread nD τ) arg8 fullShare (lNew kb (View.ld qa (rq i)) M L)
            ∗ owns (c : Thread nD τ) arg9 fullShare (aNew kb (View.ld qa (rq i)) (View.ld va (rq i)) M A)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  isplitl [H8]
  · iexists _; isplitr
    swap; · iexact H8
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  · iexists _; isplitr
    swap; · iexact H9
    ipureintro
    sl_unfold_words
    rw [View.read_writes_eq_canon _ _ _ (fun y => ⟨_, List.mem_singleton_self _, View.mem_set_unit_zero off0 inb_S1024x128_S1024x128_0_0 y⟩), View.canon_unit_zero off0]
    simp only [View.readAt_eq_ld, View.ld_unit_zero (S := S1024x128) off0, View.ld_unit_zero (S := S1024x1) off0]
    rfl

set_option maxHeartbeats 1000000 in
/-- A block's last tile: the three running quantities are updated as at any tile, and the result block — the updated
    weighted sum times the reciprocal of the updated sum of exponentials, plus the residual's block — is written out. -/
theorem runC (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬condR i) (hc1 : k1_cond2 i = 1#1)
    (kb : Vec F S1024x128 .bf16) (qa va : Vec F S8192x128 .bf16) (rb ob : Vec F S1024x128 .f32)
    (M L : Vec F S1024x1 .f32) (A : Vec F S1024x128 .f32) (E : Set ℕ) (K : PUnit → sProp 𝕄) :
    iprop(owns (c : Thread nD τ) arg2 fullShare kb ∗ owns (c : Thread nD τ) arg3 fullShare qa ∗ owns (c : Thread nD τ) arg4 fullShare va
        ∗ owns (c : Thread nD τ) arg5 fullShare rb ∗ owns (c : Thread nD τ) arg6 fullShare ob
        ∗ owns (c : Thread nD τ) arg7 fullShare M ∗ owns (c : Thread nD τ) arg8 fullShare L ∗ owns (c : Thread nD τ) arg9 fullShare A
        ∗ (iprop(owns (c : Thread nD τ) arg2 fullShare kb ∗ owns (c : Thread nD τ) arg3 fullShare qa ∗ owns (c : Thread nD τ) arg4 fullShare va
            ∗ owns (c : Thread nD τ) arg5 fullShare rb
            ∗ owns (c : Thread nD τ) arg6 fullShare (outFin (lNew kb (View.ld qa (rq i)) M L) (aNew kb (View.ld qa (rq i)) (View.ld va (rq i)) M A) rb)
            ∗ owns (c : Thread nD τ) arg7 fullShare (mNew kb (View.ld qa (rq i)) M)
            ∗ owns (c : Thread nD τ) arg8 fullShare (lNew kb (View.ld qa (rq i)) M L)
            ∗ owns (c : Thread nD τ) arg9 fullShare (aNew kb (View.ld qa (rq i)) (View.ld va (rq i)) M A)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_singleton_self _, View.mem_set_unit_zero off0 inb_S1024x128_S1024x128_0_0 y⟩), View.canon_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl
  isplitl [H7]
  · iexists _; isplitr
    swap; · iexact H7
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  isplitl [H8]
  · iexists _; isplitr
    swap; · iexact H8
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  · iexists _; isplitr
    swap; · iexact H9
    ipureintro
    sl_unfold_words
    rw [View.read_writes_eq_canon _ _ _ (fun y => ⟨_, List.mem_singleton_self _, View.mem_set_unit_zero off0 inb_S1024x128_S1024x128_0_0 y⟩), View.canon_unit_zero off0]
    simp only [View.readAt_eq_ld, View.ld_unit_zero (S := S1024x128) off0, View.ld_unit_zero (S := S1024x1) off0]
    rfl

/-! ## The body at a point of the grid -/

/-- Each window's current staging memref at point `t`, and its wholeness. -/
abbrev ms0 (t : Fin cfg1.N) : Memref sig .tc .vmem S1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S8192x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x128 .f32 := win1_4.stage (cfg1.slots t 4)
abbrev hs4 (t : Fin cfg1.N) : (ms4 t).IsWhole := hstage1_4 ((cfg1.slots t 4).cast nbuf1_4)

/-- What the body leaves in each input's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The running quantities after a block's first tile: the tile's update of the reset values. -/
theorem scAt_first (c : Dev nD) (t : Fin cfg1.N) (h0 : t.val % 8 = 0) : scAt V c t.val t.isLt = stepS V c t (m0, l0, a0) := by
  obtain ⟨n, hn⟩ := t
  cases n with
  | zero => rfl
  | succ n => rw [scAt_succ]; dsimp only at h0; rw [if_pos h0]

/-- After any other tile: the tile's update of what the point before left. -/
theorem scAt_next (c : Dev nD) (t : Fin cfg1.N) (h0 : ¬t.val % 8 = 0) :
    scAt V c t.val t.isLt = stepS V c t (scAt V c (t.val - 1) (Nat.lt_of_le_of_lt (Nat.sub_le _ _) t.isLt)) := by
  obtain ⟨n, hn⟩ := t
  cases n with
  | zero => exact absurd (Nat.zero_mod _) h0
  | succ n => rw [scAt_succ]; dsimp only at h0; rw [if_neg h0]; rfl

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. Each input's buffer holds its block; the point is a block's first tile, a tile strictly
    inside, or its last, and that case's run applies: the invariant hands the body the three scratch buffers at what
    the point before left (at anything at a block's first tile, where they are reset) and takes them back at this
    point's running quantities; the output's buffer comes back untouched except at a block's last tile, where it
    holds the result block of this point's running quantities. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms0 t) fullShare ((dat1 V c).after 0 t) from by
    unfold Dat.leavesExact; rw [live_0 t], after1_0]
  rw [show (dat1 V c).leavesExact 1 t = owns (c : Thread nD τ) (ms1 t) fullShare ((dat1 V c).after 1 t) from by
    unfold Dat.leavesExact; rw [live_1 t], after1_1]
  rw [show (dat1 V c).leavesExact 2 t = owns (c : Thread nD τ) (ms2 t) fullShare ((dat1 V c).after 2 t) from by
    unfold Dat.leavesExact; rw [live_2 t], after1_2]
  rw [show (dat1 V c).leavesExact 3 t = owns (c : Thread nD τ) (ms3 t) fullShare ((dat1 V c).after 3 t) from by
    unfold Dat.leavesExact; rw [live_3 t], after1_3]
  by_cases h0 : t.val % 8 = 0
  · have h7 : ¬t.val % 8 = 7 := by omega
    rw [Dat.leavesExact_idle (dat1 V c) 4 t (idle_4 t h7) (noFlush_4 t h7)]
    rw [scAt_first V c t h0]
    unfold stepS qtile vtile; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      icases (phiA_split (F := F) c) $$ HΦ with ⟨Hos, ⟨%dM, HM⟩, ⟨%dL, HL⟩, ⟨%dA, HA⟩, Hg⟩
      iapply (runA c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        ((hcondR t).mpr h0) (fun h => h7 ((hcondW t).mp h)) (iblk1 V c 0 t) (iblk1 V c 1 t) (iblk1 V c 2 t) (iblk1 V c 3 t) ((dat1 V c).before 4 t d4) dM dL dA Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨Hos, HM, HL, HA, Hg⟩, Ho, ⟨%d0, H0⟩, ⟨%d1, H1⟩, ⟨%d2, H2⟩, ⟨%d3, H3⟩, ⟨%d4, H4⟩⟩
      iapply (runA c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        ((hcondR t).mpr h0) (fun h => h7 ((hcondW t).mp h)) (iblk1 V c 0 t) (iblk1 V c 1 t) (iblk1 V c 2 t) (iblk1 V c 3 t) ((dat1 V c).before 4 t d4)
        (scAt V c (t.val - 1) (by omega)).1 (scAt V c (t.val - 1) (by omega)).2.1 (scAt V c (t.val - 1) (by omega)).2.2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [scAt_next V c t h0]
    unfold stepS qtile vtile; dsimp only
    rw [PhiS_castSucc V c t, PhiS_pos V c _ _ hz]
    by_cases h7 : t.val % 8 = 7
    · rw [show (dat1 V c).leavesExact 4 t = owns (c : Thread nD τ) (ms4 t) fullShare ((dat1 V c).after 4 t) from by
        unfold Dat.leavesExact; rw [live_4 t h7], after1_4, scAt_next V c t h0]
      unfold stepS qtile vtile; dsimp only
      iintro ⟨⟨Hos, HM, HL, HA, Hg⟩, Ho, ⟨%d0, H0⟩, ⟨%d1, H1⟩, ⟨%d2, H2⟩, ⟨%d3, H3⟩, ⟨%d4, H4⟩⟩
      iapply (runC c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        (fun h => h0 ((hcondR t).mp h)) ((hcondW t).mpr h7) (iblk1 V c 0 t) (iblk1 V c 1 t) (iblk1 V c 2 t) (iblk1 V c 3 t) ((dat1 V c).before 4 t d4)
        (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle_4 t h7) (noFlush_4 t h7)]
      iintro ⟨⟨Hos, HM, HL, HA, Hg⟩, Ho, ⟨%d0, H0⟩, ⟨%d1, H1⟩, ⟨%d2, H2⟩, ⟨%d3, H3⟩, ⟨%d4, H4⟩⟩
      iapply (runB c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        (fun h => h0 ((hcondR t).mp h)) (fun h => h7 ((hcondW t).mp h)) (iblk1 V c 0 t) (iblk1 V c 1 t) (iblk1 V c 2 t) (iblk1 V c 3 t) ((dat1 V c).before 4 t d4)
        (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexists _; iexact H4

/-- The body's obligation at every point of the region. -/
theorem body_obligation1 (c : Dev nD) : BodyObligation (dat1 (F := F) V c) (defs₀ (F := F)) Variants.none () Set.univ := fun t => by
  rw [bigSep_W1, bigSep_W1]
  exact sound_body V c t

end Cert.Kernel.Fr

end
-- ==== Proof.BRun.lean ====
/-
  The run of the whole program: the host stretch that concatenates the features and reshapes the biases, the
  projection kernel's region, the attention kernel's region — with the contents of every unscoped buffer named
  at each boundary.

  `W0` is the launch memory, `W1` what the host stretch leaves, `W2` what the projection region leaves (its four
  result arrays at what its write-backs put there, everything else as entered), `W3` what the attention region
  leaves (the result array at what its write-backs put there). Every weakly fair execution terminates, and the
  final memory holds every unscoped buffer at `W3`.
-/
import proofs.«409729_j40200893890895_3_alg».proof.Proof.BReg0
import proofs.«409729_j40200893890895_3_alg».proof.Proof.BReg1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- No region has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; its invariant takes the scoped
    buffers it does not stage and the generator register in, and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Fr

end
-- ==== Proof.BArgs.lean ====
/-
  The arguments end as launched. No host operation of the stretch writes an argument array, the projection region
  reads three of them through input windows (whose arrays the pipeline leaves as they were) and touches no other,
  and the attention region touches none: so the contents of an argument's buffer at the last boundary walk back to
  the launch memory. With the run of the whole program this is the frame claim, at any instance of the floats.
-/
import proofs.«409729_j40200893890895_3_alg».proof.Proof.BRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the host stretch writes. -/
abbrev hostW : List (Ref sig .tc) := [main_v0, main_v1, main_v2, main_v3, main_v4]

theorem hostOps0_writes : (hostOps0 : List (HloOp τ sig (Elt F))).Forall fun op => op.writes ⊆ (hostW.map (Proc.devRef (τ := τ) .tc)).toFinset := by
  simp only [List.Forall]
  refine ⟨?_, ?_, ?_, ?_, ?_⟩ <;>
  · simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer the host stretch does not write holds after it what it held at launch. -/
theorem W1_of_ne (c : Dev nD) (r : Ref sig .tc) (h : r ∉ hostW) : W1 m ρ c (Proc.devRef .tc r) = W0 m ρ c (Proc.devRef .tc r) :=
  StableHlo.after_of_writes_sub hostOps0 _ hostOps0_writes h

/-- Argument 0 reaches the end as launched: the host stretch does not write it, the projection region does not touch it, the attention region does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- Argument 1 reaches the end as launched: the host stretch does not write it, the projection region does not touch it, the attention region does not touch it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Argument 2 reaches the end as launched: the host stretch does not write it, the projection region does not touch it, the attention region does not touch it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- Argument 3 reaches the end as launched: the host stretch does not write it, the projection region only reads it through an input window, the attention region does not touch it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of_ne m ρ c main_arg3 (by decide)
    _ = m ((c : Thread nD τ).loc main_arg3) := rfl

/-- Argument 4 reaches the end as launched: the host stretch does not write it, the projection region does not touch it, the attention region does not touch it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Argument 5 reaches the end as launched: the host stretch does not write it, the projection region only reads it through an input window, the attention region does not touch it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of_ne m ρ c main_arg5 (by decide)
    _ = m ((c : Thread nD τ).loc main_arg5) := rfl

/-- Argument 6 reaches the end as launched: the host stretch does not write it, the projection region does not touch it, the attention region does not touch it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- Argument 7 reaches the end as launched: the host stretch does not write it, the projection region only reads it through an input window, the attention region does not touch it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 5).trans (((dat0 (V1 m ρ) c).arrAt_in 5 rfl _).trans (A_eq0 (V1 m ρ) c 5))
    _ = W0 m ρ c (Proc.devRef .tc main_arg7) := W1_of_ne m ρ c main_arg7 (by decide)
    _ = m ((c : Thread nD τ).loc main_arg7) := rfl

/-- Argument 8 reaches the end as launched: the host stretch does not write it, the projection region does not touch it, the attention region does not touch it. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

/-- THE FRAME, at any instance of the floats: every weakly fair execution terminates, nothing faulting, and every
    argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c)⟩)
    (run_all m ρ)

end Cert.Kernel.Fr

end
-- ==== Proof.Step.lean ====
/-
  The two kernels' arithmetic per grid point, as pure functions of the blocks a point reads.

  The projection kernel turns a block of 1024 rows of the concatenated features `x` and the weights
  into four blocks: the keys `x·Wkᵀ + bk`, the queries `x·Wqᵀ + bq`, the values `queries·Wv_qᵀ`
  and the residual `keys + (keys·Wv_kᵀ + bv)`.

  The attention kernel walks the queries in eight tiles of 1024 for each block of 1024 keys, and
  keeps three running quantities per key row between tiles: the maximum score so far `M`, the sum of
  `exp (score − M)` so far `L`, and the sum of `exp (score − M) · value` so far `ACC`. A tile
  replaces `M` by its maximum with the tile's largest score, rescales `L` and `ACC` by
  `exp (M_old − M_new)` and adds the tile's terms. After the last tile the result is
  `ACC · (1 / L) + residual`.
-/
import proofs.«409729_j40200893890895_3_alg».proof.Proof.Gen.KernelIdeal.Skeleton

noncomputable section

namespace Cert.KernelIdeal.Fr

open Idealize.ShloMosaic Cert.KernelIdeal Cert.KernelIdeal.Gen

variable {F : FTy → Type} [FloatOps F]

/-! ## The projection kernel -/

/-- The keys of a block of rows: `x·Wkᵀ + bk`. -/
def keysB (x : Vec F S1024x128 .f32) (wk : Vec F S128x128 .f32) (bk : Vec F S1x128 .f32) : Vec F S1024x128 .bf16 :=
  k0_pay5 x wk bk

/-- The queries of a block of rows: `x·Wqᵀ + bq`. -/
def qrysB (x : Vec F S1024x128 .f32) (wq : Vec F S128x128 .f32) (bq : Vec F S1x128 .f32) : Vec F S1024x128 .bf16 :=
  k0_pay6 x wq bq

/-- The values of a block of rows: `queries·Wv_qᵀ`, `Wv_q` the left half of `Wv`. -/
def valsB (x : Vec F S1024x128 .f32) (wq : Vec F S128x128 .f32) (bq : Vec F S1x128 .f32) (wv : Vec F S128x256 .f32) :
    Vec F S1024x128 .bf16 :=
  k0_pay1 (k0_pay7 x wq bq wv)

/-- The residual of a block of rows: `keys + (keys·Wv_kᵀ + bv)`, `Wv_k` the right half of `Wv`. -/
def resB (x : Vec F S1024x128 .f32) (wk : Vec F S128x128 .f32) (bk : Vec F S1x128 .f32) (wv : Vec F S128x256 .f32)
    (bv : Vec F S1x128 .f32) : Vec F S1024x128 .f32 :=
  k0_pay2 (k0_pay4 x wk bk) (k0_pay8 x wk bk wv bv)

/-! ## The attention kernel -/

/-- The running maximum before the first tile: `-∞` in every row. -/
def m0 : Vec F S1024x1 .f32 := k1_pay4 (F := F)
/-- The running sum of exponentials before the first tile: zero. -/
def l0 : Vec F S1024x1 .f32 := k1_pay5 (F := F)
/-- The running weighted sum of values before the first tile: zero. -/
def a0 : Vec F S1024x128 .f32 := k1_pay6 (F := F)

/-- The running maximum after a tile: the larger of the old one and the tile's largest score. -/
def mNew (kb qs : Vec F S1024x128 .bf16) (M : Vec F S1024x1 .f32) : Vec F S1024x1 .f32 :=
  k1_pay2 (k1_pay9 kb qs M)

/-- The running sum of exponentials after a tile: the old one rescaled to the new maximum, plus the tile's. -/
def lNew (kb qs : Vec F S1024x128 .bf16) (M L : Vec F S1024x1 .f32) : Vec F S1024x1 .f32 :=
  k1_pay13 kb qs M M L

/-- The running weighted sum of values after a tile: the old one rescaled to the new maximum, plus the tile's. -/
def aNew (kb qs vs : Vec F S1024x128 .bf16) (M : Vec F S1024x1 .f32) (ACC : Vec F S1024x128 .f32) : Vec F S1024x128 .f32 :=
  k1_pay1 (k1_pay7 vs) (k1_pay12 kb qs M) ACC (k1_pay14 kb qs M M)

/-- The result block after the last tile: `ACC · (1 / L) + residual`. -/
def outFin (L : Vec F S1024x1 .f32) (ACC : Vec F S1024x128 .f32) (rb : Vec F S1024x128 .f32) : Vec F S1024x128 .f32 :=
  k1_pay3 L ACC rb

end Cert.KernelIdeal.Fr

end
-- ==== Proof.Reg0.lean ====
/-
  The projection kernel's region, at the contents `V` the TensorCore's buffers hold when it is entered.

  The region has eight grid points, one per block of 1024 rows. At each point the body reads the block of
  `x` and the six weight and bias arrays (whole, fetched once), and writes four blocks: the keys, the
  queries, the values and the residual of those rows (`Step.lean`). Nothing is kept between points.
  Stated here: the region's proof data (each staging buffer after the body at each point) and the body's
  obligation at every point.
-/
import proofs.«409729_j40200893890895_3_alg».proof.Proof.Step
import proofs.«409729_j40200893890895_3_alg».proof.Proof.Gen.KernelIdeal.Launch
import proofs.«409729_j40200893890895_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data on core `c`: the arrays as found; after the body each input's buffer at its block and the
    four outputs' at the keys, queries, values and residual of the point's rows; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => keysB (iblk0 V c 0 t) (iblk0 V c 3 t) (iblk0 V c 4 t)
    | ⟨8, _⟩ => qrysB (iblk0 V c 0 t) (iblk0 V c 1 t) (iblk0 V c 2 t)
    | ⟨9, _⟩ => valsB (iblk0 V c 0 t) (iblk0 V c 1 t) (iblk0 V c 2 t) (iblk0 V c 5 t)
    | ⟨10, _⟩ => resB (iblk0 V c 0 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = keysB (iblk0 V c 0 t) (iblk0 V c 3 t) (iblk0 V c 4 t) := by dsimp only [dat0]
theorem after0_8 (c : Dev nD) (t : Fin cfg0.N) : (dat0 V c).after 8 t = qrysB (iblk0 V c 0 t) (iblk0 V c 1 t) (iblk0 V c 2 t) := by dsimp only [dat0]
theorem after0_9 (c : Dev nD) (t : Fin cfg0.N) : (dat0 V c).after 9 t = valsB (iblk0 V c 0 t) (iblk0 V c 1 t) (iblk0 V c 2 t) (iblk0 V c 5 t) := by dsimp only [dat0]
theorem after0_10 (c : Dev nD) (t : Fin cfg0.N) : (dat0 V c).after 10 t = resB (iblk0 V c 0 t) (iblk0 V c 3 t) (iblk0 V c 4 t) (iblk0 V c 5 t) (iblk0 V c 6 t) := by dsimp only [dat0]

/-! ## Loads and stores through a whole buffer

Every access of the body is through the rectangle of its buffer's own sizes at zero offsets: a load through it reads
the buffer's contents, and one store through it leaves the stored value, whatever the buffer held. -/

/-- The two zero offsets are the zero offset vector. -/
theorem off2_zero : (![0, 0] : Fin 2 → ℕ) = fun _ => 0 := by
  funext a; fin_cases a <;> rfl

/-- A load through the whole buffer reads what the buffer holds. -/
theorem readAt_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- One store through the whole buffer leaves the stored value: its rectangle holds every index, so the buffer reads
    as the one piece's canon, which is the piece's value. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero hz inb y⟩)).trans
    (View.canon_unit_zero hz inb w)

/-! ## The body's triple -/

set_option maxHeartbeats 4000000 in
/-- The body on whole buffers, the seven inputs' at contents `x0 … x6` and the four outputs' at anything, runs to the
    continuation holding the inputs' as they were and the outputs' at the keys, queries, values and residual of `x0`
    under the weights: it loads the seven inputs whole, and stores each output whole once (after a load of it whose
    value it does not use). -/
theorem sound_kernel0 (c : Dev nD) (E : Set ℕ) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1024x128 .f32) (harg11 : arg11.IsWhole)
    (x0 : Vec F S1024x128 .f32) (x1 : Vec F S128x128 .f32) (x2 : Vec F S1x128 .f32) (x3 : Vec F S128x128 .f32) (x4 : Vec F S1x128 .f32) (x5 : Vec F S128x256 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (keysB x0 x3 x4) ∗ owns (c : Thread nD τ) arg9 fullShare (qrysB x0 x1 x2) ∗ owns (c : Thread nD τ) arg10 fullShare (valsB x0 x1 x2 x5) ∗ owns (c : Thread nD τ) arg11 fullShare (resB x0 x3 x4 x5 x6)) -∗ K ⟨⟩))
      ⊢ wp frame (wpE (defs₀ (F := F)) Variants.none c none) E (cc0__prep_kernel i arg1 harg1 arg2 harg2 arg3 harg3 arg4 harg4 arg5 harg5 arg6 harg6 arg7 harg7 arg8 harg8 arg9 harg9 arg10 harg10 arg11 harg11) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    ipureintro
    refine (read_store_whole (S := S1024x128) _ _ off2_zero _ _).trans ?_
    simp only [readAt_whole (S := S1024x128) _ _ off2_zero, readAt_whole (S := S128x128) _ _ off2_zero,
      readAt_whole (S := S1x128) _ _ off2_zero, readAt_whole (S := S128x256) _ _ off2_zero]
    rfl
  isplitl [H8]
  · iexists _; isplitr
    swap
    · iexact H8
    ipureintro
    refine (read_store_whole (S := S1024x128) _ _ off2_zero _ _).trans ?_
    simp only [readAt_whole (S := S1024x128) _ _ off2_zero, readAt_whole (S := S128x128) _ _ off2_zero,
      readAt_whole (S := S1x128) _ _ off2_zero, readAt_whole (S := S128x256) _ _ off2_zero]
    rfl
  isplitl [H9]
  · iexists _; isplitr
    swap
    · iexact H9
    ipureintro
    refine (read_store_whole (S := S1024x128) _ _ off2_zero _ _).trans ?_
    simp only [readAt_whole (S := S1024x128) _ _ off2_zero, readAt_whole (S := S128x128) _ _ off2_zero,
      readAt_whole (S := S1x128) _ _ off2_zero, readAt_whole (S := S128x256) _ _ off2_zero]
    rfl
  iexists _; isplitr
  swap
  · iexact H10
  ipureintro
  refine (read_store_whole (S := S1024x128) _ _ off2_zero _ _).trans ?_
  simp only [readAt_whole (S := S1024x128) _ _ off2_zero, readAt_whole (S := S128x128) _ _ off2_zero,
    readAt_whole (S := S1x128) _ _ off2_zero, readAt_whole (S := S128x256) _ _ off2_zero]
  rfl

/-! ## The inputs' buffers when the body is called

Each of the seven inputs is a window the pipeline never cuts and never leaves idle, and the body leaves its buffer
as it found it. So at every point the buffer holds the point's block, whether or not the pipeline fetched it there:
`x`'s block is fetched at every point; the six weight and bias arrays are fetched at the first point only, and at
a later point their block index has not moved, so the buffer still holds the block. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; rfl
  rw [(dat0 V c).before_in_eq_fetched 0 rfl (fun _ => rfl) (fun _ _ _ => rfl) hkeep t d]
  rfl
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; rfl
  rw [(dat0 V c).before_in_eq_fetched 1 rfl (fun _ => rfl) (fun _ _ _ => rfl) hkeep t d]
  rfl
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; rfl
  rw [(dat0 V c).before_in_eq_fetched 2 rfl (fun _ => rfl) (fun _ _ _ => rfl) hkeep t d]
  rfl
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := by
    intro s; rw [after0_3]; rfl
  rw [(dat0 V c).before_in_eq_fetched 3 rfl (fun _ => rfl) (fun _ _ _ => rfl) hkeep t d]
  rfl
theorem before0_4 (c : Dev nD) (t : Fin cfg0.N) (d) : (dat0 V c).before 4 t d = iblk0 V c 4 t := by
  have hkeep : ∀ s, (cfg0.win 4).cut (cfg0.grid.coords s) ((dat0 V c).after 4 s) = (dat0 V c).blockOf 4 s := by
    intro s; rw [after0_4]; rfl
  rw [(dat0 V c).before_in_eq_fetched 4 rfl (fun _ => rfl) (fun _ _ _ => rfl) hkeep t d]
  rfl
theorem before0_5 (c : Dev nD) (t : Fin cfg0.N) (d) : (dat0 V c).before 5 t d = iblk0 V c 5 t := by
  have hkeep : ∀ s, (cfg0.win 5).cut (cfg0.grid.coords s) ((dat0 V c).after 5 s) = (dat0 V c).blockOf 5 s := by
    intro s; rw [after0_5]; rfl
  rw [(dat0 V c).before_in_eq_fetched 5 rfl (fun _ => rfl) (fun _ _ _ => rfl) hkeep t d]
  rfl
theorem before0_6 (c : Dev nD) (t : Fin cfg0.N) (d) : (dat0 V c).before 6 t d = iblk0 V c 6 t := by
  have hkeep : ∀ s, (cfg0.win 6).cut (cfg0.grid.coords s) ((dat0 V c).after 6 s) = (dat0 V c).blockOf 6 s := by
    intro s; rw [after0_6]; rfl
  rw [(dat0 V c).before_in_eq_fetched 6 rfl (fun _ => rfl) (fun _ _ _ => rfl) hkeep t d]
  rfl

/-! ## The body's obligation at a point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, the outputs' hold anything, so the body's triple
    applies at the blocks; the invariant and what the core owes are not read and do not change. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation at every point of the region. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Reg1.lean ====
/-
  The attention kernel's region, at the contents `V` the TensorCore's buffers hold when it is entered.

  The grid has 8 × 8 points: point `t` works on the block `t / 8` of 1024 key rows and the tile `t % 8` of 1024
  queries. The body reads the keys' block, the tile of the (resident) queries and values, and three scratch
  buffers holding the running maximum, the running sum of exponentials and the running weighted sum of values
  of the block's rows; at a block's first tile it first resets them; at its last tile it also reads the residual's
  block and writes the result block. Stated here: what the three scratch buffers hold after each point (by
  recursion on the point), the region's proof data, its invariant between points (the scratch buffers at those
  contents) and the body's obligation at every point.
-/
import proofs.«409729_j40200893890895_3_alg».proof.Proof.Step
import proofs.«409729_j40200893890895_3_alg».proof.Proof.Gen.KernelIdeal.Launch
import proofs.«409729_j40200893890895_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident queries and values a point reads: 1024 rows from row `1024 · (t % 8)`. -/
abbrev rq (i : grid1.Coords) : Rect S8192x128 := Rect.unit (s := S8192x128) (k1_off1 i) S1024x128.size (k1_off1_inb i)

/-- The tile of queries point `t` reads. -/
def qtile (c : Dev nD) (t : Fin cfg1.N) : Vec F S1024x128 .bf16 := View.ld (iblk1 V c 1 t) (rq (grid1.coords t))
/-- The tile of values point `t` reads. -/
def vtile (c : Dev nD) (t : Fin cfg1.N) : Vec F S1024x128 .bf16 := View.ld (iblk1 V c 2 t) (rq (grid1.coords t))

/-- The running maximum, sum of exponentials and weighted sum of values of a block's rows. -/
abbrev Acc (F : FTy → Type) : Type := Vec F S1024x1 .f32 × Vec F S1024x1 .f32 × Vec F S1024x128 .f32

/-- One tile's update of the three running quantities. -/
def stepS (c : Dev nD) (t : Fin cfg1.N) (s : Acc F) : Acc F :=
  (mNew (iblk1 V c 0 t) (qtile V c t) s.1, lNew (iblk1 V c 0 t) (qtile V c t) s.1 s.2.1,
    aNew (iblk1 V c 0 t) (qtile V c t) (vtile V c t) s.1 s.2.2)

/-- What the three scratch buffers hold after point `n`: the tile's update of what the point before left, or of the
    reset values at a block's first tile. -/
def scAt (c : Dev nD) : (n : ℕ) → n < cfg1.N → Acc F
  | 0, h => stepS V c ⟨0, h⟩ (m0, l0, a0)
  | n + 1, h => stepS V c ⟨n + 1, h⟩ (if (n + 1) % 8 = 0 then (m0, l0, a0) else scAt c n (Nat.lt_of_succ_lt h))

theorem scAt_zero (c : Dev nD) (h : 0 < cfg1.N) : scAt V c 0 h = stepS V c ⟨0, h⟩ (m0, l0, a0) := rfl
theorem scAt_succ (c : Dev nD) (n : ℕ) (h : n + 1 < cfg1.N) :
    scAt V c (n + 1) h = stepS V c ⟨n + 1, h⟩ (if (n + 1) % 8 = 0 then (m0, l0, a0) else scAt V c n (Nat.lt_of_succ_lt h)) := rfl

/-- The three scratch buffers. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-- The core's scoped buffers that are neither this region's staging buffers nor its scratch (the other region's
    staging buffers), each whole at some contents. -/
def otherScoped (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg9_1), ((c : Thread nD τ).loc cc0_stg9_1) ↦{fullShare} f)
      ∗ (∃ f : Buf (Elt F) ((c : Thread nD τ).loc cc0_stg10_0), ((c : Thread nD τ).loc cc0_stg10_0) ↦{fullShare} f)
      ∗ (∃ f : Buf (Elt F) ((c : Thread nD τ).loc cc0_stg10_1), ((c : Thread nD τ).loc cc0_stg10_1) ↦{fullShare} f))

/-- The region's invariant before position `n`: before the first point every scoped buffer the region does not stage
    at anything; afterwards the three scratch buffers at what the point before left, the rest at anything. -/
def PhiS (c : Dev nD) : (n : ℕ) → n ≤ cfg1.N → sProp 𝕄
  | 0, _ => Pipeline.ΦA spec1 c
  | n + 1, hn => iprop(otherScoped (F := F) c
      ∗ owns (c : Thread nD τ) scM fullShare (scAt V c n hn).1
      ∗ owns (c : Thread nD τ) scL fullShare (scAt V c n hn).2.1
      ∗ owns (c : Thread nD τ) scA fullShare (scAt V c n hn).2.2
      ∗ ∃ r, prngReg c r)

/-- The region's proof data on core `c`: the arrays as found; after the body each input's buffer at its block and the
    output's at the result block of the running quantities the point leaves (consulted at a block's last tile only);
    the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outFin (scAt V c t.val t.isLt).2.1 (scAt V c t.val t.isLt).2.2 (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = outFin (scAt V c t.val t.isLt).2.1 (scAt V c t.val t.isLt).2.2 (iblk1 V c 3 t) := by dsimp only [dat1]

/-! ## The two conditionals and the output window's idle points, in closed form over the grid -/

/-- The first conditional's condition (the reset of the running quantities), from the grid coordinates. -/
abbrev condR (i : grid1.Coords) : Prop := (Scalar.cmpi .ne (Scalar.extui (Scalar.cmpi .eq (BitVec.ofNat 32 (i 1).val) 0#32)) 0#32) = 1#1
/-- It holds exactly at a block's first tile. -/
theorem hcondR : ∀ t : Fin cfg1.N, condR (grid1.coords t) ↔ t.val % 8 = 0 :=
  (by decide +kernel : ∀ t : Fin grid1.N, condR (grid1.coords t) ↔ t.val % 8 = 0)
/-- The second conditional's condition (the write of the result block) holds exactly at a block's last tile. -/
theorem hcondW : ∀ t : Fin cfg1.N, k1_cond2 (grid1.coords t) = 1#1 ↔ t.val % 8 = 7 :=
  (by decide +kernel : ∀ t : Fin grid1.N, k1_cond2 (grid1.coords t) = 1#1 ↔ t.val % 8 = 7)
/-- The input windows are never idle. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- The output window is idle away from a block's last tile, and live there. -/
theorem idle_4 : ∀ t : Fin cfg1.N, ¬ t.val % 8 = 7 → cfg1.idle 4 (grid1.coords t) = true := by decide +kernel
theorem live_4 : ∀ t : Fin cfg1.N, t.val % 8 = 7 → cfg1.idle 4 (grid1.coords t) = false := by decide +kernel
theorem noFlush_4 : ∀ t : Fin cfg1.N, ¬ t.val % 8 = 7 → (cfg1.win 4).flush t = false := by decide +kernel

/-! ## The scoped buffers the region does not stage: the other region's staging buffers, the three scratch buffers, the generator register -/

/-- What the launch hands the region, with the scratch buffers as memrefs owned at some contents. -/
abbrev PhiSplit (c : Dev nD) : sProp 𝕄 :=
  iprop(otherScoped (F := F) c
    ∗ (∃ d, owns (c : Thread nD τ) scM fullShare d)
    ∗ (∃ d, owns (c : Thread nD τ) scL fullShare d)
    ∗ (∃ d, owns (c : Thread nD τ) scA fullShare d)
    ∗ ∃ r, prngReg c r)

theorem phiA_split (c : Dev nD) : (Pipeline.ΦA spec1 c : sProp 𝕄) ⊢ PhiSplit (F := F) c := by
  unfold Pipeline.ΦA PhiSplit otherScoped; rw [scopedRest1_eq]; simp only [owns_whole]
  iintro ⟨⟨H1, H2, H3, H4, H5, H6, H7, H8, H9, H10, H11, H12, H13, H14, H15, H16, S0, S1, S2⟩, Hg⟩
  iframe

theorem phiA_join (c : Dev nD) : PhiSplit (F := F) c ⊢ (Pipeline.ΦA spec1 c : sProp 𝕄) := by
  unfold Pipeline.ΦA PhiSplit otherScoped; rw [scopedRest1_eq]; simp only [owns_whole]
  iintro ⟨⟨H1, H2, H3, H4, H5, H6, H7, H8, H9, H10, H11, H12, H13, H14, H15, H16⟩, S0, S1, S2, Hg⟩
  iframe

/-! ## The invariant unfolded -/

theorem PhiS_zero (c : Dev nD) (n : ℕ) (h : n ≤ cfg1.N) (hz : n = 0) : PhiS V c n h = Pipeline.ΦA spec1 c := by
  subst hz; rfl

/-- After point `n`: the running quantities at that point's values. -/
theorem PhiS_succ (c : Dev nD) (n : ℕ) (hn : n < cfg1.N) :
    PhiS V c (n + 1) hn = iprop(otherScoped (F := F) c
      ∗ owns (c : Thread nD τ) scM fullShare (scAt V c n hn).1
      ∗ owns (c : Thread nD τ) scL fullShare (scAt V c n hn).2.1
      ∗ owns (c : Thread nD τ) scA fullShare (scAt V c n hn).2.2
      ∗ ∃ r, prngReg c r) := rfl

/-- Before a point that is not the first: the running quantities at what the point before left. -/
theorem PhiS_pos (c : Dev nD) (n : ℕ) (h : n ≤ cfg1.N) (hz : n ≠ 0) :
    PhiS V c n h = iprop(otherScoped (F := F) c
      ∗ owns (c : Thread nD τ) scM fullShare (scAt V c (n - 1) (by omega)).1
      ∗ owns (c : Thread nD τ) scL fullShare (scAt V c (n - 1) (by omega)).2.1
      ∗ owns (c : Thread nD τ) scA fullShare (scAt V c (n - 1) (by omega)).2.2
      ∗ ∃ r, prngReg c r) := by
  cases n with
  | zero => exact absurd rfl hz
  | succ n => rfl

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped buffers back at contents no longer named. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  have h : iprop(otherScoped (F := F) c
      ∗ owns (c : Thread nD τ) scM fullShare (scAt V c ((Fin.last cfg1.N).val - 1) (by rw [Fin.val_last]; have : cfg1.N = 64 := N_1; omega)).1
      ∗ owns (c : Thread nD τ) scL fullShare (scAt V c ((Fin.last cfg1.N).val - 1) (by rw [Fin.val_last]; have : cfg1.N = 64 := N_1; omega)).2.1
      ∗ owns (c : Thread nD τ) scA fullShare (scAt V c ((Fin.last cfg1.N).val - 1) (by rw [Fin.val_last]; have : cfg1.N = 64 := N_1; omega)).2.2
      ∗ ∃ r, prngReg c r) ⊢ PhiSplit (F := F) c := by
    unfold PhiSplit
    iintro ⟨Ho, HM, HL, HA, Hg⟩
    isplitl [Ho]; · iexact Ho
    isplitl [HM]; · iexists _; iexact HM
    isplitl [HL]; · iexists _; iexact HL
    isplitl [HA]; · iexists _; iexact HA
    iexact Hg
  exact h.trans (phiA_join (F := F) c)

/-! ## The body's run in each of its three cases, on any whole memrefs -/

/-- The whole-buffer rectangle's offsets are zero. -/
theorem off0 : (![0, 0] : Fin 2 → ℕ) = fun _ => 0 := funext fun a => by fin_cases a <;> rfl

set_option maxHeartbeats 1000000 in
/-- A block's first tile: the three running quantities, whatever they were, are reset to `-∞`, zero and zero and then
    updated from the keys' block and the first tile of queries and values; nothing is written out. -/
theorem runA (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : condR i) (hc1 : ¬k1_cond2 i = 1#1)
    (kb : Vec F S1024x128 .bf16) (qa va : Vec F S8192x128 .bf16) (rb ob : Vec F S1024x128 .f32)
    (M L : Vec F S1024x1 .f32) (A : Vec F S1024x128 .f32) (E : Set ℕ) (K : PUnit → sProp 𝕄) :
    iprop(owns (c : Thread nD τ) arg2 fullShare kb ∗ owns (c : Thread nD τ) arg3 fullShare qa ∗ owns (c : Thread nD τ) arg4 fullShare va
        ∗ owns (c : Thread nD τ) arg5 fullShare rb ∗ owns (c : Thread nD τ) arg6 fullShare ob
        ∗ owns (c : Thread nD τ) arg7 fullShare M ∗ owns (c : Thread nD τ) arg8 fullShare L ∗ owns (c : Thread nD τ) arg9 fullShare A
        ∗ (iprop(owns (c : Thread nD τ) arg2 fullShare kb ∗ owns (c : Thread nD τ) arg3 fullShare qa ∗ owns (c : Thread nD τ) arg4 fullShare va
            ∗ owns (c : Thread nD τ) arg5 fullShare rb ∗ owns (c : Thread nD τ) arg6 fullShare ob
            ∗ owns (c : Thread nD τ) arg7 fullShare (mNew kb (View.ld qa (rq i)) m0)
            ∗ owns (c : Thread nD τ) arg8 fullShare (lNew kb (View.ld qa (rq i)) m0 l0)
            ∗ owns (c : Thread nD τ) arg9 fullShare (aNew kb (View.ld qa (rq i)) (View.ld va (rq i)) m0 a0)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.Mem.head _, View.mem_set_unit_zero off0 inb_S1024x1_S1024x1_0_0 y⟩), View.canon_cons_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl
  isplitl [H8]
  · iexists _; isplitr
    swap; · iexact H8
    ipureintro
    sl_unfold_words
    rw [View.read_writes_eq_canon _ _ _ (fun y => ⟨_, List.Mem.head _, View.mem_set_unit_zero off0 inb_S1024x1_S1024x1_0_0 y⟩), View.canon_cons_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl
  · iexists _; isplitr
    swap; · iexact H9
    ipureintro
    sl_unfold_words
    rw [View.read_writes_eq_canon _ _ _ (fun y => ⟨_, List.Mem.head _, View.mem_set_unit_zero off0 inb_S1024x128_S1024x128_0_0 y⟩), View.canon_cons_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl

set_option maxHeartbeats 1000000 in
/-- A tile strictly inside a block: nothing is reset and nothing written out; the three running quantities are updated
    from the keys' block and the tile of queries and values. -/
theorem runB (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬condR i) (hc1 : ¬k1_cond2 i = 1#1)
    (kb : Vec F S1024x128 .bf16) (qa va : Vec F S8192x128 .bf16) (rb ob : Vec F S1024x128 .f32)
    (M L : Vec F S1024x1 .f32) (A : Vec F S1024x128 .f32) (E : Set ℕ) (K : PUnit → sProp 𝕄) :
    iprop(owns (c : Thread nD τ) arg2 fullShare kb ∗ owns (c : Thread nD τ) arg3 fullShare qa ∗ owns (c : Thread nD τ) arg4 fullShare va
        ∗ owns (c : Thread nD τ) arg5 fullShare rb ∗ owns (c : Thread nD τ) arg6 fullShare ob
        ∗ owns (c : Thread nD τ) arg7 fullShare M ∗ owns (c : Thread nD τ) arg8 fullShare L ∗ owns (c : Thread nD τ) arg9 fullShare A
        ∗ (iprop(owns (c : Thread nD τ) arg2 fullShare kb ∗ owns (c : Thread nD τ) arg3 fullShare qa ∗ owns (c : Thread nD τ) arg4 fullShare va
            ∗ owns (c : Thread nD τ) arg5 fullShare rb ∗ owns (c : Thread nD τ) arg6 fullShare ob
            ∗ owns (c : Thread nD τ) arg7 fullShare (mNew kb (View.ld qa (rq i)) M)
            ∗ owns (c : Thread nD τ) arg8 fullShare (lNew kb (View.ld qa (rq i)) M L)
            ∗ owns (c : Thread nD τ) arg9 fullShare (aNew kb (View.ld qa (rq i)) (View.ld va (rq i)) M A)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  isplitl [H8]
  · iexists _; isplitr
    swap; · iexact H8
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  · iexists _; isplitr
    swap; · iexact H9
    ipureintro
    sl_unfold_words
    rw [View.read_writes_eq_canon _ _ _ (fun y => ⟨_, List.mem_singleton_self _, View.mem_set_unit_zero off0 inb_S1024x128_S1024x128_0_0 y⟩), View.canon_unit_zero off0]
    simp only [View.readAt_eq_ld, View.ld_unit_zero (S := S1024x128) off0, View.ld_unit_zero (S := S1024x1) off0]
    rfl

set_option maxHeartbeats 1000000 in
/-- A block's last tile: the three running quantities are updated as at any tile, and the result block — the updated
    weighted sum times the reciprocal of the updated sum of exponentials, plus the residual's block — is written out. -/
theorem runC (c : Dev nD) (i : grid1.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬condR i) (hc1 : k1_cond2 i = 1#1)
    (kb : Vec F S1024x128 .bf16) (qa va : Vec F S8192x128 .bf16) (rb ob : Vec F S1024x128 .f32)
    (M L : Vec F S1024x1 .f32) (A : Vec F S1024x128 .f32) (E : Set ℕ) (K : PUnit → sProp 𝕄) :
    iprop(owns (c : Thread nD τ) arg2 fullShare kb ∗ owns (c : Thread nD τ) arg3 fullShare qa ∗ owns (c : Thread nD τ) arg4 fullShare va
        ∗ owns (c : Thread nD τ) arg5 fullShare rb ∗ owns (c : Thread nD τ) arg6 fullShare ob
        ∗ owns (c : Thread nD τ) arg7 fullShare M ∗ owns (c : Thread nD τ) arg8 fullShare L ∗ owns (c : Thread nD τ) arg9 fullShare A
        ∗ (iprop(owns (c : Thread nD τ) arg2 fullShare kb ∗ owns (c : Thread nD τ) arg3 fullShare qa ∗ owns (c : Thread nD τ) arg4 fullShare va
            ∗ owns (c : Thread nD τ) arg5 fullShare rb
            ∗ owns (c : Thread nD τ) arg6 fullShare (outFin (lNew kb (View.ld qa (rq i)) M L) (aNew kb (View.ld qa (rq i)) (View.ld va (rq i)) M A) rb)
            ∗ owns (c : Thread nD τ) arg7 fullShare (mNew kb (View.ld qa (rq i)) M)
            ∗ owns (c : Thread nD τ) arg8 fullShare (lNew kb (View.ld qa (rq i)) M L)
            ∗ owns (c : Thread nD τ) arg9 fullShare (aNew kb (View.ld qa (rq i)) (View.ld va (rq i)) M A)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (fun y => ⟨_, List.mem_singleton_self _, View.mem_set_unit_zero off0 inb_S1024x128_S1024x128_0_0 y⟩), View.canon_unit_zero off0]
    simp only [View.readAt_eq_ld, View.ld_unit_zero (S := S1024x128) off0, View.ld_unit_zero (S := S1024x1) off0,
      View.readCov_unit_zero (S := S1024x1) _ off0, View.readCov_unit_zero (S := S1024x128) _ off0]
    rfl
  isplitl [H7]
  · iexists _; isplitr
    swap; · iexact H7
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  isplitl [H8]
  · iexists _; isplitr
    swap; · iexact H8
    ipureintro
    sl_unfold_words
    rw [View.read_writes_eq_canon _ _ _ (fun y => ⟨_, List.mem_singleton_self _, View.mem_set_unit_zero off0 inb_S1024x1_S1024x1_0_0 y⟩), View.canon_unit_zero off0]
    simp only [View.readAt_eq_ld, View.ld_unit_zero (S := S1024x128) off0, View.ld_unit_zero (S := S1024x1) off0]
    rfl
  · iexists _; isplitr
    swap; · iexact H9
    ipureintro
    sl_unfold_words
    rw [View.read_writes_eq_canon _ _ _ (fun y => ⟨_, List.mem_singleton_self _, View.mem_set_unit_zero off0 inb_S1024x128_S1024x128_0_0 y⟩), View.canon_unit_zero off0]
    simp only [View.readAt_eq_ld, View.ld_unit_zero (S := S1024x128) off0, View.ld_unit_zero (S := S1024x1) off0]
    rfl

/-! ## The body at a point of the grid -/

/-- Each window's current staging memref at point `t`, and its wholeness. -/
abbrev ms0 (t : Fin cfg1.N) : Memref sig .tc .vmem S1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S8192x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x128 .f32 := win1_4.stage (cfg1.slots t 4)
abbrev hs4 (t : Fin cfg1.N) : (ms4 t).IsWhole := hstage1_4 ((cfg1.slots t 4).cast nbuf1_4)

/-- What the body leaves in each input's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- The running quantities after a block's first tile: the tile's update of the reset values. -/
theorem scAt_first (c : Dev nD) (t : Fin cfg1.N) (h0 : t.val % 8 = 0) : scAt V c t.val t.isLt = stepS V c t (m0, l0, a0) := by
  obtain ⟨n, hn⟩ := t
  cases n with
  | zero => rfl
  | succ n => rw [scAt_succ]; dsimp only at h0; rw [if_pos h0]

/-- After any other tile: the tile's update of what the point before left. -/
theorem scAt_next (c : Dev nD) (t : Fin cfg1.N) (h0 : ¬t.val % 8 = 0) :
    scAt V c t.val t.isLt = stepS V c t (scAt V c (t.val - 1) (Nat.lt_of_le_of_lt (Nat.sub_le _ _) t.isLt)) := by
  obtain ⟨n, hn⟩ := t
  cases n with
  | zero => exact absurd (Nat.zero_mod _) h0
  | succ n => rw [scAt_succ]; dsimp only at h0; rw [if_neg h0]; rfl

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. Each input's buffer holds its block; the point is a block's first tile, a tile strictly
    inside, or its last, and that case's run applies: the invariant hands the body the three scratch buffers at what
    the point before left (at anything at a block's first tile, where they are reset) and takes them back at this
    point's running quantities; the output's buffer comes back untouched except at a block's last tile, where it
    holds the result block of this point's running quantities. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms0 t) fullShare ((dat1 V c).after 0 t) from by
    unfold Dat.leavesExact; rw [live_0 t], after1_0]
  rw [show (dat1 V c).leavesExact 1 t = owns (c : Thread nD τ) (ms1 t) fullShare ((dat1 V c).after 1 t) from by
    unfold Dat.leavesExact; rw [live_1 t], after1_1]
  rw [show (dat1 V c).leavesExact 2 t = owns (c : Thread nD τ) (ms2 t) fullShare ((dat1 V c).after 2 t) from by
    unfold Dat.leavesExact; rw [live_2 t], after1_2]
  rw [show (dat1 V c).leavesExact 3 t = owns (c : Thread nD τ) (ms3 t) fullShare ((dat1 V c).after 3 t) from by
    unfold Dat.leavesExact; rw [live_3 t], after1_3]
  by_cases h0 : t.val % 8 = 0
  · have h7 : ¬t.val % 8 = 7 := by omega
    rw [Dat.leavesExact_idle (dat1 V c) 4 t (idle_4 t h7) (noFlush_4 t h7)]
    rw [scAt_first V c t h0]
    unfold stepS qtile vtile; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      icases (phiA_split (F := F) c) $$ HΦ with ⟨Hos, ⟨%dM, HM⟩, ⟨%dL, HL⟩, ⟨%dA, HA⟩, Hg⟩
      iapply (runA c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        ((hcondR t).mpr h0) (fun h => h7 ((hcondW t).mp h)) (iblk1 V c 0 t) (iblk1 V c 1 t) (iblk1 V c 2 t) (iblk1 V c 3 t) ((dat1 V c).before 4 t d4) dM dL dA Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨Hos, HM, HL, HA, Hg⟩, Ho, ⟨%d0, H0⟩, ⟨%d1, H1⟩, ⟨%d2, H2⟩, ⟨%d3, H3⟩, ⟨%d4, H4⟩⟩
      iapply (runA c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        ((hcondR t).mpr h0) (fun h => h7 ((hcondW t).mp h)) (iblk1 V c 0 t) (iblk1 V c 1 t) (iblk1 V c 2 t) (iblk1 V c 3 t) ((dat1 V c).before 4 t d4)
        (scAt V c (t.val - 1) (by omega)).1 (scAt V c (t.val - 1) (by omega)).2.1 (scAt V c (t.val - 1) (by omega)).2.2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [scAt_next V c t h0]
    unfold stepS qtile vtile; dsimp only
    rw [PhiS_castSucc V c t, PhiS_pos V c _ _ hz]
    by_cases h7 : t.val % 8 = 7
    · rw [show (dat1 V c).leavesExact 4 t = owns (c : Thread nD τ) (ms4 t) fullShare ((dat1 V c).after 4 t) from by
        unfold Dat.leavesExact; rw [live_4 t h7], after1_4, scAt_next V c t h0]
      unfold stepS qtile vtile; dsimp only
      iintro ⟨⟨Hos, HM, HL, HA, Hg⟩, Ho, ⟨%d0, H0⟩, ⟨%d1, H1⟩, ⟨%d2, H2⟩, ⟨%d3, H3⟩, ⟨%d4, H4⟩⟩
      iapply (runC c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        (fun h => h0 ((hcondR t).mp h)) ((hcondW t).mpr h7) (iblk1 V c 0 t) (iblk1 V c 1 t) (iblk1 V c 2 t) (iblk1 V c 3 t) ((dat1 V c).before 4 t d4)
        (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle_4 t h7) (noFlush_4 t h7)]
      iintro ⟨⟨Hos, HM, HL, HA, Hg⟩, Ho, ⟨%d0, H0⟩, ⟨%d1, H1⟩, ⟨%d2, H2⟩, ⟨%d3, H3⟩, ⟨%d4, H4⟩⟩
      iapply (runB c (grid1.coords t) (ms0 t) (hs0 t) (ms1 t) (hs1 t) (ms2 t) (hs2 t) (ms3 t) (hs3 t) (ms4 t) (hs4 t) scM (Memref.isWhole_whole _) scL (Memref.isWhole_whole _) scA (Memref.isWhole_whole _)
        (fun h => h0 ((hcondR t).mp h)) (fun h => h7 ((hcondW t).mp h)) (iblk1 V c 0 t) (iblk1 V c 1 t) (iblk1 V c 2 t) (iblk1 V c 3 t) ((dat1 V c).before 4 t d4)
        (scAt V c (t.val - 1) (Nat.lt_of_le_of_lt (Nat.sub_le _ _) t.isLt)).1 (scAt V c (t.val - 1) (Nat.lt_of_le_of_lt (Nat.sub_le _ _) t.isLt)).2.1 (scAt V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      isplitl [HA]; · iexact HA
      iintro ⟨H0, H1, H2, H3, H4, HM, HL, HA⟩
      isplitl [Hos HM HL HA Hg]
      · isplitl [Hos]; · iexact Hos
        isplitl [HM]; · iexact HM
        isplitl [HL]; · iexact HL
        isplitl [HA]; · iexact HA
        iexact Hg
      isplitl [Ho]; · iexact Ho
      isplitl [H0]; · iexact H0
      isplitl [H1]; · iexact H1
      isplitl [H2]; · iexact H2
      isplitl [H3]; · iexact H3
      iexists _; iexact H4

/-- The body's obligation at every point of the region. -/
theorem body_obligation1 (c : Dev nD) : BodyObligation (dat1 (F := F) V c) (defs₀ (F := F)) Variants.none () Set.univ := fun t => by
  rw [bigSep_W1, bigSep_W1]
  exact sound_body V c t

end Cert.KernelIdeal.Fr

end
-- ==== Proof.Run.lean ====
/-
  The run of the whole program: the host stretch that concatenates the features and reshapes the biases, the
  projection kernel's region, the attention kernel's region — with the contents of every unscoped buffer named
  at each boundary.

  `W0` is the launch memory, `W1` what the host stretch leaves, `W2` what the projection region leaves (its four
  result arrays at what its write-backs put there, everything else as entered), `W3` what the attention region
  leaves (the result array at what its write-backs put there). Every weakly fair execution terminates, and the
  final memory holds every unscoped buffer at `W3`.
-/
import proofs.«409729_j40200893890895_3_alg».proof.Proof.Reg0
import proofs.«409729_j40200893890895_3_alg».proof.Proof.Reg1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- No region has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; its invariant takes the scoped
    buffers it does not stage and the generator register in, and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Fr

end
-- ==== Proof.Args.lean ====
/-
  The arguments end as launched. No host operation of the stretch writes an argument array, the projection region
  reads three of them through input windows (whose arrays the pipeline leaves as they were) and touches no other,
  and the attention region touches none: so the contents of an argument's buffer at the last boundary walk back to
  the launch memory. With the run of the whole program this is the frame claim, at any instance of the floats.
-/
import proofs.«409729_j40200893890895_3_alg».proof.Proof.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the host stretch writes. -/
abbrev hostW : List (Ref sig .tc) := [main_v0, main_v1, main_v2, main_v3, main_v4]

theorem hostOps0_writes : (hostOps0 : List (HloOp τ sig (Elt F))).Forall fun op => op.writes ⊆ (hostW.map (Proc.devRef (τ := τ) .tc)).toFinset := by
  simp only [List.Forall]
  refine ⟨?_, ?_, ?_, ?_, ?_⟩ <;>
  · simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A buffer the host stretch does not write holds after it what it held at launch. -/
theorem W1_of_ne (c : Dev nD) (r : Ref sig .tc) (h : r ∉ hostW) : W1 m ρ c (Proc.devRef .tc r) = W0 m ρ c (Proc.devRef .tc r) :=
  StableHlo.after_of_writes_sub hostOps0 _ hostOps0_writes h

/-- Argument 0 reaches the end as launched: the host stretch does not write it, the projection region does not touch it, the attention region does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- Argument 1 reaches the end as launched: the host stretch does not write it, the projection region does not touch it, the attention region does not touch it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Argument 2 reaches the end as launched: the host stretch does not write it, the projection region does not touch it, the attention region does not touch it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- Argument 3 reaches the end as launched: the host stretch does not write it, the projection region only reads it through an input window, the attention region does not touch it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of_ne m ρ c main_arg3 (by decide)
    _ = m ((c : Thread nD τ).loc main_arg3) := rfl

/-- Argument 4 reaches the end as launched: the host stretch does not write it, the projection region does not touch it, the attention region does not touch it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Argument 5 reaches the end as launched: the host stretch does not write it, the projection region only reads it through an input window, the attention region does not touch it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of_ne m ρ c main_arg5 (by decide)
    _ = m ((c : Thread nD τ).loc main_arg5) := rfl

/-- Argument 6 reaches the end as launched: the host stretch does not write it, the projection region does not touch it, the attention region does not touch it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- Argument 7 reaches the end as launched: the host stretch does not write it, the projection region only reads it through an input window, the attention region does not touch it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 5).trans (((dat0 (V1 m ρ) c).arrAt_in 5 rfl _).trans (A_eq0 (V1 m ρ) c 5))
    _ = W0 m ρ c (Proc.devRef .tc main_arg7) := W1_of_ne m ρ c main_arg7 (by decide)
    _ = m ((c : Thread nD τ).loc main_arg7) := rfl

/-- Argument 8 reaches the end as launched: the host stretch does not write it, the projection region does not touch it, the attention region does not touch it. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

/-- THE FRAME, at any instance of the floats: every weakly fair execution terminates, nothing faulting, and every
    argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c)⟩)
    (run_all m ρ)

end Cert.KernelIdeal.Fr

end
-- ==== Proof.Spec.lean ====
/-
  The mathematics of the two programs, as functions on arrays of extended reals.

  From the concatenated features `X` (8192 × 128) and the weights: the keys `K = X·Wkᵀ + bk`, the queries
  `Q = X·Wqᵀ + bq`, the values `VQ = Q·Wv_qᵀ` (`Wv_q` the left half of `Wv`) and the residual
  `RES = K + (K·Wv_kᵀ + bv)` (`Wv_k` the right half). The scores of key row `n` are `S n p = ∑ e, K n e · Q p e`.

  The reference's result is `K + ((softmax(S)·VQ + K·Wv_kᵀ) + bv)`, the softmax taken with the row maximum
  subtracted. The kernel's result is `ACC · (1 / L) + RES`, where `(M, L, ACC)` are the running maximum, sum of
  exponentials and weighted sum of values after the eight tiles of 1024 queries (`upd`, `run`).
-/
import Idealize.ShloMosaic.PureOps.Ideal
import Idealize.ShloMosaic.Lib.ValueIdx

noncomputable section

open scoped BigOperators

namespace Cert.KernelIdeal.Sp

open Idealize.ShloMosaic Idealize.ShloMosaic.ValueIdx

/-- A matrix of extended reals. -/
abbrev Mat (a b : ℕ) : Type := (⟨2, ![a, b]⟩ : Shape).Idx → EReal
/-- A vector of extended reals. -/
abbrev Vc (a : ℕ) : Type := (⟨1, ![a]⟩ : Shape).Idx → EReal

/-- Column `e` of the left half of a 128 × 256 matrix's row. -/
abbrev lo (e : Fin 128) : Fin 256 := ⟨e.val, by omega⟩
/-- Column `e` of the right half. -/
abbrev hi (e : Fin 128) : Fin 256 := ⟨128 + e.val, by omega⟩
/-- Query `p` of tile `j`. -/
abbrev tl (j : Fin 8) (p : Fin 1024) : Fin 8192 := ⟨1024 * j.val + p.val, by omega⟩

/-- A projection `X·Wᵀ + b`. -/
def proj (X : Mat 8192 128) (w : Mat 128 128) (b : Vc 128) : Mat 8192 128 := fun i =>
  (∑ j : Fin 128, X (ix2 (i 0) j) * w (ix2 (i 1) j)) + b (ix1 (i 1))

/-- The values `Q·Wv_qᵀ`. -/
def vals (Q : Mat 8192 128) (wv : Mat 128 256) : Mat 8192 128 := fun i =>
  ∑ e : Fin 128, Q (ix2 (i 0) e) * wv (ix2 (i 1) (lo e))

/-- The keys' own term `K·Wv_kᵀ`. -/
def kterm (K : Mat 8192 128) (wv : Mat 128 256) : Mat 8192 128 := fun i =>
  ∑ e : Fin 128, K (ix2 (i 0) e) * wv (ix2 (i 1) (hi e))

/-- The residual `K + (K·Wv_kᵀ + bv)`. -/
def resid (K : Mat 8192 128) (wv : Mat 128 256) (bv : Vc 128) : Mat 8192 128 := fun i =>
  K i + (kterm K wv i + bv (ix1 (i 1)))

/-- The score of key row `n` against query `p`. -/
def score (K Q : Mat 8192 128) (n p : Fin 8192) : EReal := ∑ e : Fin 128, K (ix2 n e) * Q (ix2 p e)

/-! ## The reference's attention -/

/-- The largest score of a row (from `-∞`, then against `-∞` once more, as the reference takes it). -/
def rowMax (K Q : Mat 8192 128) (n : Fin 8192) : EReal := max ⊥ ((Finset.univ : Finset (Fin 8192)).fold max ⊥ (score K Q n))

/-- The softmax's denominator of a row. -/
def rowDen (K Q : Mat 8192 128) (n : Fin 8192) : EReal := 0 + ∑ p : Fin 8192, Ideal.exp (score K Q n p - rowMax K Q n)

/-- The reference's result: `K + ((softmax(S)·VQ + K·Wv_kᵀ) + bv)`. -/
def refOut (K Q VQ : Mat 8192 128) (wv : Mat 128 256) (bv : Vc 128) : Mat 8192 128 := fun i =>
  K i + (((∑ p : Fin 8192, Ideal.div (Ideal.exp (score K Q (i 0) p - rowMax K Q (i 0))) (rowDen K Q (i 0)) * VQ (ix2 p (i 1)))
    + kterm K wv i) + bv (ix1 (i 1)))

/-! ## The kernel's attention, tile by tile -/

/-- One tile's update of a row's running maximum, sum of exponentials and (for one column) weighted sum of values:
    `s` the row's scores against the tile's queries, `v` the tile's values in the column. -/
def upd (s v : Fin 1024 → EReal) (st : EReal × EReal × EReal) : EReal × EReal × EReal :=
  (max st.1 ((Finset.univ : Finset (Fin 1024)).fold max ⊥ s),
   Ideal.exp (st.1 - max st.1 ((Finset.univ : Finset (Fin 1024)).fold max ⊥ s)) * st.2.1
     + ∑ p : Fin 1024, Ideal.exp (s p - max st.1 ((Finset.univ : Finset (Fin 1024)).fold max ⊥ s)),
   Ideal.exp (st.1 - max st.1 ((Finset.univ : Finset (Fin 1024)).fold max ⊥ s)) * st.2.2
     + ∑ p : Fin 1024, Ideal.exp (s p - max st.1 ((Finset.univ : Finset (Fin 1024)).fold max ⊥ s)) * v p)

/-- The running quantities after tile `j` (tiles numbered from 0), from `(-∞, 0, 0)`. -/
def run (s v : ℕ → Fin 1024 → EReal) : ℕ → EReal × EReal × EReal
  | 0 => upd (s 0) (v 0) (⊥, 0, 0)
  | j + 1 => upd (s (j + 1)) (v (j + 1)) (run s v j)

/-- Row `n`'s scores against tile `j` (tiles beyond the eighth read as the eighth: never consulted). -/
def tileS (K Q : Mat 8192 128) (n : Fin 8192) (j : ℕ) (p : Fin 1024) : EReal := score K Q n (tl ⟨j % 8, Nat.mod_lt _ (by omega)⟩ p)
/-- Column `d` of the values of tile `j`. -/
def tileV (VQ : Mat 8192 128) (d : Fin 128) (j : ℕ) (p : Fin 1024) : EReal := VQ (ix2 (tl ⟨j % 8, Nat.mod_lt _ (by omega)⟩ p) d)

/-- The kernel's result: `ACC · (1 / L) + RES` after the eight tiles. -/
def kerOut (K Q VQ RES : Mat 8192 128) : Mat 8192 128 := fun i =>
  (run (tileS K Q (i 0)) (tileV VQ (i 1)) 7).2.2 * Ideal.div 1 (run (tileS K Q (i 0)) (tileV VQ (i 1)) 7).2.1 + RES i

end Cert.KernelIdeal.Sp

end
-- ==== Proof.Val0.lean ====
/-
  What the projection region leaves in its four result arrays, at the ideal instance: block `t` of each array is
  what point `t` wrote, the eight blocks cover the 8192 rows, and entry by entry the blocks are the keys
  `X·Wkᵀ + bk`, the queries `X·Wqᵀ + bq`, the values `Q·Wv_qᵀ` and the residual `K + (K·Wv_kᵀ + bv)` of
  `Spec.lean` — a change of float format being the identity, a matrix product into a zero accumulator the plain sum.
-/
import proofs.«409729_j40200893890895_3_alg».proof.Proof.Reg0
import proofs.«409729_j40200893890895_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Sp

variable (V : (c : Dev nD) → (b : Ref sig .tc) → Buf (Elt Ideal) ((c : Thread nD τ).loc b))

/-- A 1 × 128 row as a vector. -/
def rowV (b : S1x128.Idx → EReal) : Vc 128 := fun i => b (ix2 0 (i 0))

/-! ## The body's operations at an index

At the extended reals a change of float format is the identity, a cast to the same shape is the identity, and the
remaining operations of the body read their operands at one index (whatever the elements are) or sum over one axis. Each is stated once, over
variables of the literal vector types, at the index with coordinates `p` and `q`. -/

/-- The transposed weights at row `k`, column `q`, are the weights at row `q`, column `k`. -/
theorem transpose_at {α : Type} (w : S128x128.Idx → α) (h : S128x128.Transposes [1, 0] S128x128) (k q : Fin 128) :
    transpose S128x128 [1, 0] w h (ix2 k q) = w (ix2 q k) :=
  transpose_apply [1, 0] w h (ix2 k q) (ix2 q k) (fun b => match b with
    | ⟨0, _⟩ => rfl
    | ⟨1, _⟩ => rfl)

/-- A row broadcast down the 1024 rows reads, at row `p` and column `q`, the row's entry at column `q`. -/
theorem broadcast_at {α : Type} (b : S1x128.Idx → α) (h : S1x128.Broadcasts S1024x128) (p : Fin 1024) (q : Fin 128) :
    broadcastTo S1024x128 b h (ix2 p q) = b (ix2 0 q) :=
  broadcastTo_apply b h (ix2 p q) (ix2 0 q) (fun a => match a with
    | ⟨0, _⟩ => by show 0 = if (1 : ℕ) = 1 then 0 else _; rw [if_pos rfl]
    | ⟨1, _⟩ => by show q.val = if (128 : ℕ) = 1 then 0 else q.val; rw [if_neg (by decide)])

/-- The left half of the 128 × 256 weights: row `a`, column `b` of the slice is row `a`, column `b`. -/
theorem sliceLo_at {α : Type} (wv : S128x256.Idx → α) (h : S128x256.Slices ![0, 0] S128x128) (a b : Fin 128) :
    extractStridedSlice S128x128 ![0, 0] wv h (ix2 a b) = wv (ix2 a (lo b)) :=
  extractStridedSlice_apply ![0, 0] wv h (ix2 a b) (ix2 a (lo b)) (fun d => match d with
    | ⟨0, _⟩ => by show a.val = 0 + a.val; omega
    | ⟨1, _⟩ => by show b.val = 0 + b.val; omega)

/-- The right half: row `a`, column `b` of the slice is row `a`, column `128 + b`. -/
theorem sliceHi_at {α : Type} (wv : S128x256.Idx → α) (h : S128x256.Slices ![0, 128] S128x128) (a b : Fin 128) :
    extractStridedSlice S128x128 ![0, 128] wv h (ix2 a b) = wv (ix2 a (hi b)) :=
  extractStridedSlice_apply ![0, 128] wv h (ix2 a b) (ix2 a (hi b)) (fun d => match d with
    | ⟨0, _⟩ => by show a.val = 0 + a.val; omega
    | ⟨1, _⟩ => by show 128 + b.val = 128 + b.val; rfl)

/-! ### The matrix product

The product contracts the second axis of the left operand with the first of the right one: the operands' indices
under an output index and a contraction index, axis by axis. -/

theorem lhs_mm_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_mm_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_mm_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_mm_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into a zero accumulator, at row `p` and column `q`, is the sum over `k` of the left operand's row `p`
    times the right operand's column `q`. -/
theorem matmul_at {φ₁ φ₂ : FTy} (x : FVec Ideal S1024x128 φ₁) (w : FVec Ideal S128x128 φ₂) (p : Fin 1024) (q : Fin 128) :
    matmul dot_S1024x128_S128x128_S1024x128_1_0_0_1_n_n none x w (constant S1024x128 .f32 0x00000000#32) (ix2 p q)
      = ∑ k : Fin 128, x (ix2 p k) * w (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The same with the right operand transposed: the sum over `k` of the left operand's row `p` times the right
    operand's row `q`. -/
theorem matmulT_at {φ₁ φ₂ : FTy} (x : FVec Ideal S1024x128 φ₁) (w : FVec Ideal S128x128 φ₂)
    (h : S128x128.Transposes [1, 0] S128x128) (p : Fin 1024) (q : Fin 128) :
    matmul dot_S1024x128_S128x128_S1024x128_1_0_0_1_n_n none x (transpose S128x128 [1, 0] w h) (constant S1024x128 .f32 0x00000000#32) (ix2 p q)
      = ∑ k : Fin 128, x (ix2 p k) * w (ix2 q k) := by
  rw [matmul_at]
  exact Finset.sum_congr rfl fun k _ => congrArg (x (ix2 p k) * ·) (transpose_at w h k q)

/-! ## The body's values at an index -/

/-- The block of features as the products read it: itself. -/
theorem pay3_eq (x : Vec Ideal S1024x128 .f32) : k0_pay3 x = x := by
  unfold k0_pay3
  exact shapeCast_self x _

/-- A projection `x·wᵀ + b` of the block, at row `p` and column `q`. -/
theorem pay4_at (x : Vec Ideal S1024x128 .f32) (w : Vec Ideal S128x128 .f32) (b : Vec Ideal S1x128 .f32) (p : Fin 1024) (q : Fin 128) :
    k0_pay4 x w b (ix2 p q) = (∑ k : Fin 128, x (ix2 p k) * w (ix2 q k)) + b (ix2 0 q) := by
  unfold k0_pay4
  simp only [pay3_eq, addf_apply, broadcast_at, shapeCast_self]
  rw [matmulT_at]
  rfl

/-- The keys' block is that projection (the change of format is the identity). -/
theorem pay5_at (x : Vec Ideal S1024x128 .f32) (w : Vec Ideal S128x128 .f32) (b : Vec Ideal S1x128 .f32) (p : Fin 1024) (q : Fin 128) :
    k0_pay5 x w b (ix2 p q) = (∑ k : Fin 128, x (ix2 p k) * w (ix2 q k)) + b (ix2 0 q) :=
  pay4_at x w b p q

/-- The queries' block is the same projection under the queries' weights. -/
theorem pay6_at (x : Vec Ideal S1024x128 .f32) (w : Vec Ideal S128x128 .f32) (b : Vec Ideal S1x128 .f32) (p : Fin 1024) (q : Fin 128) :
    k0_pay6 x w b (ix2 p q) = (∑ k : Fin 128, x (ix2 p k) * w (ix2 q k)) + b (ix2 0 q) := by
  unfold k0_pay6
  simp only [pay3_eq, addf_apply, broadcast_at, shapeCast_self, truncf_apply]
  rw [matmulT_at]
  rfl

/-- The values' block: the queries' block times the transposed left half of the value weights. -/
theorem pay7_at (x : Vec Ideal S1024x128 .f32) (w : Vec Ideal S128x128 .f32) (b : Vec Ideal S1x128 .f32) (wv : Vec Ideal S128x256 .f32)
    (p : Fin 1024) (q : Fin 128) :
    k0_pay7 x w b wv (ix2 p q) = ∑ e : Fin 128, k0_pay6 x w b (ix2 p e) * wv (ix2 q (lo e)) := by
  unfold k0_pay7
  dsimp only
  rw [matmulT_at]
  exact Finset.sum_congr rfl fun e _ => congrArg (k0_pay6 x w b (ix2 p e) * ·) (sliceLo_at wv Facts₀.slices_S128x256_o0_0_S128x128 q e)

/-- The keys' own term plus the bias: the keys' block times the transposed right half of the value weights, plus `bv`. -/
theorem pay8_at (x : Vec Ideal S1024x128 .f32) (w : Vec Ideal S128x128 .f32) (b : Vec Ideal S1x128 .f32) (wv : Vec Ideal S128x256 .f32)
    (bv : Vec Ideal S1x128 .f32) (p : Fin 1024) (q : Fin 128) :
    k0_pay8 x w b wv bv (ix2 p q) = (∑ e : Fin 128, k0_pay5 x w b (ix2 p e) * wv (ix2 q (hi e))) + bv (ix2 0 q) := by
  unfold k0_pay8
  simp only [addf_apply, broadcast_at, shapeCast_self]
  rw [matmulT_at]
  exact congrArg (· + bv (ix2 0 q)) (Finset.sum_congr rfl fun e _ => congrArg (k0_pay5 x w b (ix2 p e) * ·) (sliceHi_at wv Facts₀.slices_S128x256_o0_128_S128x128 q e))

/-! ## The four blocks a point writes, at an index -/

/-- The keys of a block: `x·Wkᵀ + bk`. -/
theorem keysB_at (x : Vec Ideal S1024x128 .f32) (wk : Vec Ideal S128x128 .f32) (bk : Vec Ideal S1x128 .f32) (p : Fin 1024) (q : Fin 128) :
    keysB x wk bk (ix2 p q) = (∑ k : Fin 128, x (ix2 p k) * wk (ix2 q k)) + bk (ix2 0 q) :=
  pay5_at x wk bk p q

/-- The queries of a block: `x·Wqᵀ + bq`. -/
theorem qrysB_at (x : Vec Ideal S1024x128 .f32) (wq : Vec Ideal S128x128 .f32) (bq : Vec Ideal S1x128 .f32) (p : Fin 1024) (q : Fin 128) :
    qrysB x wq bq (ix2 p q) = (∑ k : Fin 128, x (ix2 p k) * wq (ix2 q k)) + bq (ix2 0 q) :=
  pay6_at x wq bq p q

/-- The values of a block: the queries times the transposed left half of `Wv`. -/
theorem valsB_at (x : Vec Ideal S1024x128 .f32) (wq : Vec Ideal S128x128 .f32) (bq : Vec Ideal S1x128 .f32) (wv : Vec Ideal S128x256 .f32)
    (p : Fin 1024) (q : Fin 128) :
    valsB x wq bq wv (ix2 p q) = ∑ e : Fin 128, qrysB x wq bq (ix2 p e) * wv (ix2 q (lo e)) :=
  pay7_at x wq bq wv p q

/-- The residual of a block: the keys plus (the keys times the transposed right half of `Wv`, plus `bv`). -/
theorem resB_at (x : Vec Ideal S1024x128 .f32) (wk : Vec Ideal S128x128 .f32) (bk : Vec Ideal S1x128 .f32) (wv : Vec Ideal S128x256 .f32)
    (bv : Vec Ideal S1x128 .f32) (p : Fin 1024) (q : Fin 128) :
    resB x wk bk wv bv (ix2 p q)
      = keysB x wk bk (ix2 p q) + ((∑ e : Fin 128, keysB x wk bk (ix2 p e) * wv (ix2 q (hi e))) + bv (ix2 0 q)) := by
  show k0_pay4 x wk bk (ix2 p q) + k0_pay8 x wk bk wv bv (ix2 p q) = _
  rw [pay8_at]
  rfl

/-! ## The blocks in their arrays

The printed index maps, decided over the region's eight points: the features' window and the four results' windows
are on block `(t, 0)` at point `t`; the six weight and bias windows stay on block `(0, 0)`. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)

/-- The region has eight points. -/
theorem pt_lt (t : Fin cfg0.N) : t.val < 8 := lt_of_lt_of_eq t.isLt N_0

/-- Row `p` of block `t`, among the 8192 rows. -/
def rowOf (t : Fin cfg0.N) (p : Fin 1024) : Fin 8192 := ⟨1024 * t.val + p.val, by have := pt_lt t; omega⟩

/-- The point whose block holds the row of an index: the row over 1024. -/
def ptOf (i : S8192x128.Idx) : Fin cfg0.N :=
  ⟨(i 0).val / 1024, by rw [show cfg0.N = 8 from N_0]; have h0 : (i 0).val < 8192 := (i 0).isLt; omega⟩

/-! ### The inputs' blocks, read off their arrays -/

/-- Row `p` of the features' block at point `t` is row `1024·t + p` of the features. -/
theorem iblk0_0_at (c : Dev nD) (t : Fin cfg0.N) (p : Fin 1024) (k : Fin 128) :
    iblk0 V c 0 t (ix2 p k) = V c main_v1 (ix2 (rowOf t p) k) := by
  obtain ⟨e0, e1⟩ := idx0_0 t
  show V c main_v1 (((cfg0.win 0).blk t).view.emb (ix2 p k)) = _
  refine congrArg (V c main_v1) ?_
  funext a; apply Fin.ext
  match a with
  | ⟨0, _⟩ => show win0_0.index t (0 : Fin 2) * 1024 + 1 * p.val = 1024 * t.val + p.val; omega
  | ⟨1, _⟩ => show win0_0.index t (1 : Fin 2) * 128 + 1 * k.val = k.val; omega

/-- The queries' weights' block is the whole array at every point. -/
theorem iblk0_1_at (c : Dev nD) (t : Fin cfg0.N) (a b : Fin 128) :
    iblk0 V c 1 t (ix2 a b) = V c main_arg3 (ix2 a b) := by
  obtain ⟨e0, e1⟩ := idx0_1 t
  show V c main_arg3 (((cfg0.win 1).blk t).view.emb (ix2 a b)) = _
  refine congrArg (V c main_arg3) ?_
  funext d; apply Fin.ext
  match d with
  | ⟨0, _⟩ => show win0_1.index t (0 : Fin 2) * 128 + 1 * a.val = a.val; omega
  | ⟨1, _⟩ => show win0_1.index t (1 : Fin 2) * 128 + 1 * b.val = b.val; omega

/-- The keys' weights' block is the whole array at every point. -/
theorem iblk0_3_at (c : Dev nD) (t : Fin cfg0.N) (a b : Fin 128) :
    iblk0 V c 3 t (ix2 a b) = V c main_arg5 (ix2 a b) := by
  obtain ⟨e0, e1⟩ := idx0_3 t
  show V c main_arg5 (((cfg0.win 3).blk t).view.emb (ix2 a b)) = _
  refine congrArg (V c main_arg5) ?_
  funext d; apply Fin.ext
  match d with
  | ⟨0, _⟩ => show win0_3.index t (0 : Fin 2) * 128 + 1 * a.val = a.val; omega
  | ⟨1, _⟩ => show win0_3.index t (1 : Fin 2) * 128 + 1 * b.val = b.val; omega

/-- The queries' bias row's block is the whole row at every point. -/
theorem iblk0_2_at (c : Dev nD) (t : Fin cfg0.N) (b : Fin 128) :
    iblk0 V c 2 t (ix2 0 b) = V c main_v2 (ix2 0 b) := by
  obtain ⟨e0, e1⟩ := idx0_2 t
  show V c main_v2 (((cfg0.win 2).blk t).view.emb (ix2 0 b)) = _
  refine congrArg (V c main_v2) ?_
  funext d; apply Fin.ext
  match d with
  | ⟨0, _⟩ => show win0_2.index t (0 : Fin 2) * 1 + 1 * 0 = 0; omega
  | ⟨1, _⟩ => show win0_2.index t (1 : Fin 2) * 128 + 1 * b.val = b.val; omega

/-- The keys' bias row's block is the whole row at every point. -/
theorem iblk0_4_at (c : Dev nD) (t : Fin cfg0.N) (b : Fin 128) :
    iblk0 V c 4 t (ix2 0 b) = V c main_v3 (ix2 0 b) := by
  obtain ⟨e0, e1⟩ := idx0_4 t
  show V c main_v3 (((cfg0.win 4).blk t).view.emb (ix2 0 b)) = _
  refine congrArg (V c main_v3) ?_
  funext d; apply Fin.ext
  match d with
  | ⟨0, _⟩ => show win0_4.index t (0 : Fin 2) * 1 + 1 * 0 = 0; omega
  | ⟨1, _⟩ => show win0_4.index t (1 : Fin 2) * 128 + 1 * b.val = b.val; omega

/-- The values' bias row's block is the whole row at every point. -/
theorem iblk0_6_at (c : Dev nD) (t : Fin cfg0.N) (b : Fin 128) :
    iblk0 V c 6 t (ix2 0 b) = V c main_v4 (ix2 0 b) := by
  obtain ⟨e0, e1⟩ := idx0_6 t
  show V c main_v4 (((cfg0.win 6).blk t).view.emb (ix2 0 b)) = _
  refine congrArg (V c main_v4) ?_
  funext d; apply Fin.ext
  match d with
  | ⟨0, _⟩ => show win0_6.index t (0 : Fin 2) * 1 + 1 * 0 = 0; omega
  | ⟨1, _⟩ => show win0_6.index t (1 : Fin 2) * 128 + 1 * b.val = b.val; omega

/-- The value weights' block is the whole 128 × 256 array at every point. -/
theorem iblk0_5_at (c : Dev nD) (t : Fin cfg0.N) (a : Fin 128) (b : Fin 256) :
    iblk0 V c 5 t (ix2 a b) = V c main_arg7 (ix2 a b) := by
  obtain ⟨e0, e1⟩ := idx0_5 t
  show V c main_arg7 (((cfg0.win 5).blk t).view.emb (ix2 a b)) = _
  refine congrArg (V c main_arg7) ?_
  funext d; apply Fin.ext
  match d with
  | ⟨0, _⟩ => show win0_5.index t (0 : Fin 2) * 128 + 1 * a.val = a.val; omega
  | ⟨1, _⟩ => show win0_5.index t (1 : Fin 2) * 256 + 1 * b.val = b.val; omega

/-! ### The results' blocks in their arrays, and their cover -/

theorem emb0_7 (t : Fin cfg0.N) (p : Fin 1024) (q : Fin 128) :
    ((cfg0.win 7).blk t).view.emb (ix2 p q) = ix2 (rowOf t p) q := by
  obtain ⟨e0, e1⟩ := idx0_7 t
  funext a; apply Fin.ext
  match a with
  | ⟨0, _⟩ => show win0_7.index t (0 : Fin 2) * 1024 + 1 * p.val = 1024 * t.val + p.val; omega
  | ⟨1, _⟩ => show win0_7.index t (1 : Fin 2) * 128 + 1 * q.val = q.val; omega

theorem cover0_7 (i : S8192x128.Idx) :
    ∃ t : Fin cfg0.N, (cfg0.win 7).flush t = true ∧ i ∈ ((cfg0.win 7).blk t).view.set := by
  have h0 : (i 0).val < 8192 := (i 0).isLt
  have h1 : (i 1).val < 128 := (i 1).isLt
  obtain ⟨t, ht⟩ : ∃ t : Fin cfg0.N, t.val = (i 0).val / 1024 := ⟨ptOf i, rfl⟩
  obtain ⟨p, hp⟩ : ∃ p : Fin 1024, p.val = (i 0).val % 1024 := ⟨⟨(i 0).val % 1024, Nat.mod_lt _ (by decide)⟩, rfl⟩
  obtain ⟨q, hq⟩ : ∃ q : Fin 128, q.val = (i 1).val := ⟨⟨(i 1).val, h1⟩, rfl⟩
  have hi : ((cfg0.win 7).blk t).view.emb (ix2 p q) = i := by
    rw [emb0_7]
    funext a; apply Fin.ext
    match a with
    | ⟨0, _⟩ => show 1024 * t.val + p.val = (i 0).val; omega
    | ⟨1, _⟩ => exact hq
  have hm := ((cfg0.win 7).blk t).view.emb_mem_set (ix2 p q)
  rw [hi] at hm
  exact ⟨t, flush0_7 t, hm⟩

/-! ## The keys -/

/-- The projection at row `r`, column `q`. -/
theorem proj_at (X : Mat 8192 128) (w : Mat 128 128) (b : S1x128.Idx → EReal) (r : Fin 8192) (q : Fin 128) :
    proj X w (rowV b) (ix2 r q) = (∑ k : Fin 128, X (ix2 r k) * w (ix2 q k)) + b (ix2 0 q) := rfl

/-- The keys of the rows of point `t`, from the arrays. -/
theorem keysBlk_at (c : Dev nD) (t : Fin cfg0.N) (p : Fin 1024) (q : Fin 128) :
    keysB (iblk0 V c 0 t) (iblk0 V c 3 t) (iblk0 V c 4 t) (ix2 p q)
      = proj (V c main_v1) (V c main_arg5) (rowV (V c main_v3)) (ix2 (rowOf t p) q) := by
  rw [proj_at]
  refine (keysB_at _ _ _ p q).trans ?_
  refine congr (congrArg HAdd.hAdd (Finset.sum_congr rfl fun k _ => ?_)) (iblk0_4_at V c t q)
  exact congr (congrArg HMul.hMul (iblk0_0_at V c t p k)) (iblk0_3_at V c t q k)

/-- What point `t` writes back to the keys' array is its block of the keys. -/
theorem flushed0_7 (c : Dev nD) (t : Fin cfg0.N) :
    (dat0 V c).flushed 7 t
      = ((cfg0.win 7).blk t).view.read (Elt Ideal) (proj (V c main_v1) (V c main_arg5) (rowV (V c main_v3))) := by
  show (cfg0.win 7).cut (grid0.coords t) ((dat0 V c).after 7 t) = _
  rw [after0_7]
  funext j
  obtain ⟨p, q, rfl⟩ : ∃ (p : Fin 1024) (q : Fin 128), j = ix2 p q := ⟨j 0, j 1, eq_ix2 j⟩
  show keysB (iblk0 V c 0 t) (iblk0 V c 3 t) (iblk0 V c 4 t) (ix2 p q)
    = proj (V c main_v1) (V c main_arg5) (rowV (V c main_v3)) (((cfg0.win 7).blk t).view.emb (ix2 p q))
  rw [emb0_7]
  exact keysBlk_at V c t p q

theorem emb0_8 (t : Fin cfg0.N) (p : Fin 1024) (q : Fin 128) :
    ((cfg0.win 8).blk t).view.emb (ix2 p q) = ix2 (rowOf t p) q := by
  obtain ⟨e0, e1⟩ := idx0_8 t
  funext a; apply Fin.ext
  match a with
  | ⟨0, _⟩ => show win0_8.index t (0 : Fin 2) * 1024 + 1 * p.val = 1024 * t.val + p.val; omega
  | ⟨1, _⟩ => show win0_8.index t (1 : Fin 2) * 128 + 1 * q.val = q.val; omega

theorem cover0_8 (i : S8192x128.Idx) :
    ∃ t : Fin cfg0.N, (cfg0.win 8).flush t = true ∧ i ∈ ((cfg0.win 8).blk t).view.set := by
  have h0 : (i 0).val < 8192 := (i 0).isLt
  have h1 : (i 1).val < 128 := (i 1).isLt
  obtain ⟨t, ht⟩ : ∃ t : Fin cfg0.N, t.val = (i 0).val / 1024 := ⟨ptOf i, rfl⟩
  obtain ⟨p, hp⟩ : ∃ p : Fin 1024, p.val = (i 0).val % 1024 := ⟨⟨(i 0).val % 1024, Nat.mod_lt _ (by decide)⟩, rfl⟩
  obtain ⟨q, hq⟩ : ∃ q : Fin 128, q.val = (i 1).val := ⟨⟨(i 1).val, h1⟩, rfl⟩
  have hi : ((cfg0.win 8).blk t).view.emb (ix2 p q) = i := by
    rw [emb0_8]
    funext a; apply Fin.ext
    match a with
    | ⟨0, _⟩ => show 1024 * t.val + p.val = (i 0).val; omega
    | ⟨1, _⟩ => exact hq
  have hm := ((cfg0.win 8).blk t).view.emb_mem_set (ix2 p q)
  rw [hi] at hm
  exact ⟨t, flush0_8 t, hm⟩

/-! ## The queries -/

/-- The queries of the rows of point `t`, from the arrays. -/
theorem qrysBlk_at (c : Dev nD) (t : Fin cfg0.N) (p : Fin 1024) (q : Fin 128) :
    qrysB (iblk0 V c 0 t) (iblk0 V c 1 t) (iblk0 V c 2 t) (ix2 p q)
      = proj (V c main_v1) (V c main_arg3) (rowV (V c main_v2)) (ix2 (rowOf t p) q) := by
  rw [proj_at]
  refine (qrysB_at _ _ _ p q).trans ?_
  refine congr (congrArg HAdd.hAdd (Finset.sum_congr rfl fun k _ => ?_)) (iblk0_2_at V c t q)
  exact congr (congrArg HMul.hMul (iblk0_0_at V c t p k)) (iblk0_1_at V c t q k)

/-- What point `t` writes back to the queries' array is its block of the queries. -/
theorem flushed0_8 (c : Dev nD) (t : Fin cfg0.N) :
    (dat0 V c).flushed 8 t
      = ((cfg0.win 8).blk t).view.read (Elt Ideal) (proj (V c main_v1) (V c main_arg3) (rowV (V c main_v2))) := by
  show (cfg0.win 8).cut (grid0.coords t) ((dat0 V c).after 8 t) = _
  rw [after0_8]
  funext j
  obtain ⟨p, q, rfl⟩ : ∃ (p : Fin 1024) (q : Fin 128), j = ix2 p q := ⟨j 0, j 1, eq_ix2 j⟩
  show qrysB (iblk0 V c 0 t) (iblk0 V c 1 t) (iblk0 V c 2 t) (ix2 p q)
    = (proj (V c main_v1) (V c main_arg3) (rowV (V c main_v2))) (((cfg0.win 8).blk t).view.emb (ix2 p q))
  rw [emb0_8]
  exact qrysBlk_at V c t p q

theorem emb0_9 (t : Fin cfg0.N) (p : Fin 1024) (q : Fin 128) :
    ((cfg0.win 9).blk t).view.emb (ix2 p q) = ix2 (rowOf t p) q := by
  obtain ⟨e0, e1⟩ := idx0_9 t
  funext a; apply Fin.ext
  match a with
  | ⟨0, _⟩ => show win0_9.index t (0 : Fin 2) * 1024 + 1 * p.val = 1024 * t.val + p.val; omega
  | ⟨1, _⟩ => show win0_9.index t (1 : Fin 2) * 128 + 1 * q.val = q.val; omega

theorem cover0_9 (i : S8192x128.Idx) :
    ∃ t : Fin cfg0.N, (cfg0.win 9).flush t = true ∧ i ∈ ((cfg0.win 9).blk t).view.set := by
  have h0 : (i 0).val < 8192 := (i 0).isLt
  have h1 : (i 1).val < 128 := (i 1).isLt
  obtain ⟨t, ht⟩ : ∃ t : Fin cfg0.N, t.val = (i 0).val / 1024 := ⟨ptOf i, rfl⟩
  obtain ⟨p, hp⟩ : ∃ p : Fin 1024, p.val = (i 0).val % 1024 := ⟨⟨(i 0).val % 1024, Nat.mod_lt _ (by decide)⟩, rfl⟩
  obtain ⟨q, hq⟩ : ∃ q : Fin 128, q.val = (i 1).val := ⟨⟨(i 1).val, h1⟩, rfl⟩
  have hi : ((cfg0.win 9).blk t).view.emb (ix2 p q) = i := by
    rw [emb0_9]
    funext a; apply Fin.ext
    match a with
    | ⟨0, _⟩ => show 1024 * t.val + p.val = (i 0).val; omega
    | ⟨1, _⟩ => exact hq
  have hm := ((cfg0.win 9).blk t).view.emb_mem_set (ix2 p q)
  rw [hi] at hm
  exact ⟨t, flush0_9 t, hm⟩

/-! ## The values -/

/-- The values at row `r`, column `q`. -/
theorem vals_at (Q : Mat 8192 128) (wv : Mat 128 256) (r : Fin 8192) (q : Fin 128) :
    vals Q wv (ix2 r q) = ∑ e : Fin 128, Q (ix2 r e) * wv (ix2 q (lo e)) := rfl

/-- The values of the rows of point `t`, from the arrays. -/
theorem valsBlk_at (c : Dev nD) (t : Fin cfg0.N) (p : Fin 1024) (q : Fin 128) :
    valsB (iblk0 V c 0 t) (iblk0 V c 1 t) (iblk0 V c 2 t) (iblk0 V c 5 t) (ix2 p q)
      = vals (proj (V c main_v1) (V c main_arg3) (rowV (V c main_v2))) (V c main_arg7) (ix2 (rowOf t p) q) := by
  rw [vals_at]
  refine (valsB_at _ _ _ _ p q).trans ?_
  refine Finset.sum_congr rfl fun e _ => ?_
  exact congr (congrArg HMul.hMul (qrysBlk_at V c t p e)) (iblk0_5_at V c t q (lo e))

/-- What point `t` writes back to the values' array is its block of the values. -/
theorem flushed0_9 (c : Dev nD) (t : Fin cfg0.N) :
    (dat0 V c).flushed 9 t
      = ((cfg0.win 9).blk t).view.read (Elt Ideal) (vals (proj (V c main_v1) (V c main_arg3) (rowV (V c main_v2))) (V c main_arg7)) := by
  show (cfg0.win 9).cut (grid0.coords t) ((dat0 V c).after 9 t) = _
  rw [after0_9]
  funext j
  obtain ⟨p, q, rfl⟩ : ∃ (p : Fin 1024) (q : Fin 128), j = ix2 p q := ⟨j 0, j 1, eq_ix2 j⟩
  show valsB (iblk0 V c 0 t) (iblk0 V c 1 t) (iblk0 V c 2 t) (iblk0 V c 5 t) (ix2 p q)
    = (vals (proj (V c main_v1) (V c main_arg3) (rowV (V c main_v2))) (V c main_arg7)) (((cfg0.win 9).blk t).view.emb (ix2 p q))
  rw [emb0_9]
  exact valsBlk_at V c t p q

theorem emb0_10 (t : Fin cfg0.N) (p : Fin 1024) (q : Fin 128) :
    ((cfg0.win 10).blk t).view.emb (ix2 p q) = ix2 (rowOf t p) q := by
  obtain ⟨e0, e1⟩ := idx0_10 t
  funext a; apply Fin.ext
  match a with
  | ⟨0, _⟩ => show win0_10.index t (0 : Fin 2) * 1024 + 1 * p.val = 1024 * t.val + p.val; omega
  | ⟨1, _⟩ => show win0_10.index t (1 : Fin 2) * 128 + 1 * q.val = q.val; omega

theorem cover0_10 (i : S8192x128.Idx) :
    ∃ t : Fin cfg0.N, (cfg0.win 10).flush t = true ∧ i ∈ ((cfg0.win 10).blk t).view.set := by
  have h0 : (i 0).val < 8192 := (i 0).isLt
  have h1 : (i 1).val < 128 := (i 1).isLt
  obtain ⟨t, ht⟩ : ∃ t : Fin cfg0.N, t.val = (i 0).val / 1024 := ⟨ptOf i, rfl⟩
  obtain ⟨p, hp⟩ : ∃ p : Fin 1024, p.val = (i 0).val % 1024 := ⟨⟨(i 0).val % 1024, Nat.mod_lt _ (by decide)⟩, rfl⟩
  obtain ⟨q, hq⟩ : ∃ q : Fin 128, q.val = (i 1).val := ⟨⟨(i 1).val, h1⟩, rfl⟩
  have hi : ((cfg0.win 10).blk t).view.emb (ix2 p q) = i := by
    rw [emb0_10]
    funext a; apply Fin.ext
    match a with
    | ⟨0, _⟩ => show 1024 * t.val + p.val = (i 0).val; omega
    | ⟨1, _⟩ => exact hq
  have hm := ((cfg0.win 10).blk t).view.emb_mem_set (ix2 p q)
  rw [hi] at hm
  exact ⟨t, flush0_10 t, hm⟩

/-! ## The residual -/

/-- The residual at row `r`, column `q`. -/
theorem resid_at (K : Mat 8192 128) (wv : Mat 128 256) (b : S1x128.Idx → EReal) (r : Fin 8192) (q : Fin 128) :
    resid K wv (rowV b) (ix2 r q)
      = K (ix2 r q) + ((∑ e : Fin 128, K (ix2 r e) * wv (ix2 q (hi e))) + b (ix2 0 q)) := rfl

/-- The residual of the rows of point `t`, from the arrays. -/
theorem resBlk_at (c : Dev nD) (t : Fin cfg0.N) (p : Fin 1024) (q : Fin 128) :
    resB (iblk0 V c 0 t) (iblk0 V c 3 t) (iblk0 V c 4 t) (iblk0 V c 5 t) (iblk0 V c 6 t) (ix2 p q)
      = resid (proj (V c main_v1) (V c main_arg5) (rowV (V c main_v3))) (V c main_arg7) (rowV (V c main_v4)) (ix2 (rowOf t p) q) := by
  rw [resid_at]
  refine (resB_at _ _ _ _ _ p q).trans ?_
  refine congr (congrArg HAdd.hAdd (keysBlk_at V c t p q)) ?_
  refine congr (congrArg HAdd.hAdd (Finset.sum_congr rfl fun e _ => ?_)) (iblk0_6_at V c t q)
  exact congr (congrArg HMul.hMul (keysBlk_at V c t p e)) (iblk0_5_at V c t q (hi e))

/-- What point `t` writes back to the residual's array is its block of the residuals. -/
theorem flushed0_10 (c : Dev nD) (t : Fin cfg0.N) :
    (dat0 V c).flushed 10 t
      = ((cfg0.win 10).blk t).view.read (Elt Ideal) (resid (proj (V c main_v1) (V c main_arg5) (rowV (V c main_v3))) (V c main_arg7) (rowV (V c main_v4))) := by
  show (cfg0.win 10).cut (grid0.coords t) ((dat0 V c).after 10 t) = _
  rw [after0_10]
  funext j
  obtain ⟨p, q, rfl⟩ : ∃ (p : Fin 1024) (q : Fin 128), j = ix2 p q := ⟨j 0, j 1, eq_ix2 j⟩
  show resB (iblk0 V c 0 t) (iblk0 V c 3 t) (iblk0 V c 4 t) (iblk0 V c 5 t) (iblk0 V c 6 t) (ix2 p q)
    = (resid (proj (V c main_v1) (V c main_arg5) (rowV (V c main_v3))) (V c main_arg7) (rowV (V c main_v4))) (((cfg0.win 10).blk t).view.emb (ix2 p q))
  rw [emb0_10]
  exact resBlk_at V c t p q

/-- The keys' array after the region. -/
theorem arr0_7 (c : Dev nD) : ((dat0 V c).arrAt 7 cfg0.N : S8192x128.Idx → EReal)
    = proj (V c main_v1) (V c main_arg5) (rowV (V c main_v3)) :=
  (dat0 V c).arrAt_eq_of_cover 7 _ (fun t _ => flushed0_7 V c t) cover0_7

/-- The queries' array after the region. -/
theorem arr0_8 (c : Dev nD) : ((dat0 V c).arrAt 8 cfg0.N : S8192x128.Idx → EReal)
    = proj (V c main_v1) (V c main_arg3) (rowV (V c main_v2)) :=
  (dat0 V c).arrAt_eq_of_cover 8 _ (fun t _ => flushed0_8 V c t) cover0_8

/-- The values' array after the region. -/
theorem arr0_9 (c : Dev nD) : ((dat0 V c).arrAt 9 cfg0.N : S8192x128.Idx → EReal)
    = vals (proj (V c main_v1) (V c main_arg3) (rowV (V c main_v2))) (V c main_arg7) :=
  (dat0 V c).arrAt_eq_of_cover 9 _ (fun t _ => flushed0_9 V c t) cover0_9

/-- The residual's array after the region. -/
theorem arr0_10 (c : Dev nD) : ((dat0 V c).arrAt 10 cfg0.N : S8192x128.Idx → EReal)
    = resid (proj (V c main_v1) (V c main_arg5) (rowV (V c main_v3))) (V c main_arg7) (rowV (V c main_v4)) :=
  (dat0 V c).arrAt_eq_of_cover 10 _ (fun t _ => flushed0_10 V c t) cover0_10

end Cert.KernelIdeal.Fr

end
-- ==== Proof.Val1.lean ====
/-
  What the attention region leaves in the result array, at the ideal instance: the block of 1024 rows `qi` is
  written at the block's last tile (point `8·qi + 7`), from the running quantities the eight tiles of the block
  leave; entry by entry these are the tile-by-tile recursion `run` of `Spec.lean` over the row's scores and the
  column's values, so the array is `kerOut` of the region's four input arrays.
-/
import proofs.«409729_j40200893890895_3_alg».proof.Proof.Reg1
import proofs.«409729_j40200893890895_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Sp

/-! ## The scores' matrix product at an index -/

theorem lhs_sc_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_sc_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_sc_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_sc_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The scores of a block of key rows against a tile of queries: entry (r, p) is the inner product of key row r and query row p. -/
theorem pay8_apply (kb qs : Vec Ideal S1024x128 .bf16) (r p : Fin 1024) :
    k1_pay8 (F := Ideal) kb qs (ix2 r p) = ∑ e : Fin 128, kb (ix2 r e) * qs (ix2 p e) := by
  unfold k1_pay8
  rw [shapeCast_self, shapeCast_self]
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r p) ((ValueIdx.contrEquiv1 dot_S1024x128_S128x1024_S1024x1024_1_0_0_1_n_n 128 rfl rfl).symm k) = ix2 r k := funext fun a => Fin.ext (by
    match a with
    | ⟨0, _⟩ => exact lhs_sc_0 _ _
    | ⟨1, _⟩ => exact (lhs_sc_1 _ _).trans hk)
  rw [el]
  refine congrArg (kb (ix2 r k) * ·) ?_
  refine transpose_apply [1, 0] qs transposes_S1024x128_p1_0_S128x1024 _ (ix2 p k) (fun b => ?_)
  match b with
  | ⟨0, _⟩ => exact ((rhs_sc_0 _ _).trans hk).symm
  | ⟨1, _⟩ => exact (rhs_sc_1 (ix2 r p) _).symm

/-! ## Layout operations of the running quantities at an index -/

/-- A vector of 1024 entries viewed as a column reads its entry. -/
theorem col_apply {α : Type} (v : S1024.Idx → α) (r : Fin 1024) (z : Fin 1) :
    shapeCast S1024x1 v shapeCasts_S1024_S1024x1 (ix2 r z) = v (ix1 r) :=
  shapeCast_apply v _ (ix2 r z) (ix1 r) (by
    rw [Shape.rowMajor_val_one, Shape.rowMajor_val_two]
    show r.val = r.val * 1 + z.val
    have := z.isLt; omega)

/-- A column broadcast along the columns reads the row's entry. -/
theorem bcol_apply {α : Type} {n : Nat} (x : S1024x1.Idx → α) (h : S1024x1.Broadcasts ⟨2, ![1024, n]⟩) (r : Fin 1024) (q : Fin n) :
    broadcastTo ⟨2, ![1024, n]⟩ x h (ix2 r q) = x (ix2 r 0) :=
  broadcastTo_apply x h (ix2 r q) (ix2 r 0) (fun a => by
    match a with
    | ⟨0, _⟩ => show r.val = if (1024 : Nat) = 1 then 0 else r.val; rw [if_neg (by decide)]
    | ⟨1, _⟩ => show 0 = if (1 : Nat) = 1 then 0 else q.val; rw [if_pos rfl])

/-- The index a reduction along the columns reads at row r, column p. -/
theorem lift_row (r p : Fin 1024) : reduces_S1024x1024_S1024.lift (ix1 r) p = ix2 r p :=
  funext fun a => Fin.ext (by match a with | ⟨0, _⟩ => rfl | ⟨1, _⟩ => rfl)

theorem negInf_f32 : (FloatOps.ofBits .f32 0xFF800000#32 : Ideal .f32) = (⊥ : EReal) := by
  simp [Ideal.ofBits, Ideal.ieee]

/-- A row's maximum, taken from -∞. -/
theorem rowMax_apply (src : FVec Ideal S1024x1024 .f32) (hφ : FKind.Formats .f32) (hacc : (0xFF800000#32 : BitVec 32) = 0xFF800000#32) (r : Fin 1024) :
    multiReduction .maximumf [1] S1024 src 0xFF800000#32 reduces_S1024x1024_S1024 hφ hacc (ix1 r)
      = (Finset.univ : Finset (Fin 1024)).fold max ⊥ (fun p => src (ix2 r p)) := by
  refine (Ideal.multiReduction_maximumf_single src 0xFF800000#32 reduces_S1024x1024_S1024 hφ hacc (ix1 r)).trans ?_
  rw [negInf_f32]
  refine congrArg (fun f => (Finset.univ : Finset (Fin 1024)).fold max ⊥ f) ?_
  funext p
  exact congrArg src (lift_row r p)

/-- A row's sum, taken from zero. -/
theorem rowSum_apply (src : FVec Ideal S1024x1024 .f32) (hφ : FKind.Formats .f32) (hacc : (0x00000000#32 : BitVec 32) = 0x00000000#32) (r : Fin 1024) :
    multiReduction .add [1] S1024 src 0x00000000#32 reduces_S1024x1024_S1024 hφ hacc (ix1 r)
      = ∑ p : Fin 1024, src (ix2 r p) := by
  refine (Ideal.multiReduction_add_single src 0x00000000#32 reduces_S1024x1024_S1024 hφ hacc (ix1 r)).trans ?_
  exact Finset.sum_congr rfl fun p _ => congrArg src (lift_row r p)

/-! ## The tile's update of the running quantities at an index -/

/-- The scores of row r against the tile. -/
abbrev scRow (kb qs : Vec Ideal S1024x128 .bf16) (r : Fin 1024) (p : Fin 1024) : EReal := ∑ e : Fin 128, kb (ix2 r e) * qs (ix2 p e)

/-- The new running maximum of row r. -/
theorem pay9_apply (kb qs : Vec Ideal S1024x128 .bf16) (M : Vec Ideal S1024x1 .f32) (r : Fin 1024) :
    k1_pay9 (F := Ideal) kb qs M (ix2 r 0) = max (M (ix2 r 0)) ((Finset.univ : Finset (Fin 1024)).fold max ⊥ (scRow kb qs r)) := by
  unfold k1_pay9
  rw [maximumf_apply, col_apply]
  refine congrArg (max (M (ix2 r 0))) ((rowMax_apply _ _ _ r).trans ?_)
  refine congrArg (fun f => (Finset.univ : Finset (Fin 1024)).fold max ⊥ f) ?_
  funext p
  exact pay8_apply kb qs r p

theorem mNew_apply (kb qs : Vec Ideal S1024x128 .bf16) (M : Vec Ideal S1024x1 .f32) (r : Fin 1024) :
    mNew (F := Ideal) kb qs M (ix2 r 0) = max (M (ix2 r 0)) ((Finset.univ : Finset (Fin 1024)).fold max ⊥ (scRow kb qs r)) := by
  unfold mNew k1_pay2
  rw [shapeCast_self]
  exact pay9_apply kb qs M r

/-- The rescaling factor of row r. -/
theorem pay10_apply (kb qs : Vec Ideal S1024x128 .bf16) (M M1 : Vec Ideal S1024x1 .f32) (r : Fin 1024) :
    k1_pay10 (F := Ideal) kb qs M M1 (ix2 r 0)
      = Ideal.exp (M1 (ix2 r 0) - max (M (ix2 r 0)) ((Finset.univ : Finset (Fin 1024)).fold max ⊥ (scRow kb qs r))) := by
  unfold k1_pay10
  show Ideal.exp (M1 (ix2 r 0) - k1_pay9 (F := Ideal) kb qs M (ix2 r 0)) = _
  rw [pay9_apply]

/-- The exponential of a score less the new running maximum. -/
theorem pay11_apply (kb qs : Vec Ideal S1024x128 .bf16) (M : Vec Ideal S1024x1 .f32) (r p : Fin 1024) :
    k1_pay11 (F := Ideal) kb qs M (ix2 r p)
      = Ideal.exp (scRow kb qs r p - max (M (ix2 r 0)) ((Finset.univ : Finset (Fin 1024)).fold max ⊥ (scRow kb qs r))) := by
  unfold k1_pay11
  show Ideal.exp (k1_pay8 (F := Ideal) kb qs (ix2 r p) - broadcastTo S1024x1024 (k1_pay9 (F := Ideal) kb qs M) broadcasts_S1024x1_S1024x1024 (ix2 r p)) = _
  rw [pay8_apply, bcol_apply, pay9_apply]

/-- The new running sum of exponentials of row r. -/
theorem lNew_apply (kb qs : Vec Ideal S1024x128 .bf16) (M L : Vec Ideal S1024x1 .f32) (r : Fin 1024) :
    lNew (F := Ideal) kb qs M L (ix2 r 0)
      = Ideal.exp (M (ix2 r 0) - max (M (ix2 r 0)) ((Finset.univ : Finset (Fin 1024)).fold max ⊥ (scRow kb qs r))) * L (ix2 r 0)
        + ∑ p : Fin 1024, Ideal.exp (scRow kb qs r p - max (M (ix2 r 0)) ((Finset.univ : Finset (Fin 1024)).fold max ⊥ (scRow kb qs r))) := by
  unfold lNew k1_pay13
  rw [shapeCast_self, addf_apply, mulf_apply, col_apply, pay10_apply]
  refine congrArg (_ + ·) ((rowSum_apply _ _ _ r).trans (Finset.sum_congr rfl fun p _ => ?_))
  exact pay11_apply kb qs M r p

/-! ## The weighted values' matrix product at an index -/

theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The rescaled running weighted sum plus the tile's weighted values, at row r and column d. -/
theorem pay1_apply (vs : FVec Ideal S1024x128 .bf16) (w : FVec Ideal S1024x1024 .bf16) (A : Vec Ideal S1024x128 .f32) (sc : FVec Ideal S1024x128 .f32)
    (r : Fin 1024) (d : Fin 128) :
    k1_pay1 (F := Ideal) vs w A sc (ix2 r d) = sc (ix2 r d) * A (ix2 r d) + ∑ p : Fin 1024, w (ix2 r p) * vs (ix2 p d) := by
  unfold k1_pay1
  rw [shapeCast_self, addf_apply, mulf_apply]
  refine congrArg (sc (ix2 r d) * A (ix2 r d) + ·) ?_
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r d) ((ValueIdx.contrEquiv1 dot_S1024x1024_S1024x128_S1024x128_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm k) = ix2 k d := funext fun a => Fin.ext (by
    match a with
    | ⟨0, _⟩ => exact (rhs_pv_0 _ _).trans hk
    | ⟨1, _⟩ => exact rhs_pv_1 (ix2 r d) _)
  rw [el, er]

/-- The new running weighted sum of values at row r, column d. -/
theorem aNew_apply (kb qs vs : Vec Ideal S1024x128 .bf16) (M : Vec Ideal S1024x1 .f32) (A : Vec Ideal S1024x128 .f32) (r : Fin 1024) (d : Fin 128) :
    aNew (F := Ideal) kb qs vs M A (ix2 r d)
      = Ideal.exp (M (ix2 r 0) - max (M (ix2 r 0)) ((Finset.univ : Finset (Fin 1024)).fold max ⊥ (scRow kb qs r))) * A (ix2 r d)
        + ∑ p : Fin 1024, Ideal.exp (scRow kb qs r p - max (M (ix2 r 0)) ((Finset.univ : Finset (Fin 1024)).fold max ⊥ (scRow kb qs r))) * vs (ix2 p d) := by
  unfold aNew
  rw [pay1_apply]
  unfold k1_pay14 k1_pay12 k1_pay7
  rw [shapeCast_self, bcol_apply, pay10_apply]
  refine congrArg (_ + ·) (Finset.sum_congr rfl fun p _ => ?_)
  rw [truncf_apply, pay11_apply]

/-- The result block: the running weighted sum over the running sum of exponentials, plus the residual. -/
theorem outFin_apply (L : Vec Ideal S1024x1 .f32) (A rb : Vec Ideal S1024x128 .f32) (r : Fin 1024) (d : Fin 128) :
    outFin (F := Ideal) L A rb (ix2 r d) = A (ix2 r d) * Ideal.div 1 (L (ix2 r 0)) + rb (ix2 r d) := by
  unfold outFin k1_pay3
  rw [addf_apply, mulf_apply, shapeCast_self, bcol_apply, divf_apply, broadcast_apply]
  show A (ix2 r d) * Ideal.div (Ideal.ofBits .f32 0x3F800000#32) (L (ix2 r 0)) + rb (ix2 r d) = _
  rw [Ideal.ofBits_one_f32]

/-- The reset values. -/
theorem m0_apply (i : S1024x1.Idx) : m0 (F := Ideal) i = (⊥ : EReal) := by
  unfold m0 k1_pay4
  rw [shapeCast_self, broadcast_apply]
  exact negInf_f32
theorem l0_apply (i : S1024x1.Idx) : l0 (F := Ideal) i = (0 : EReal) := by
  unfold l0 k1_pay5
  rw [shapeCast_self, broadcast_apply]
  exact Ideal.ofBits_zero_f32
theorem a0_apply (i : S1024x128.Idx) : a0 (F := Ideal) i = (0 : EReal) := by
  unfold a0 k1_pay6
  rw [shapeCast_self, broadcast_apply]
  exact Ideal.ofBits_zero_f32

variable (V : (c : Dev nD) → (b : Ref sig .tc) → Buf (Elt Ideal) ((c : Thread nD τ).loc b))

/-! ## The blocks and tiles a point reads, as entries of the region's input arrays -/

/-- The index maps and the tile's row offset, decided over the grid. -/
theorem idx_facts1 : ∀ t : Fin cfg1.N, win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

/-- The keys' block of point t, row r: key row 1024 · (t / 8) + r. -/
theorem kblk_apply (c : Dev nD) (t : Fin cfg1.N) (r : Fin 1024) (e : Fin 128) (n : Fin 8192) (hn : n.val = 1024 * (t.val / 8) + r.val) :
    (iblk1 V c 0 t : Vec Ideal S1024x128 .bf16) (ix2 r e) = (V c main_v5_0 : Mat 8192 128) (ix2 n e) := by
  obtain ⟨e0, e1, -⟩ := idx_facts1 t
  unfold iblk1
  rw [View.read_apply]
  show V c main_v5_0 _ = V c main_v5_0 _
  congr 1
  funext a; apply Fin.ext
  match a with
  | ⟨0, _⟩ => show win1_0.index t (0 : Fin 2) * 1024 + 1 * r.val = n.val; omega
  | ⟨1, _⟩ => show win1_0.index t (1 : Fin 2) * 128 + 1 * e.val = e.val; omega

/-- The residual's block of point t, row r: row 1024 · (t / 8) + r of the array. -/
theorem rblk_apply (c : Dev nD) (t : Fin cfg1.N) (r : Fin 1024) (e : Fin 128) (n : Fin 8192) (hn : n.val = 1024 * (t.val / 8) + r.val) :
    (iblk1 V c 3 t : Vec Ideal S1024x128 .f32) (ix2 r e) = (V c main_v5_3 : Mat 8192 128) (ix2 n e) := by
  obtain ⟨-, -, -, -, -, -, e0, e1, -⟩ := idx_facts1 t
  unfold iblk1
  rw [View.read_apply]
  show V c main_v5_3 _ = V c main_v5_3 _
  congr 1
  funext a; apply Fin.ext
  match a with
  | ⟨0, _⟩ => show win1_3.index t (0 : Fin 2) * 1024 + 1 * r.val = n.val; omega
  | ⟨1, _⟩ => show win1_3.index t (1 : Fin 2) * 128 + 1 * e.val = e.val; omega

/-- The tile of queries of point t, row p: query row 1024 · (t % 8) + p. -/
theorem qtile_apply (c : Dev nD) (t : Fin cfg1.N) (p : Fin 1024) (e : Fin 128) (m : Fin 8192) (hm : m.val = 1024 * (t.val % 8) + p.val) :
    qtile V c t (ix2 p e) = (V c main_v5_1 : Mat 8192 128) (ix2 m e) := by
  obtain ⟨-, -, e0, e1, -, -, -, -, -, -, o0, o1⟩ := idx_facts1 t
  unfold qtile iblk1
  show ((cfg1.win 1).blk t).view.read (Elt Ideal) (V c main_v5_1) _ = _
  rw [View.read_apply]
  show V c main_v5_1 _ = V c main_v5_1 _
  congr 1
  funext a; apply Fin.ext
  match a with
  | ⟨0, _⟩ => show win1_1.index t (0 : Fin 2) * 8192 + 1 * (k1_off1 (grid1.coords t) (0 : Fin 2) + 1 * p.val) = m.val; omega
  | ⟨1, _⟩ => show win1_1.index t (1 : Fin 2) * 128 + 1 * (k1_off1 (grid1.coords t) (1 : Fin 2) + 1 * e.val) = e.val; omega

/-- The tile of values of point t, row p: row 1024 · (t % 8) + p of the values. -/
theorem vtile_apply (c : Dev nD) (t : Fin cfg1.N) (p : Fin 1024) (e : Fin 128) (m : Fin 8192) (hm : m.val = 1024 * (t.val % 8) + p.val) :
    vtile V c t (ix2 p e) = (V c main_v5_2 : Mat 8192 128) (ix2 m e) := by
  obtain ⟨-, -, -, -, e0, e1, -, -, -, -, o0, o1⟩ := idx_facts1 t
  unfold vtile iblk1
  show ((cfg1.win 2).blk t).view.read (Elt Ideal) (V c main_v5_2) _ = _
  rw [View.read_apply]
  show V c main_v5_2 _ = V c main_v5_2 _
  congr 1
  funext a; apply Fin.ext
  match a with
  | ⟨0, _⟩ => show win1_2.index t (0 : Fin 2) * 8192 + 1 * (k1_off1 (grid1.coords t) (0 : Fin 2) + 1 * p.val) = m.val; omega
  | ⟨1, _⟩ => show win1_2.index t (1 : Fin 2) * 128 + 1 * (k1_off1 (grid1.coords t) (1 : Fin 2) + 1 * e.val) = e.val; omega

/-! ## The running quantities after each point are the tile-by-tile recursion -/

/-- A row's three running quantities, the third at one column. -/
abbrev at3 (s : Acc Ideal) (r : Fin 1024) (d : Fin 128) : EReal × EReal × EReal := (s.1 (ix2 r 0), s.2.1 (ix2 r 0), s.2.2 (ix2 r d))

/-- One point's update, at a row and a column, is the tile's update of the row's scores and the column's values. -/
theorem stepS_apply (c : Dev nD) (t : Fin cfg1.N) (s : Acc Ideal) (r : Fin 1024) (d : Fin 128) (n : Fin 8192)
    (hn : n.val = 1024 * (t.val / 8) + r.val) (j : ℕ) (hj : j % 8 = t.val % 8) :
    at3 (stepS V c t s) r d
      = upd (tileS (V c main_v5_0) (V c main_v5_1) n j) (tileV (V c main_v5_2) d j) (at3 s r d) := by
  have hS : scRow (iblk1 V c 0 t) (qtile V c t) r = tileS (V c main_v5_0) (V c main_v5_1) n j := by
    funext p
    unfold tileS score
    refine Finset.sum_congr rfl fun e _ => ?_
    exact congrArg₂ (· * ·) (kblk_apply V c t r e n hn)
      (qtile_apply V c t p e (tl ⟨j % 8, Nat.mod_lt _ (by omega)⟩ p) (by show 1024 * (j % 8) + p.val = _; rw [hj]))
  have hV : ∀ p : Fin 1024, vtile V c t (ix2 p d) = tileV (V c main_v5_2) d j p := fun p => by
    unfold tileV
    exact vtile_apply V c t p d (tl ⟨j % 8, Nat.mod_lt _ (by omega)⟩ p) (by show 1024 * (j % 8) + p.val = _; rw [hj])
  unfold stepS upd
  dsimp only
  refine Prod.ext ?_ (Prod.ext ?_ ?_)
  · exact (mNew_apply (iblk1 V c 0 t) (qtile V c t) s.1 r).trans (by rw [hS])
  · exact (lNew_apply (iblk1 V c 0 t) (qtile V c t) s.1 s.2.1 r).trans (by rw [hS])
  · refine (aNew_apply (iblk1 V c 0 t) (qtile V c t) (vtile V c t) s.1 s.2.2 r d).trans ?_
    rw [hS]
    exact congrArg (_ + ·) (Finset.sum_congr rfl fun p _ => by rw [hV p])

/-- The reset values at a row and a column. -/
theorem at3_reset (r : Fin 1024) (d : Fin 128) : at3 (m0 (F := Ideal), l0 (F := Ideal), a0 (F := Ideal)) r d = (⊥, 0, 0) := by
  show (m0 (F := Ideal) (ix2 r 0), l0 (F := Ideal) (ix2 r 0), a0 (F := Ideal) (ix2 r d)) = _
  rw [m0_apply, l0_apply, a0_apply]

/-- After point t the running quantities of row r of the point's block are the recursion after tile t % 8. -/
theorem scAt_run (c : Dev nD) (r : Fin 1024) (d : Fin 128) : ∀ (t : ℕ) (ht : t < cfg1.N) (n : Fin 8192) (hn : n.val = 1024 * (t / 8) + r.val),
    at3 (scAt V c t ht) r d = run (tileS (V c main_v5_0) (V c main_v5_1) n) (tileV (V c main_v5_2) d) (t % 8)
  | 0, ht, n, hn => by
    rw [scAt_zero]
    refine (stepS_apply V c ⟨0, ht⟩ (m0, l0, a0) r d n hn 0 rfl).trans ?_
    rw [at3_reset]
    rfl
  | t + 1, ht, n, hn => by
    rw [scAt_succ]
    by_cases h0 : (t + 1) % 8 = 0
    · rw [if_pos h0, h0]
      refine (stepS_apply V c ⟨t + 1, ht⟩ (m0, l0, a0) r d n hn 0 (by show 0 % 8 = (t + 1) % 8; omega)).trans ?_
      rw [at3_reset]
      rfl
    · rw [if_neg h0]
      have h1 : (t + 1) % 8 = t % 8 + 1 := by omega
      have h2 : (t + 1) / 8 = t / 8 := by omega
      rw [h1]
      show _ = upd (tileS (V c main_v5_0) (V c main_v5_1) n (t % 8 + 1)) (tileV (V c main_v5_2) d (t % 8 + 1))
        (run (tileS (V c main_v5_0) (V c main_v5_1) n) (tileV (V c main_v5_2) d) (t % 8))
      rw [← scAt_run c r d t (Nat.lt_of_succ_lt ht) n (by rw [← h2]; exact hn)]
      exact stepS_apply V c ⟨t + 1, ht⟩ _ r d n hn (t % 8 + 1) (by show (t % 8 + 1) % 8 = (t + 1) % 8; omega)

/-! ## From the blocks to the array -/

/-- What a block's last point writes back is the block of the result the recursion gives. -/
theorem flushed1_4_eq (c : Dev nD) (t : Fin cfg1.N) (hf : (cfg1.win 4).flush t = true) :
    (dat1 V c).flushed 4 t = ((cfg1.win 4).blk t).view.read (Elt Ideal)
      (kerOut (V c main_v5_0) (V c main_v5_1) (V c main_v5_2) (V c main_v5_3)) := by
  have h7 : t.val % 8 = 7 := (flush1_4 t).mp hf
  have hN : cfg1.N = 64 := N_1
  obtain ⟨-, -, -, -, -, -, -, -, e0, e1, -⟩ := idx_facts1 t
  show (cfg1.win 4).cut (grid1.coords t) ((dat1 V c).after 4 t) = _
  rw [after1_4]
  funext j
  obtain ⟨r, d, rfl⟩ : ∃ (r : Fin 1024) (d : Fin 128), j = ix2 r d := ⟨j 0, j 1, eq_ix2 j⟩
  obtain ⟨n, hn⟩ : ∃ n : Fin 8192, n.val = 1024 * (t.val / 8) + r.val := ⟨⟨1024 * (t.val / 8) + r.val, by have := t.isLt; omega⟩, rfl⟩
  have hrun := scAt_run V c r d t.val t.isLt n hn
  rw [h7] at hrun
  have hL : (scAt V c t.val t.isLt).2.1 (ix2 r 0)
      = (run (tileS (V c main_v5_0) (V c main_v5_1) n) (tileV (V c main_v5_2) d) 7).2.1 := congrArg (fun x => x.2.1) hrun
  have hA : (scAt V c t.val t.isLt).2.2 (ix2 r d)
      = (run (tileS (V c main_v5_0) (V c main_v5_1) n) (tileV (V c main_v5_2) d) 7).2.2 := congrArg (fun x => x.2.2) hrun
  have hemb : ((cfg1.win 4).blk t).view.emb (ix2 r d) = ix2 n d := by
    funext a; apply Fin.ext
    match a with
    | ⟨0, _⟩ => show win1_4.index t (0 : Fin 2) * 1024 + 1 * r.val = n.val; omega
    | ⟨1, _⟩ => show win1_4.index t (1 : Fin 2) * 128 + 1 * d.val = d.val; omega
  show outFin (F := Ideal) (scAt V c t.val t.isLt).2.1 (scAt V c t.val t.isLt).2.2 (iblk1 V c 3 t) (ix2 r d) = _
  refine (outFin_apply (scAt V c t.val t.isLt).2.1 (scAt V c t.val t.isLt).2.2 (iblk1 V c 3 t) r d).trans ?_
  rw [hL, hA, rblk_apply V c t r d n hn, View.read_apply]
  show _ = kerOut (V c main_v5_0) (V c main_v5_1) (V c main_v5_2) (V c main_v5_3) (((cfg1.win 4).blk t).view.emb (ix2 r d))
  rw [hemb]
  rfl

/-- An index of the array is in point t's block iff each coordinate is in the block's range on its axis. -/
theorem mem_resblk (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v6).slice (win1_4.rect t)).set ↔ _
  rw [View.set_slice_whole, Rect.mem_set_unit]
  exact Iff.rfl

/-- Every row of the array is in the block its last tile's point writes back. -/
theorem rows_covered (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 64 := N_1
  obtain ⟨t, ht⟩ : ∃ t : Fin cfg1.N, t.val = 8 * ((i 0).val / 1024) + 7 := ⟨⟨8 * ((i 0).val / 1024) + 7, by omega⟩, rfl⟩
  obtain ⟨-, -, -, -, -, -, -, -, e0, e1, -⟩ := idx_facts1 t
  refine ⟨t, (flush1_4 t).mpr (by omega), ?_⟩
  rw [mem_resblk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 128 ≤ (i 1).val ∧ (i 1).val < win1_4.index t (1 : Fin 2) * 128 + 128; omega

/-- The result array after the region. -/
theorem arr1_4 (c : Dev nD) : ((dat1 V c).arrAt 4 cfg1.N : S8192x128.Idx → EReal)
    = kerOut (V c main_v5_0) (V c main_v5_1) (V c main_v5_2) (V c main_v5_3) :=
  (dat1 V c).arrAt_eq_of_cover 4 (kerOut (V c main_v5_0) (V c main_v5_1) (V c main_v5_2) (V c main_v5_3))
    (fun t hf => flushed1_4_eq V c t hf) rows_covered

end Cert.KernelIdeal.Fr

end
-- ==== Proof.Law.lean ====
/-
  The law that joins the two programs: on real-valued keys, queries and values the kernel's tile-by-tile attention
  is the reference's softmax attention.

  For one key row and one output column, let `s` be the row's 8192 scores and `v` the column's 8192 values, all real.
  After the tiles `0 … j` the running maximum is the largest score seen, the running sum of exponentials is
  `∑ exp (s − M)` over the scores seen and the running weighted sum `∑ exp (s − M) · v`: a tile rescales the old
  sums by `exp (M_old − M_new)`, and `exp (M_old − M_new) · exp (s − M_old) = exp (s − M_new)`; before the first tile
  the maximum is `-∞`, whose exponential factor is `0` against sums that are `0`. After the eighth tile the maximum is
  the row's maximum `M`, the sum `L = ∑ exp (s − M) ≥ 1`, and `ACC · (1 / L) = ∑ (exp (s − M) / L) · v`, the softmax
  row against the column. The remaining terms are the same sums added in another order.
-/
import proofs.«409729_j40200893890895_3_alg».proof.Proof.Spec

noncomputable section

open scoped BigOperators

namespace Cert.KernelIdeal.Sp

open Idealize.ShloMosaic Idealize.ShloMosaic.ValueIdx

/-- Every entry is a real number. -/
def IsReal {ι : Type} (X : ι → EReal) : Prop := ∀ i, ∃ r : ℝ, X i = (r : EReal)

/-! ## Coercions of finite sums and maxima -/

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of products of real-valued entries is real-valued. -/
theorem sum_mul_real {ι : Type} (t : Finset ι) (f g : ι → EReal) (hf : ∀ i, ∃ r : ℝ, f i = (r : EReal))
    (hg : ∀ i, ∃ r : ℝ, g i = (r : EReal)) : ∃ r : ℝ, ∑ i ∈ t, f i * g i = (r : EReal) := by
  choose a ha using hf
  choose b hb using hg
  refine ⟨∑ i ∈ t, a i * b i, ?_⟩
  rw [coe_sum]
  refine Finset.sum_congr rfl (fun i _ => ?_)
  rw [ha, hb, EReal.coe_mul]

/-- A projection of real-valued features by real-valued weights and bias is real-valued. -/
theorem proj_real (X : Mat 8192 128) (w : Mat 128 128) (b : Vc 128) (hX : IsReal X) (hw : IsReal w) (hb : IsReal b) :
    IsReal (proj X w b) := by
  intro i
  obtain ⟨r, hr⟩ := sum_mul_real Finset.univ (fun j : Fin 128 => X (ix2 (i 0) j)) (fun j : Fin 128 => w (ix2 (i 1) j))
    (fun j => hX _) (fun j => hw _)
  obtain ⟨c, hc⟩ := hb (ix1 (i 1))
  refine ⟨r + c, ?_⟩
  show (∑ j : Fin 128, X (ix2 (i 0) j) * w (ix2 (i 1) j)) + b (ix1 (i 1)) = _
  rw [hr, hc, EReal.coe_add]

/-- The values of real-valued queries by a real-valued weight are real-valued. -/
theorem vals_real (Q : Mat 8192 128) (wv : Mat 128 256) (hQ : IsReal Q) (hw : IsReal wv) : IsReal (vals Q wv) := by
  intro i
  exact sum_mul_real Finset.univ (fun e : Fin 128 => Q (ix2 (i 0) e)) (fun e : Fin 128 => wv (ix2 (i 1) (lo e)))
    (fun e => hQ _) (fun e => hw _)

/-- The coercion of the larger of two reals is the larger of the coercions. -/
theorem coe_max (x y : ℝ) : ((max x y : ℝ) : EReal) = max (x : EReal) (y : EReal) :=
  EReal.coe_strictMono.monotone.map_max

/-- The fold of `max` from `-∞` over a nonempty finite family of reals is a real: an upper bound that is attained. -/
theorem fold_max_real {ι : Type} (t : Finset ι) (ht : t.Nonempty) (s : ι → ℝ) :
    ∃ m : ℝ, t.fold max (⊥ : EReal) (fun p => (s p : EReal)) = (m : EReal) ∧ (∀ p ∈ t, s p ≤ m) ∧ ∃ p ∈ t, s p = m := by
  obtain ⟨x, hx, hmax⟩ := Finset.exists_max_image t s ht
  refine ⟨s x, le_antisymm ?_ ?_, hmax, x, hx, rfl⟩
  · exact (Finset.fold_max_le _).2 ⟨bot_le, fun p hp => EReal.coe_le_coe_iff.2 (hmax p hp)⟩
  · exact (Finset.le_fold_max _).2 (Or.inr ⟨x, hx, le_rfl⟩)

/-! ## One row, one column: the running quantities in closed form -/

/-- The first tile, from `(-∞, 0, 0)`: the maximum is the tile's, the sums are the tile's. -/
theorem upd_bot (s v : Fin 1024 → ℝ) :
    ∃ m : ℝ, (∀ p, s p ≤ m) ∧ (∃ p, s p = m) ∧
      upd (fun p => (s p : EReal)) (fun p => (v p : EReal)) (⊥, 0, 0)
        = ((m : EReal), ((∑ p, Real.exp (s p - m) : ℝ) : EReal), ((∑ p, Real.exp (s p - m) * v p : ℝ) : EReal)) := by
  obtain ⟨m, hm, hub, q, _, hq⟩ := fold_max_real (Finset.univ : Finset (Fin 1024)) Finset.univ_nonempty s
  refine ⟨m, fun p => hub p (Finset.mem_univ _), ⟨q, hq⟩, ?_⟩
  simp only [upd]
  rw [hm, max_eq_right (bot_le : (⊥ : EReal) ≤ (m : EReal))]
  simp only [EReal.bot_sub, Ideal.exp_bot, zero_mul, zero_add, ← EReal.coe_sub, Ideal.exp_coe, ← EReal.coe_mul, ← coe_sum]

/-- A later tile, from real running quantities `(M, L, A)`: the maximum grows to `max M m`, the old sums are rescaled by
    `exp (M − max M m)` and the tile's terms are added. -/
theorem upd_real (s v : Fin 1024 → ℝ) (M L A : ℝ) :
    ∃ m : ℝ, (∀ p, s p ≤ m) ∧ (∃ p, s p = m) ∧
      upd (fun p => (s p : EReal)) (fun p => (v p : EReal)) ((M : EReal), (L : EReal), (A : EReal))
        = (((max M m : ℝ) : EReal), ((Real.exp (M - max M m) * L + ∑ p, Real.exp (s p - max M m) : ℝ) : EReal),
           ((Real.exp (M - max M m) * A + ∑ p, Real.exp (s p - max M m) * v p : ℝ) : EReal)) := by
  obtain ⟨m, hm, hub, q, _, hq⟩ := fold_max_real (Finset.univ : Finset (Fin 1024)) Finset.univ_nonempty s
  refine ⟨m, fun p => hub p (Finset.mem_univ _), ⟨q, hq⟩, ?_⟩
  simp only [upd]
  rw [hm, ← coe_max]
  simp only [← EReal.coe_sub, Ideal.exp_coe, ← EReal.coe_mul, ← coe_sum, ← EReal.coe_add]

/-- After the tiles `0 … j` the running maximum is a real `M` that bounds every score seen and is one of them, the
    running sum of exponentials is `∑ exp (s − M)` over the scores seen and the running weighted sum is
    `∑ exp (s − M) · v`. -/
theorem run_closed (s v : ℕ → Fin 1024 → ℝ) (j : ℕ) :
    ∃ M : ℝ, (∀ i, i ≤ j → ∀ p, s i p ≤ M) ∧ (∃ i, i ≤ j ∧ ∃ p, s i p = M) ∧
      run (fun i p => (s i p : EReal)) (fun i p => (v i p : EReal)) j
        = ((M : EReal), ((∑ i ∈ Finset.range (j + 1), ∑ p, Real.exp (s i p - M) : ℝ) : EReal),
           ((∑ i ∈ Finset.range (j + 1), ∑ p, Real.exp (s i p - M) * v i p : ℝ) : EReal)) := by
  induction j with
  | zero =>
    obtain ⟨m, hub, ⟨q, hq⟩, hu⟩ := upd_bot (s 0) (v 0)
    refine ⟨m, ?_, ⟨0, le_rfl, q, hq⟩, ?_⟩
    · intro i hi p
      obtain rfl : i = 0 := Nat.le_zero.1 hi
      exact hub p
    · show upd (fun p => (s 0 p : EReal)) (fun p => (v 0 p : EReal)) (⊥, 0, 0) = _
      rw [hu, Finset.sum_range_one, Finset.sum_range_one]
  | succ j ih =>
    obtain ⟨M, hub, ⟨i0, hi0, q0, hq0⟩, hrun⟩ := ih
    obtain ⟨m, hmub, ⟨q, hq⟩, hu⟩ := upd_real (s (j + 1)) (v (j + 1)) M
      (∑ i ∈ Finset.range (j + 1), ∑ p, Real.exp (s i p - M))
      (∑ i ∈ Finset.range (j + 1), ∑ p, Real.exp (s i p - M) * v i p)
    refine ⟨max M m, ?_, ?_, ?_⟩
    · intro i hi p
      rcases Nat.lt_or_ge j i with h | h
      · obtain rfl : i = j + 1 := le_antisymm hi h
        exact le_trans (hmub p) (le_max_right _ _)
      · exact le_trans (hub i h p) (le_max_left _ _)
    · rcases le_total M m with h | h
      · exact ⟨j + 1, le_rfl, q, by rw [hq, max_eq_right h]⟩
      · exact ⟨i0, Nat.le_succ_of_le hi0, q0, by rw [hq0, max_eq_left h]⟩
    · show upd (fun p => (s (j + 1) p : EReal)) (fun p => (v (j + 1) p : EReal))
        (run (fun i p => (s i p : EReal)) (fun i p => (v i p : EReal)) j) = _
      rw [hrun, hu]
      have e1 : ∀ x : ℝ, Real.exp (M - max M m) * Real.exp (x - M) = Real.exp (x - max M m) := by
        intro x
        rw [← Real.exp_add]
        congr 1
        ring
      have hL : Real.exp (M - max M m) * (∑ i ∈ Finset.range (j + 1), ∑ p, Real.exp (s i p - M))
            + ∑ p, Real.exp (s (j + 1) p - max M m)
          = ∑ i ∈ Finset.range (j + 1 + 1), ∑ p, Real.exp (s i p - max M m) := by
        rw [Finset.sum_range_succ _ (j + 1), Finset.mul_sum]
        congr 1
        refine Finset.sum_congr rfl (fun i _ => ?_)
        rw [Finset.mul_sum]
        exact Finset.sum_congr rfl (fun p _ => e1 _)
      have hA : Real.exp (M - max M m) * (∑ i ∈ Finset.range (j + 1), ∑ p, Real.exp (s i p - M) * v i p)
            + ∑ p, Real.exp (s (j + 1) p - max M m) * v (j + 1) p
          = ∑ i ∈ Finset.range (j + 1 + 1), ∑ p, Real.exp (s i p - max M m) * v i p := by
        rw [Finset.sum_range_succ _ (j + 1), Finset.mul_sum]
        congr 1
        refine Finset.sum_congr rfl (fun i _ => ?_)
        rw [Finset.mul_sum]
        exact Finset.sum_congr rfl (fun p _ => by rw [← mul_assoc, e1])
      rw [hL, hA]

/-! ## The queries as eight tiles -/

/-- The 8192 queries are the 8 tiles of 1024: query `1024·j + p` is query `p` of tile `j`. -/
def tlEquiv : Fin 8 × Fin 1024 ≃ Fin 8192 where
  toFun x := tl x.1 x.2
  invFun q := (⟨q.val / 1024, by omega⟩, ⟨q.val % 1024, by omega⟩)
  left_inv := by
    rintro ⟨j, p⟩
    apply Prod.ext <;> apply Fin.ext <;> simp only [tl] <;> omega
  right_inv := by
    intro q
    apply Fin.ext
    simp only [tl]
    omega

/-- A sum over the queries is the sum over the tiles of the sums within each tile. -/
theorem sum_tiles (f : Fin 8192 → ℝ) :
    ∑ j ∈ Finset.range (7 + 1), ∑ p : Fin 1024, f (tl ⟨j % 8, Nat.mod_lt _ (by omega)⟩ p) = ∑ q : Fin 8192, f q := by
  show ∑ j ∈ Finset.range 8, ∑ p : Fin 1024, f (tl ⟨j % 8, Nat.mod_lt _ (by omega)⟩ p) = ∑ q : Fin 8192, f q
  rw [Finset.sum_range (fun j => ∑ p : Fin 1024, f (tl ⟨j % 8, Nat.mod_lt _ (by omega)⟩ p)),
    ← Equiv.sum_comp tlEquiv f, Fintype.sum_prod_type]
  refine Finset.sum_congr rfl (fun j _ => Finset.sum_congr rfl (fun p _ => ?_))
  have hj : (⟨j.val % 8, Nat.mod_lt _ (by omega)⟩ : Fin 8) = j := Fin.ext (Nat.mod_eq_of_lt j.isLt)
  rw [hj]
  rfl

/-- THE LAW: on real-valued keys, queries and values the kernel's result is the reference's. -/
theorem kerOut_eq_refOut (K Q VQ : Mat 8192 128) (wv : Mat 128 256) (bv : Vc 128)
    (hK : IsReal K) (hQ : IsReal Q) (hV : IsReal VQ) :
    kerOut K Q VQ (resid K wv bv) = refOut K Q VQ wv bv := by
  funext i
  -- real witnesses of the row's scores and the column's values
  have hS : ∀ p, ∃ r : ℝ, score K Q (i 0) p = (r : EReal) := fun p =>
    sum_mul_real Finset.univ (fun e : Fin 128 => K (ix2 (i 0) e)) (fun e : Fin 128 => Q (ix2 p e))
      (fun e => hK _) (fun e => hQ _)
  choose sr hsr using hS
  choose vr hvr using (fun p : Fin 8192 => hV (ix2 p (i 1)))
  have hts : tileS K Q (i 0) = fun j p => ((sr (tl ⟨j % 8, Nat.mod_lt _ (by omega)⟩ p) : ℝ) : EReal) := by
    funext j p
    exact hsr _
  have htv : tileV VQ (i 1) = fun j p => ((vr (tl ⟨j % 8, Nat.mod_lt _ (by omega)⟩ p) : ℝ) : EReal) := by
    funext j p
    exact hvr _
  -- the kernel's running quantities after the eighth tile
  obtain ⟨M, hub, ⟨i0, hi0, q0, hq0⟩, hrun⟩ := run_closed
    (fun j p => sr (tl ⟨j % 8, Nat.mod_lt _ (by omega)⟩ p)) (fun j p => vr (tl ⟨j % 8, Nat.mod_lt _ (by omega)⟩ p)) 7
  have hL : (∑ j ∈ Finset.range (7 + 1), ∑ p : Fin 1024, Real.exp (sr (tl ⟨j % 8, Nat.mod_lt _ (by omega)⟩ p) - M))
      = ∑ q : Fin 8192, Real.exp (sr q - M) := sum_tiles (fun q => Real.exp (sr q - M))
  have hA : (∑ j ∈ Finset.range (7 + 1), ∑ p : Fin 1024,
        Real.exp (sr (tl ⟨j % 8, Nat.mod_lt _ (by omega)⟩ p) - M) * vr (tl ⟨j % 8, Nat.mod_lt _ (by omega)⟩ p))
      = ∑ q : Fin 8192, Real.exp (sr q - M) * vr q := sum_tiles (fun q => Real.exp (sr q - M) * vr q)
  rw [hL, hA] at hrun
  -- the reference's row maximum is the same real
  obtain ⟨m, hm, hmub, q, _, hq⟩ := fold_max_real (Finset.univ : Finset (Fin 8192)) Finset.univ_nonempty sr
  have hMm : m = M := by
    apply le_antisymm
    · have hqt : tl ⟨(q.val / 1024) % 8, Nat.mod_lt _ (by omega)⟩ ⟨q.val % 1024, Nat.mod_lt _ (by omega)⟩ = q := by
        apply Fin.ext
        simp only [tl]
        omega
      have h := hub (q.val / 1024) (by omega) ⟨q.val % 1024, Nat.mod_lt _ (by omega)⟩
      rw [hqt, hq] at h
      exact h
    · rw [← hq0]
      exact hmub _ (Finset.mem_univ _)
  have hrm : rowMax K Q (i 0) = (M : EReal) := by
    have hsc : score K Q (i 0) = fun p => (sr p : EReal) := funext hsr
    unfold rowMax
    rw [hsc, hm, max_eq_right (bot_le : (⊥ : EReal) ≤ (m : EReal)), hMm]
  -- the denominator is a positive real
  have hpos : 0 < ∑ q : Fin 8192, Real.exp (sr q - M) :=
    Finset.sum_pos (fun q _ => Real.exp_pos _) Finset.univ_nonempty
  have hL0 : (∑ q : Fin 8192, Real.exp (sr q - M)) ≠ 0 := ne_of_gt hpos
  have hden : rowDen K Q (i 0) = ((∑ q : Fin 8192, Real.exp (sr q - M) : ℝ) : EReal) := by
    unfold rowDen
    rw [hrm, zero_add, coe_sum]
    refine Finset.sum_congr rfl (fun p _ => ?_)
    rw [hsr, ← EReal.coe_sub, Ideal.exp_coe]
  have hnum : ∀ p : Fin 8192,
      Ideal.div (Ideal.exp (score K Q (i 0) p - rowMax K Q (i 0))) (rowDen K Q (i 0)) * VQ (ix2 p (i 1))
        = ((Real.exp (sr p - M) * (1 / ∑ q : Fin 8192, Real.exp (sr q - M)) * vr p : ℝ) : EReal) := by
    intro p
    rw [hden, hrm, hsr, hvr, ← EReal.coe_sub, Ideal.exp_coe, Ideal.div_coe hL0, ← EReal.coe_mul, ← EReal.coe_mul]
  have hsm : (∑ p : Fin 8192,
        Ideal.div (Ideal.exp (score K Q (i 0) p - rowMax K Q (i 0))) (rowDen K Q (i 0)) * VQ (ix2 p (i 1)))
      = ((∑ p : Fin 8192, Real.exp (sr p - M) * (1 / ∑ q : Fin 8192, Real.exp (sr q - M)) * vr p : ℝ) : EReal) := by
    rw [coe_sum]
    exact Finset.sum_congr rfl (fun p _ => hnum p)
  -- the kernel's quotient is the softmax row against the column
  have hker : (run (tileS K Q (i 0)) (tileV VQ (i 1)) 7).2.2 * Ideal.div 1 (run (tileS K Q (i 0)) (tileV VQ (i 1)) 7).2.1
      = ((∑ p : Fin 8192, Real.exp (sr p - M) * (1 / ∑ q : Fin 8192, Real.exp (sr q - M)) * vr p : ℝ) : EReal) := by
    rw [hts, htv, hrun]
    show ((∑ q : Fin 8192, Real.exp (sr q - M) * vr q : ℝ) : EReal)
        * Ideal.div 1 ((∑ q : Fin 8192, Real.exp (sr q - M) : ℝ) : EReal) = _
    rw [Ideal.div_coe hL0, one_mul, ← EReal.coe_mul, Finset.sum_mul]
    exact congrArg (fun x : ℝ => (x : EReal)) (Finset.sum_congr rfl (fun p _ => mul_right_comm _ _ _))
  show (run (tileS K Q (i 0)) (tileV VQ (i 1)) 7).2.2 * Ideal.div 1 (run (tileS K Q (i 0)) (tileV VQ (i 1)) 7).2.1
      + (K i + (kterm K wv i + bv (ix1 (i 1))))
    = K i + (((∑ p : Fin 8192,
        Ideal.div (Ideal.exp (score K Q (i 0) p - rowMax K Q (i 0))) (rowDen K Q (i 0)) * VQ (ix2 p (i 1)))
      + kterm K wv i) + bv (ix1 (i 1)))
  rw [hker, hsm, add_left_comm, add_assoc]

end Cert.KernelIdeal.Sp

end
-- ==== Proof.Ref.lean ====
/-
  The reference's run, read back: its result is the softmax attention `refOut` of `Spec.lean` over the keys, queries and
  values projected from the concatenated features — each host operation read at an index: a transpose swaps the
  coordinates, a product contracted over one axis is the sum over it, a row maximum the fold of `max` from `-∞`, a row
  sum the initial zero plus the sum.
-/
import proofs.«409729_j40200893890895_3_alg».proof.Proof.Spec
import proofs.«409729_j40200893890895_3_alg».proof.Proof.Gen.ReferenceIdeal.Run
import proofs.«409729_j40200893890895_3_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.KernelIdeal.RefV

open Idealize.ShloMosaic Idealize.ShloMosaic.ValueIdx
open Cert.ReferenceIdeal Cert.ReferenceIdeal.Read Cert.KernelIdeal.Sp

/-! ## The index maps at coordinates -/

theorem lidx3_ix (n : Fin 8192) (d k : Fin 128) : lidx_main_v3 (ix2 n d) k = ix2 n k :=
  funext fun a => Fin.ext (by match a with | ⟨0, _⟩ => rfl | ⟨1, _⟩ => rfl)
theorem ridx3_ix (n : Fin 8192) (d k : Fin 128) : idx_main_v2 (ridx_main_v3 (ix2 n d) k) = ix2 d k :=
  funext fun a => Fin.ext (by match a with | ⟨0, _⟩ => rfl | ⟨1, _⟩ => rfl)
theorem bias_ix (n : Fin 8192) (d : Fin 128) : idx_main_v4 (idx_main_v5 (ix2 n d)) = ix1 d :=
  funext fun a => Fin.ext (by match a with | ⟨0, _⟩ => rfl)

/-- The keys: the features times the key weights' transpose, plus the key bias. -/
theorem keysR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x5 : (⟨S128x128, .f32⟩ : BufTy).Contents (Elt Ideal))
    (x6 : (⟨S128, .f32⟩ : BufTy).Contents (Elt Ideal)) :
    val_main_v6 (F := Ideal) x0 x1 x2 x5 x6 = proj (val_main_v1 (F := Ideal) x0 x1 x2) x5 x6 := by
  funext i
  obtain ⟨n, d, rfl⟩ : ∃ (n : Fin 8192) (d : Fin 128), i = ix2 n d := ⟨i 0, i 1, eq_ix2 i⟩
  rw [val_main_v6_apply, val_main_v3_apply, val_main_v5_apply, val_main_v4_apply]
  simp only [val_main_v2_apply, lidx3_ix, ridx3_ix, bias_ix, Ideal.addf_def]
  rfl

theorem lidx8_ix (n : Fin 8192) (d k : Fin 128) : lidx_main_v8 (ix2 n d) k = ix2 n k :=
  funext fun a => Fin.ext (by match a with | ⟨0, _⟩ => rfl | ⟨1, _⟩ => rfl)
theorem ridx8_ix (n : Fin 8192) (d k : Fin 128) : idx_main_v7 (ridx_main_v8 (ix2 n d) k) = ix2 d k :=
  funext fun a => Fin.ext (by match a with | ⟨0, _⟩ => rfl | ⟨1, _⟩ => rfl)
theorem bias10_ix (n : Fin 8192) (d : Fin 128) : idx_main_v9 (idx_main_v10 (ix2 n d)) = ix1 d :=
  funext fun a => Fin.ext (by match a with | ⟨0, _⟩ => rfl)

/-- The queries: the features times the query weights' transpose, plus the query bias. -/
theorem qrysR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) :
    val_main_v11 (F := Ideal) x0 x1 x2 x3 x4 = proj (val_main_v1 (F := Ideal) x0 x1 x2) x3 x4 := by
  funext i
  obtain ⟨n, d, rfl⟩ : ∃ (n : Fin 8192) (d : Fin 128), i = ix2 n d := ⟨i 0, i 1, eq_ix2 i⟩
  rw [val_main_v11_apply, val_main_v8_apply, val_main_v10_apply, val_main_v9_apply]
  simp only [val_main_v7_apply, lidx8_ix, ridx8_ix, bias10_ix, Ideal.addf_def]
  rfl

theorem lidx28_ix (n : Fin 8192) (d k : Fin 128) : lidx_main_v28 (ix2 n d) k = ix2 n k :=
  funext fun a => Fin.ext (by match a with | ⟨0, _⟩ => rfl | ⟨1, _⟩ => rfl)
theorem ridx28_ix (n : Fin 8192) (d k : Fin 128) :
    idx_main_v25 (idx_main_v27 (ridx_main_v28 (ix2 n d) k)) = ix2 d (lo k) :=
  funext fun a => Fin.ext (by match a with | ⟨0, _⟩ => rfl | ⟨1, _⟩ => rfl)

/-- The values: the queries times the transpose of the value weights' left half. -/
theorem valsR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x7 : (⟨S128x256, .f32⟩ : BufTy).Contents (Elt Ideal)) :
    val_main_v28 (F := Ideal) x0 x1 x2 x3 x4 x7 = vals (proj (val_main_v1 (F := Ideal) x0 x1 x2) x3 x4) x7 := by
  funext i
  obtain ⟨n, d, rfl⟩ : ∃ (n : Fin 8192) (d : Fin 128), i = ix2 n d := ⟨i 0, i 1, eq_ix2 i⟩
  rw [val_main_v28_apply, qrysR]
  simp only [val_main_v27_apply, val_main_v25_apply, lidx28_ix, ridx28_ix]
  rfl

theorem lidx31_ix (n : Fin 8192) (d k : Fin 128) : lidx_main_v31 (ix2 n d) k = ix2 n k :=
  funext fun a => Fin.ext (by match a with | ⟨0, _⟩ => rfl | ⟨1, _⟩ => rfl)
theorem ridx31_ix (n : Fin 8192) (d k : Fin 128) :
    idx_main_v26 (idx_main_v30 (ridx_main_v31 (ix2 n d) k)) = ix2 d (hi k) :=
  funext fun a => Fin.ext (by match a with | ⟨0, _⟩ => rfl | ⟨1, _⟩ => rfl)

/-- The keys' own term: the keys times the transpose of the value weights' right half. -/
theorem ktermR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x5 : (⟨S128x128, .f32⟩ : BufTy).Contents (Elt Ideal))
    (x6 : (⟨S128, .f32⟩ : BufTy).Contents (Elt Ideal)) (x7 : (⟨S128x256, .f32⟩ : BufTy).Contents (Elt Ideal)) :
    val_main_v31 (F := Ideal) x0 x1 x2 x5 x6 x7 = kterm (proj (val_main_v1 (F := Ideal) x0 x1 x2) x5 x6) x7 := by
  funext i
  obtain ⟨n, d, rfl⟩ : ∃ (n : Fin 8192) (d : Fin 128), i = ix2 n d := ⟨i 0, i 1, eq_ix2 i⟩
  rw [val_main_v31_apply, keysR]
  simp only [val_main_v30_apply, val_main_v26_apply, lidx31_ix, ridx31_ix]
  rfl

theorem lidx13_ix (n p : Fin 8192) (k : Fin 128) : lidx_main_v13 (ix2 n p) k = ix2 n k :=
  funext fun a => Fin.ext (by match a with | ⟨0, _⟩ => rfl | ⟨1, _⟩ => rfl)
theorem ridx13_ix (n p : Fin 8192) (k : Fin 128) : idx_main_v12 (ridx_main_v13 (ix2 n p) k) = ix2 p k :=
  funext fun a => Fin.ext (by match a with | ⟨0, _⟩ => rfl | ⟨1, _⟩ => rfl)

/-- The scores: key row n against query row p. -/
theorem scoreR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n p : Fin 8192) :
    val_main_v13 (F := Ideal) x0 x1 x2 x3 x4 x5 x6 (ix2 n p)
      = score (proj (val_main_v1 (F := Ideal) x0 x1 x2) x5 x6) (proj (val_main_v1 (F := Ideal) x0 x1 x2) x3 x4) n p := by
  rw [val_main_v13_apply, keysR]
  simp only [val_main_v12_apply, qrysR, lidx13_ix, ridx13_ix]
  rfl

/-! ## The row maximum -/

theorem red_cols : S8192x8192.Reduces [1] S8192 := by decide

/-- A row index with column k put back is (n, k). -/
theorem lift_ix (n : Fin 8192) (k : Fin (S8192x8192.size 1)) :
    red_cols.lift (ix1 n) k = ix2 n (⟨k.val, k.isLt⟩ : Fin 8192) := by
  funext c; apply Fin.ext
  match c with | ⟨0, _⟩ => rfl | ⟨1, _⟩ => rfl

theorem ninf_bits : Ideal.ofBits .f32 0xFF800000#32 = (⊥ : EReal) := by simp [Ideal.ofBits, Ideal.ieee]

/-- The largest score of row n. -/
theorem rowMaxR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n : Fin 8192) :
    val_main_v16 (F := Ideal) x0 x1 x2 x3 x4 x5 x6 (ix1 n)
      = rowMax (proj (val_main_v1 (F := Ideal) x0 x1 x2) x5 x6) (proj (val_main_v1 (F := Ideal) x0 x1 x2) x3 x4) n := by
  rw [val_main_v16_apply, val_main_v15_apply, val_main_cst_0_apply]
  unfold val_main_v14
  rw [Host.reduce_eq_fold_single FloatOps.maximumf _ _ Gen.reducesTo_S8192x8192_S8192_d1 red_cols Gen.h_S_, val_main_cst_apply]
  have hf : (val_main_v13 (F := Ideal) x0 x1 x2 x3 x4 x5 x6 ∘ red_cols.lift (ix1 n))
      = score (proj (val_main_v1 (F := Ideal) x0 x1 x2) x5 x6) (proj (val_main_v1 (F := Ideal) x0 x1 x2) x3 x4) n :=
    funext fun k => by
      show val_main_v13 (F := Ideal) x0 x1 x2 x3 x4 x5 x6 (red_cols.lift (ix1 n) k) = _
      rw [lift_ix, scoreR]
      rfl
  rw [hf, Ideal.ofBits_def, ninf_bits]
  rfl

/-! ## The softmax row -/

theorem row18_ix (n p : Fin 8192) : idx_main_v17 (idx_main_v18 (ix2 n p)) = ix1 n :=
  funext fun a => Fin.ext (by match a with | ⟨0, _⟩ => rfl)
theorem row23_ix (n p : Fin 8192) : idx_main_v22 (idx_main_v23 (ix2 n p)) = ix1 n :=
  funext fun a => Fin.ext (by match a with | ⟨0, _⟩ => rfl)
theorem col21_ix (n k : Fin 8192) : idx_main_v21 (ix1 n) k = ix2 n k :=
  funext fun a => Fin.ext (by match a with | ⟨0, _⟩ => rfl | ⟨1, _⟩ => rfl)

/-- The exponential of a score less its row's maximum. -/
theorem expR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n p : Fin 8192) :
    val_main_v20 (F := Ideal) x0 x1 x2 x3 x4 x5 x6 (ix2 n p)
      = Ideal.exp (score (proj (val_main_v1 (F := Ideal) x0 x1 x2) x5 x6) (proj (val_main_v1 (F := Ideal) x0 x1 x2) x3 x4) n p
          - rowMax (proj (val_main_v1 (F := Ideal) x0 x1 x2) x5 x6) (proj (val_main_v1 (F := Ideal) x0 x1 x2) x3 x4) n) := by
  rw [val_main_v20_apply, val_main_v19_apply, val_main_v18_apply, val_main_v17_apply, row18_ix, rowMaxR, scoreR,
    Ideal.hostUnary_exp_def, Ideal.subf_def]

/-- The softmax's denominator of row n. -/
theorem rowDenR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n : Fin 8192) :
    val_main_v21 (F := Ideal) x0 x1 x2 x3 x4 x5 x6 (ix1 n)
      = rowDen (proj (val_main_v1 (F := Ideal) x0 x1 x2) x5 x6) (proj (val_main_v1 (F := Ideal) x0 x1 x2) x3 x4) n := by
  rw [val_main_v21_apply, val_main_cst_1_apply, Ideal.ofBits_def, Ideal.ofBits_zero_f32]
  simp only [col21_ix, expR]
  rfl

/-- The softmax weight of query p in row n. -/
theorem probR (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n p : Fin 8192) :
    val_main_v24 (F := Ideal) x0 x1 x2 x3 x4 x5 x6 (ix2 n p)
      = Ideal.div (Ideal.exp (score (proj (val_main_v1 (F := Ideal) x0 x1 x2) x5 x6) (proj (val_main_v1 (F := Ideal) x0 x1 x2) x3 x4) n p
          - rowMax (proj (val_main_v1 (F := Ideal) x0 x1 x2) x5 x6) (proj (val_main_v1 (F := Ideal) x0 x1 x2) x3 x4) n))
          (rowDen (proj (val_main_v1 (F := Ideal) x0 x1 x2) x5 x6) (proj (val_main_v1 (F := Ideal) x0 x1 x2) x3 x4) n) := by
  rw [val_main_v24_apply, val_main_v23_apply, val_main_v22_apply, row23_ix, rowDenR, expR, Ideal.hostDivf_def]

/-! ## The weighted sum of the values, and the result -/

theorem lidx29_ix (n : Fin 8192) (d : Fin 128) (p : Fin 8192) : lidx_main_v29 (ix2 n d) p = ix2 n p :=
  funext fun a => Fin.ext (by match a with | ⟨0, _⟩ => rfl | ⟨1, _⟩ => rfl)
theorem ridx29_ix (n : Fin 8192) (d : Fin 128) (p : Fin 8192) : ridx_main_v29 (ix2 n d) p = ix2 p d :=
  funext fun a => Fin.ext (by match a with | ⟨0, _⟩ => rfl | ⟨1, _⟩ => rfl)
theorem bias34_ix (n : Fin 8192) (d : Fin 128) : idx_main_v33 (idx_main_v34 (ix2 n d)) = ix1 d :=
  funext fun a => Fin.ext (by match a with | ⟨0, _⟩ => rfl)

/-- The reference's result is the softmax attention of the projections of the concatenated features. -/
theorem ref_eq (x0 : (⟨S8192x3, .f32⟩ : BufTy).Contents (Elt Ideal)) (x1 : (⟨S1x3, .f32⟩ : BufTy).Contents (Elt Ideal))
    (x2 : (⟨S8192x122, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x256, .f32⟩ : BufTy).Contents (Elt Ideal))
    (x8 : (⟨S128, .f32⟩ : BufTy).Contents (Elt Ideal)) :
    val_main_v36 (F := Ideal) x0 x1 x2 x3 x4 x5 x6 x7 x8
      = refOut (proj (val_main_v1 (F := Ideal) x0 x1 x2) x5 x6) (proj (val_main_v1 (F := Ideal) x0 x1 x2) x3 x4)
          (vals (proj (val_main_v1 (F := Ideal) x0 x1 x2) x3 x4) x7) x7 x8 := by
  funext i
  obtain ⟨n, d, rfl⟩ : ∃ (n : Fin 8192) (d : Fin 128), i = ix2 n d := ⟨i 0, i 1, eq_ix2 i⟩
  rw [val_main_v36_apply, val_main_v35_apply, val_main_v32_apply, val_main_v29_apply, val_main_v34_apply,
    val_main_v33_apply, bias34_ix, ktermR, keysR, valsR]
  simp only [lidx29_ix, ridx29_ix, probR, Ideal.addf_def]
  rfl

end Cert.KernelIdeal.RefV

end
-- ==== Proof.Fin.lean ====
/-
  Under the precondition every entry of every argument array is a real number: the precondition says of each
  array that every entry's absolute value is below `+∞`, which rules out both infinities. The concatenated
  features, each entry of which is an entry of one of three real-valued arrays, are then real-valued too.
-/
import proofs.«409729_j40200893890895_3_alg».proof.Defs
import proofs.«409729_j40200893890895_3_alg».proof.Proof.Gen.ReferenceIdeal.Read
import Idealize.ShloMosaic.Lib.ReduceAll
import Idealize.ShloMosaic.Lib.Pipeline.Value
import Idealize.ShloMosaic.Lib.ValueIdx

noncomputable section

namespace Cert.KernelIdeal.FinV

open Idealize.ShloMosaic Idealize.SL.Sem

/-! ## An extended real whose absolute value is below `+∞` is a real -/

/-- The scalar shape has one index. -/
instance : Subsingleton Cert.Pre_finite_inputs.S_.Idx := ⟨fun a b => funext fun d => d.elim0⟩

/-- `max x (-x) < +∞`, as the one-bit word of the comparison against the pattern of `+∞`, forces `x` real:
    at `x = ⊥` the maximum is `-⊥ = ⊤`, at `x = ⊤` it is `⊤`, and `⊤ < ⊤` is false. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- `jnp.all(|x| < +∞)` over an array of any shape, printed as the `and`-reduction of the elementwise comparison
    into a scalar: if it is 1, every entry of `x` is real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
        (cmpf .olt (Host.absf x) (broadcastInDim s ![] hb (constant Cert.Pre_finite_inputs.S_ .f32 0x7F800000#32)))
        init hr hu ValueIdx.ix0 = 1#1) :
    ∀ i, ∃ r : ℝ, x i = (r : EReal) := fun i =>
  real_of_abs_lt (x i) (Host.reduce_andi_all _ init hr hu ValueIdx.ix0 e i)

/-- Under the precondition every entry of every argument array is real. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal)) := by
  have e := congrFun (h c) ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e1⟩, e2⟩, e3⟩, e4⟩, e5⟩, e6⟩, e7⟩, e8⟩ := e
  exact ⟨real_of_all _ _ _ _ _ e0, real_of_all _ _ _ _ _ e1, real_of_all _ _ _ _ _ e2, real_of_all _ _ _ _ _ e3,
    real_of_all _ _ _ _ _ e4, real_of_all _ _ _ _ _ e5, real_of_all _ _ _ _ _ e6, real_of_all _ _ _ _ _ e7,
    real_of_all _ _ _ _ _ e8⟩

/-! ## A concatenation of real-valued pieces is real-valued -/

/-- Every element of a concatenation is an element of one of its pieces, so a property of every element of every
    piece is a property of every element of the concatenation. -/
theorem concatenate_pred {α : Type} (P : α → Prop) {t : Shape} (a : Fin t.rank)
    (xs : List ((s : Shape) × (s.Idx → α))) (h : Shape.Concatenates (xs.map (·.1)) t a)
    (hx : ∀ p ∈ xs, ∀ k : p.1.Idx, P (p.2 k)) (j : t.Idx) : P (concatenate t a xs h j) := by
  unfold concatenate
  exact hx _ (List.getElem_mem _) _

/-- The concatenated features of real-valued arrays are real-valued. -/
theorem xcat_real (x0 : (⟨Cert.ReferenceIdeal.S8192x3, .f32⟩ : BufTy).Contents (Elt Ideal))
    (x1 : (⟨Cert.ReferenceIdeal.S1x3, .f32⟩ : BufTy).Contents (Elt Ideal))
    (x2 : (⟨Cert.ReferenceIdeal.S8192x122, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    ∀ i, ∃ r : ℝ, Cert.ReferenceIdeal.Read.val_main_v1 (F := Ideal) x0 x1 x2 i = (r : EReal) := by
  intro i
  unfold Cert.ReferenceIdeal.Read.val_main_v1
  refine concatenate_pred (fun v : EReal => ∃ r : ℝ, v = (r : EReal)) _ _ _ ?_ i
  intro p hp k
  simp only [List.mem_cons, List.not_mem_nil, or_false] at hp
  rcases hp with rfl | rfl | rfl
  · exact h0 k
  · show ∃ r : ℝ, Cert.ReferenceIdeal.Read.val_main_v0 (F := Ideal) x1 k = (r : EReal)
    rw [Cert.ReferenceIdeal.Read.val_main_v0_apply]
    exact h1 _
  · exact h2 k

end Cert.KernelIdeal.FinV

end
-- ==== Proof.Asm.lean ====
/-
  The two programs compute the same array at the ideal instance.

  The kernel's result array is what the attention region leaves, `kerOut` of the four arrays the projection region
  leaves; those are the keys, queries, values and residual (`Spec.lean`) of the features the host stretch
  concatenates and of the weights, the biases reshaped to rows. The reference's result is `refOut` of the same
  keys, queries and values. Under the precondition every argument is real-valued, hence the features, the keys,
  the queries and the values, and on real-valued keys, queries and values the two results are equal (`Law.lean`).
-/
import proofs.«409729_j40200893890895_3_alg».proof.Proof.Args
import proofs.«409729_j40200893890895_3_alg».proof.Proof.Val0
import proofs.«409729_j40200893890895_3_alg».proof.Proof.Val1
import proofs.«409729_j40200893890895_3_alg».proof.Proof.Law
import proofs.«409729_j40200893890895_3_alg».proof.Proof.Ref
import proofs.«409729_j40200893890895_3_alg».proof.Proof.Fin
import Idealize.ShloMosaic.Lib.StableHlo.Run

set_option maxRecDepth 16384

noncomputable section

open scoped BigOperators

namespace Cert.KernelIdeal.Fr

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Sp

variable (m : (ℓ : Loc nD τ sig) → Buf (Elt Ideal) ℓ) (ρ : Dev nD → PrngReg)

/-! ## What the host stretch leaves -/

/-- The features the host stretch concatenates. -/
theorem V1_feat (c : Dev nD) : (V1 m ρ c main_v1 : S8192x128.Idx → EReal)
    = Cert.ReferenceIdeal.Read.val_main_v1 (F := Ideal) (m ((c : Thread nD τ).loc main_arg0)) (m ((c : Thread nD τ).loc main_arg1)) (m ((c : Thread nD τ).loc main_arg2)) := by
  show StableHlo.after hostOps0 (W0 m ρ c) (Proc.devRef .tc main_v1) = _
  after_results
  rfl

/-- A bias reshaped to a row, read back as a vector, is the bias. -/
theorem rowV_reshape (b : S128.Idx → EReal) : rowV (shapeCast S1x128 b shapeCasts_S128_S1x128) = b := by
  funext i
  unfold rowV
  refine (shapeCast_apply b shapeCasts_S128_S1x128 (ix2 0 (i 0)) i ?_)
  rw [Shape.rowMajor_val_one, Shape.rowMajor_val_two]
  simp

theorem V1_bq (c : Dev nD) : rowV (V1 m ρ c main_v2) = (m ((c : Thread nD τ).loc main_arg4)) := by
  have e : (V1 m ρ c main_v2 : S1x128.Idx → EReal) = shapeCast S1x128 (m ((c : Thread nD τ).loc main_arg4)) shapeCasts_S128_S1x128 := by
    show StableHlo.after hostOps0 (W0 m ρ c) (Proc.devRef .tc main_v2) = _
    after_results
    rfl
  rw [e]; exact rowV_reshape _
theorem V1_bk (c : Dev nD) : rowV (V1 m ρ c main_v3) = (m ((c : Thread nD τ).loc main_arg6)) := by
  have e : (V1 m ρ c main_v3 : S1x128.Idx → EReal) = shapeCast S1x128 (m ((c : Thread nD τ).loc main_arg6)) shapeCasts_S128_S1x128 := by
    show StableHlo.after hostOps0 (W0 m ρ c) (Proc.devRef .tc main_v3) = _
    after_results
    rfl
  rw [e]; exact rowV_reshape _
theorem V1_bv (c : Dev nD) : rowV (V1 m ρ c main_v4) = (m ((c : Thread nD τ).loc main_arg8)) := by
  have e : (V1 m ρ c main_v4 : S1x128.Idx → EReal) = shapeCast S1x128 (m ((c : Thread nD τ).loc main_arg8)) shapeCasts_S128_S1x128 := by
    show StableHlo.after hostOps0 (W0 m ρ c) (Proc.devRef .tc main_v4) = _
    after_results
    rfl
  rw [e]; exact rowV_reshape _

theorem V1_wq (c : Dev nD) : V1 m ρ c main_arg3 = (m ((c : Thread nD τ).loc main_arg3)) := W1_of_ne m ρ c main_arg3 (by decide)
theorem V1_wk (c : Dev nD) : V1 m ρ c main_arg5 = (m ((c : Thread nD τ).loc main_arg5)) := W1_of_ne m ρ c main_arg5 (by decide)
theorem V1_wv (c : Dev nD) : V1 m ρ c main_arg7 = (m ((c : Thread nD τ).loc main_arg7)) := W1_of_ne m ρ c main_arg7 (by decide)

/-! ## The kernel's result -/

/-- Under the precondition the result array the kernel leaves is the reference's softmax attention of the keys, queries
    and values projected from the concatenated features. -/
theorem kernel_result [hP : Cert.Pre_finite_inputs.Facts] (hpre : Cert.Pre_KernelIdeal m) (c : Dev nD) :
    (W3 m ρ c (Proc.devRef .tc main_v6) : S8192x128.Idx → EReal)
      = refOut (proj (Cert.ReferenceIdeal.Read.val_main_v1 (F := Ideal) (m ((c : Thread nD τ).loc main_arg0)) (m ((c : Thread nD τ).loc main_arg1)) (m ((c : Thread nD τ).loc main_arg2))) (m ((c : Thread nD τ).loc main_arg5)) (m ((c : Thread nD τ).loc main_arg6))) (proj (Cert.ReferenceIdeal.Read.val_main_v1 (F := Ideal) (m ((c : Thread nD τ).loc main_arg0)) (m ((c : Thread nD τ).loc main_arg1)) (m ((c : Thread nD τ).loc main_arg2))) (m ((c : Thread nD τ).loc main_arg3)) (m ((c : Thread nD τ).loc main_arg4)))
          (vals (proj (Cert.ReferenceIdeal.Read.val_main_v1 (F := Ideal) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg7))) (m ((c : Thread nD τ).loc main_arg7)) (m ((c : Thread nD τ).loc main_arg8)) := by
  obtain ⟨h0, h1, h2, h3, h4, h5, h6, h7, h8⟩ := Cert.KernelIdeal.FinV.real_of_pre m hpre c
  have hX := Cert.KernelIdeal.FinV.xcat_real _ _ _ h0 h1 h2
  have e4 : (W3 m ρ c (Proc.devRef .tc main_v6) : S8192x128.Idx → EReal)
      = kerOut (V2 m ρ c main_v5_0) (V2 m ρ c main_v5_1) (V2 m ρ c main_v5_2) (V2 m ρ c main_v5_3) :=
    (W3_arr m ρ c 4).trans (arr1_4 (V2 m ρ) c)
  have k7 : (V2 m ρ c main_v5_0 : S8192x128.Idx → EReal)
      = proj (V1 m ρ c main_v1) (V1 m ρ c main_arg5) (rowV (V1 m ρ c main_v3)) := (W2_arr m ρ c 7).trans (arr0_7 (V1 m ρ) c)
  have k8 : (V2 m ρ c main_v5_1 : S8192x128.Idx → EReal)
      = proj (V1 m ρ c main_v1) (V1 m ρ c main_arg3) (rowV (V1 m ρ c main_v2)) := (W2_arr m ρ c 8).trans (arr0_8 (V1 m ρ) c)
  have k9 : (V2 m ρ c main_v5_2 : S8192x128.Idx → EReal)
      = vals (proj (V1 m ρ c main_v1) (V1 m ρ c main_arg3) (rowV (V1 m ρ c main_v2))) (V1 m ρ c main_arg7) := (W2_arr m ρ c 9).trans (arr0_9 (V1 m ρ) c)
  have k10 : (V2 m ρ c main_v5_3 : S8192x128.Idx → EReal)
      = resid (proj (V1 m ρ c main_v1) (V1 m ρ c main_arg5) (rowV (V1 m ρ c main_v3))) (V1 m ρ c main_arg7) (rowV (V1 m ρ c main_v4)) :=
    (W2_arr m ρ c 10).trans (arr0_10 (V1 m ρ) c)
  rw [e4, k7, k8, k9, k10, V1_feat, V1_bq, V1_bk, V1_bv, V1_wq, V1_wk, V1_wv]
  exact kerOut_eq_refOut _ _ _ _ _ (proj_real _ _ _ hX h5 h6) (proj_real _ _ _ hX h3 h4)
    (vals_real _ _ (proj_real _ _ _ hX h3 h4) h7)

end Cert.KernelIdeal.Fr

end
-- ==== Proof.lean ====
/-
  The certificate's claim. Both printed kernel programs — the word-level one and its idealization, the same text —
  run the host stretch, the projection region and the attention region to the end, nothing faulting, and leave
  the argument arrays as launched (`Args.lean`, `BArgs.lean`); the reference program's frame is its run read back.
  The ideal pass rewrote nothing, so there is nothing to preserve. At the ideal instance the kernel's result array
  is the reference's (`Asm.lean`): the online-softmax recursion over eight tiles of queries, with its running
  maximum, rescaled sums and final division, is the softmax of the whole score row against the values.
-/
import proofs.«409729_j40200893890895_3_alg».proof.Defs
import proofs.«409729_j40200893890895_3_alg».proof.Proof.Gen.Kernel
import proofs.«409729_j40200893890895_3_alg».proof.Proof.Gen.KernelIdeal
import proofs.«409729_j40200893890895_3_alg».proof.Proof.Gen.ReferenceIdeal
import proofs.«409729_j40200893890895_3_alg».proof.Proof.Gen.Pre_finite_inputs
import proofs.«409729_j40200893890895_3_alg».proof.Proof.BArgs
import proofs.«409729_j40200893890895_3_alg».proof.Proof.Asm

noncomputable section

namespace Cert.Proof

open Idealize.ShloMosaic Idealize.ShloMosaic.TcCoe Idealize.SL.Sem

theorem frame_k : Cert.frame_Kernel := fun m ρ _ => Cert.Kernel.Fr.frame_all m ρ

theorem frame_ki : Cert.frame_KernelIdeal := fun m ρ _ => Cert.KernelIdeal.Fr.frame_all m ρ

theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments, the kernel's program ends with its result array
    at what the attention region leaves, and the reference's with the same array. -/
theorem algebraic : Cert.algebraic_KernelIdeal_ReferenceIdeal := by
  intro m ρ m' ρ' hpre hagree
  refine ⟨fun c => Cert.KernelIdeal.Fr.W3 m ρ c (Proc.devRef .tc Cert.KernelIdeal.main_v6), ?_, ?_⟩
  · exact (θ_run Cert.KernelIdeal.defs _ _).mono (fun r h c =>
      ⟨h c _ (Cert.KernelIdeal.Fr.mem_uc Cert.KernelIdeal.main_v6 (by decide)),
        (h c _ (Cert.KernelIdeal.Fr.mem_uc Cert.KernelIdeal.main_arg0 (by decide))).trans (Cert.KernelIdeal.Fr.W3_main_arg0 m ρ c),
        (h c _ (Cert.KernelIdeal.Fr.mem_uc Cert.KernelIdeal.main_arg1 (by decide))).trans (Cert.KernelIdeal.Fr.W3_main_arg1 m ρ c),
        (h c _ (Cert.KernelIdeal.Fr.mem_uc Cert.KernelIdeal.main_arg2 (by decide))).trans (Cert.KernelIdeal.Fr.W3_main_arg2 m ρ c),
        (h c _ (Cert.KernelIdeal.Fr.mem_uc Cert.KernelIdeal.main_arg3 (by decide))).trans (Cert.KernelIdeal.Fr.W3_main_arg3 m ρ c),
        (h c _ (Cert.KernelIdeal.Fr.mem_uc Cert.KernelIdeal.main_arg4 (by decide))).trans (Cert.KernelIdeal.Fr.W3_main_arg4 m ρ c),
        (h c _ (Cert.KernelIdeal.Fr.mem_uc Cert.KernelIdeal.main_arg5 (by decide))).trans (Cert.KernelIdeal.Fr.W3_main_arg5 m ρ c),
        (h c _ (Cert.KernelIdeal.Fr.mem_uc Cert.KernelIdeal.main_arg6 (by decide))).trans (Cert.KernelIdeal.Fr.W3_main_arg6 m ρ c),
        (h c _ (Cert.KernelIdeal.Fr.mem_uc Cert.KernelIdeal.main_arg7 (by decide))).trans (Cert.KernelIdeal.Fr.W3_main_arg7 m ρ c),
        (h c _ (Cert.KernelIdeal.Fr.mem_uc Cert.KernelIdeal.main_arg8 (by decide))).trans (Cert.KernelIdeal.Fr.W3_main_arg8 m ρ c)⟩)
      (Cert.KernelIdeal.Fr.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, Cert.KernelIdeal.RefV.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.KernelIdeal.Fr.kernel_result m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
